-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x256x256 : Shape := ⟨4, ![64, 16, 256, 256]⟩
abbrev S64x2x256x256 : Shape := ⟨4, ![64, 2, 256, 256]⟩
abbrev S64x16x2 : Shape := ⟨3, ![64, 16, 2]⟩
abbrev S_ : Shape := ⟨0, ![]⟩

class Facts : Prop where
  bcast_S_S64x16x256x256 : S_.BroadcastsInDim S64x16x256x256 (![] : Fin 0 → Fin S64x16x256x256.rank)
  reducesTo_S64x16x256x256_S_d0_1_2_3 : S64x16x256x256.ReducesTo [0, 1, 2, 3] S_
  h_S_ : 0 < S_.numel
  bcast_S_S64x2x256x256 : S_.BroadcastsInDim S64x2x256x256 (![] : Fin 0 → Fin S64x2x256x256.rank)
  reducesTo_S64x2x256x256_S_d0_1_2_3 : S64x2x256x256.ReducesTo [0, 1, 2, 3] S_
  bcast_S_S64x16x2 : S_.BroadcastsInDim S64x16x2 (![] : Fin 0 → Fin S64x16x2.rank)
  reducesTo_S64x16x2_S_d0_1_2 : S64x16x2.ReducesTo [0, 1, 2] S_

variable [Facts]

def fn_part1 {F : FTy → Type} [FloatOps F] (main_arg4 : FVec F S64x16x2 .f32) (main_arg5 : FVec F S64x16x2 .f32) (main_v13 : IVec S_ 1) (main_v16 : IVec S64x16x256x256 1) : IVec S_ 1 :=
  let main_c_5 : IVec S_ 1 := constantI S_ 1 1#1
  let main_v17 : IVec S_ 1 := (fun x v => Host.reduce IntOp.andi x v reducesTo_S64x16x256x256_S_d0_1_2_3 h_S_) main_v16 main_c_5
  let main_v18 : IVec S_ 1 := andi main_v13 main_v17
  let main_v19 : FVec F S64x16x2 .f32 := Host.absf main_arg4
  let main_cst_6 : FVec F S_ .f32 := constant S_ .f32 0x7F800000#32
  let main_v20 : FVec F S64x16x2 .f32 := broadcastInDim S64x16x2 ![] bcast_S_S64x16x2 main_cst_6
  let main_v21 : IVec S64x16x2 1 := cmpf .olt main_v19 main_v20
  let main_c_7 : IVec S_ 1 := constantI S_ 1 1#1
  let main_v22 : IVec S_ 1 := (fun x v => Host.reduce IntOp.andi x v reducesTo_S64x16x2_S_d0_1_2 h_S_) main_v21 main_c_7
  let main_v23 : IVec S_ 1 := andi main_v18 main_v22
  let main_v24 : FVec F S64x16x2 .f32 := Host.absf main_arg5
  let main_cst_8 : FVec F S_ .f32 := constant S_ .f32 0x7F800000#32
  let main_v25 : FVec F S64x16x2 .f32 := broadcastInDim S64x16x2 ![] bcast_S_S64x16x2 main_cst_8
  let main_v26 : IVec S64x16x2 1 := cmpf .olt main_v24 main_v25
  let main_c_9 : IVec S_ 1 := constantI S_ 1 1#1
  let main_v27 : IVec S_ 1 := (fun x v => Host.reduce IntOp.andi x v reducesTo_S64x16x2_S_d0_1_2 h_S_) main_v26 main_c_9
  let main_v28 : IVec S_ 1 := andi main_v23 main_v27
  main_v28

def fn {F : FTy → Type} [FloatOps F] (main_arg0 : FVec F S64x16x256x256 .f32) (main_arg1 : FVec F S64x2x256x256 .f32) (main_arg2 : FVec F S64x2x256x256 .f32) (main_arg3 : FVec F S64x16x256x256 .f32) (main_arg4 : FVec F S64x16x2 .f32) (main_arg5 : FVec F S64x16x2 .f32) (main_arg6 : IVec S64x16x2 32) : IVec S_ 1 :=
  let main_v0 : FVec F S64x16x256x256 .f32 := Host.absf main_arg0
  let main_cst : FVec F S_ .f32 := constant S_ .f32 0x7F800000#32
  let main_v1 : FVec F S64x16x256x256 .f32 := broadcastInDim S64x16x256x256 ![] bcast_S_S64x16x256x256 main_cst
  let main_v2 : IVec S64x16x256x256 1 := cmpf .olt main_v0 main_v1
  let main_c : IVec S_ 1 := constantI S_ 1 1#1
  let main_v3 : IVec S_ 1 := (fun x v => Host.reduce IntOp.andi x v reducesTo_S64x16x256x256_S_d0_1_2_3 h_S_) main_v2 main_c
  let main_v4 : FVec F S64x2x256x256 .f32 := Host.absf main_arg1
  let main_cst_0 : FVec F S_ .f32 := constant S_ .f32 0x7F800000#32
  let main_v5 : FVec F S64x2x256x256 .f32 := broadcastInDim S64x2x256x256 ![] bcast_S_S64x2x256x256 main_cst_0
  let main_v6 : IVec S64x2x256x256 1 := cmpf .olt main_v4 main_v5
  let main_c_1 : IVec S_ 1 := constantI S_ 1 1#1
  let main_v7 : IVec S_ 1 := (fun x v => Host.reduce IntOp.andi x v reducesTo_S64x2x256x256_S_d0_1_2_3 h_S_) main_v6 main_c_1
  let main_v8 : IVec S_ 1 := andi main_v3 main_v7
  let main_v9 : FVec F S64x2x256x256 .f32 := Host.absf main_arg2
  let main_cst_2 : FVec F S_ .f32 := constant S_ .f32 0x7F800000#32
  let main_v10 : FVec F S64x2x256x256 .f32 := broadcastInDim S64x2x256x256 ![] bcast_S_S64x2x256x256 main_cst_2
  let main_v11 : IVec S64x2x256x256 1 := cmpf .olt main_v9 main_v10
  let main_c_3 : IVec S_ 1 := constantI S_ 1 1#1
  let main_v12 : IVec S_ 1 := (fun x v => Host.reduce IntOp.andi x v reducesTo_S64x2x256x256_S_d0_1_2_3 h_S_) main_v11 main_c_3
  let main_v13 : IVec S_ 1 := andi main_v8 main_v12
  let main_v14 : FVec F S64x16x256x256 .f32 := Host.absf main_arg3
  let main_cst_4 : FVec F S_ .f32 := constant S_ .f32 0x7F800000#32
  let main_v15 : FVec F S64x16x256x256 .f32 := broadcastInDim S64x16x256x256 ![] bcast_S_S64x16x256x256 main_cst_4
  let main_v16 : IVec S64x16x256x256 1 := cmpf .olt main_v14 main_v15
  fn_part1 (F := F) main_arg4 main_arg5 main_v13 main_v16
-- ==== Kernel.lean ====
abbrev S64x16x256x256 : Shape := ⟨4, ![64, 16, 256, 256]⟩
abbrev S64x2x256x256 : Shape := ⟨4, ![64, 2, 256, 256]⟩
abbrev S64x16x2 : Shape := ⟨3, ![64, 16, 2]⟩
abbrev S1024x256x256 : Shape := ⟨3, ![1024, 256, 256]⟩
abbrev S2x8x128 : Shape := ⟨3, ![2, 8, 128]⟩
abbrev S32x256x256 : Shape := ⟨3, ![32, 256, 256]⟩
abbrev S1x8x128 : Shape := ⟨3, ![1, 8, 128]⟩
abbrev S1x1 : Shape := ⟨2, ![1, 1]⟩
abbrev S8x256x256 : Shape := ⟨3, ![8, 256, 256]⟩
abbrev S8x256 : Shape := ⟨2, ![8, 256]⟩
abbrev S8x256x1 : Shape := ⟨3, ![8, 256, 1]⟩
abbrev S8x1 : Shape := ⟨2, ![8, 1]⟩
abbrev S8x1x1 : Shape := ⟨3, ![8, 1, 1]⟩
abbrev S1x1x1 : Shape := ⟨3, ![1, 1, 1]⟩
abbrev S_ : Shape := ⟨0, ![]⟩
abbrev S64 : Shape := ⟨1, ![64]⟩
abbrev S64x1x1 : Shape := ⟨3, ![64, 1, 1]⟩
abbrev S2 : Shape := ⟨1, ![2]⟩
abbrev S1x1x2 : Shape := ⟨3, ![1, 1, 2]⟩
abbrev S64x16x1 : Shape := ⟨3, ![64, 16, 1]⟩
abbrev S64x16 : Shape := ⟨2, ![64, 16]⟩
abbrev S64x16x2x1 : Shape := ⟨4, ![64, 16, 2, 1]⟩
abbrev S64x16x2x4 : Shape := ⟨4, ![64, 16, 2, 4]⟩

abbrev nBuf : Space → Nat
  | .hbm => 155
  | .vmem => 7
  | .smem => 0
  | _ => 0

abbrev hbmTy0_0 (i : Nat) : BufTy := match i % 128 with
  | 0 => ⟨S64x16x256x256, .f32⟩
  | 1 => ⟨S64x2x256x256, .f32⟩
  | 2 => ⟨S64x2x256x256, .f32⟩
  | 3 => ⟨S64x16x256x256, .f32⟩
  | 4 => ⟨S64x16x2, .f32⟩
  | 5 => ⟨S64x16x2, .f32⟩
  | 6 => ⟨S64x16x2, .i32⟩
  | 7 => ⟨S1024x256x256, .f32⟩
  | 8 => ⟨S1024x256x256, .f32⟩
  | 9 => ⟨S2x8x128, .f32⟩
  | 10 => ⟨S1x1x1, .f32⟩
  | 11 => ⟨S_, .f32⟩
  | 12 => ⟨S1x1x1, .f32⟩
  | 13 => ⟨S_, .f32⟩
  | 14 => ⟨S_, .f32⟩
  | 15 => ⟨S_, .f32⟩
  | 16 => ⟨S_, .f32⟩
  | 17 => ⟨S64, .i32⟩
  | 18 => ⟨S64x1x1, .i32⟩
  | 19 => ⟨S2, .i32⟩
  | 20 => ⟨S1x1x2, .i32⟩
  | 21 => ⟨S64x16x1, .i32⟩
  | 22 => ⟨S64x16, .i32⟩
  | 23 => ⟨S64x16x1, .i32⟩
  | 24 => ⟨S64x16x1, .i32⟩
  | 25 => ⟨S64x16, .i32⟩
  | 26 => ⟨S64x16x1, .i32⟩
  | 27 => ⟨S_, .i32⟩
  | 28 => ⟨S64x1x1, .i32⟩
  | 29 => ⟨S64x1x1, .i1⟩
  | 30 => ⟨S_, .i32⟩
  | 31 => ⟨S64x1x1, .i32⟩
  | 32 => ⟨S64x1x1, .i32⟩
  | 33 => ⟨S64x1x1, .i32⟩
  | 34 => ⟨S_, .i32⟩
  | 35 => ⟨S1x1x2, .i32⟩
  | 36 => ⟨S1x1x2, .i1⟩
  | 37 => ⟨S_, .i32⟩
  | 38 => ⟨S1x1x2, .i32⟩
  | 39 => ⟨S1x1x2, .i32⟩
  | 40 => ⟨S1x1x2, .i32⟩
  | 41 => ⟨S_, .i32⟩
  | 42 => ⟨S64x16x1, .i32⟩
  | 43 => ⟨S64x16x1, .i1⟩
  | 44 => ⟨S_, .i32⟩
  | 45 => ⟨S64x16x1, .i32⟩
  | 46 => ⟨S64x16x1, .i32⟩
  | 47 => ⟨S64x16x1, .i32⟩
  | 48 => ⟨S_, .i32⟩
  | 49 => ⟨S64x16x1, .i32⟩
  | 50 => ⟨S64x16x1, .i1⟩
  | 51 => ⟨S_, .i32⟩
  | 52 => ⟨S64x16x1, .i32⟩
  | 53 => ⟨S64x16x1, .i32⟩
  | 54 => ⟨S64x16x1, .i32⟩
  | 55 => ⟨S64x16x2, .i32⟩
  | 56 => ⟨S64x16x2, .i32⟩
  | 57 => ⟨S64x16x2, .i32⟩
  | 58 => ⟨S64x16x2, .i32⟩
  | 59 => ⟨S64x16x2x1, .i32⟩
  | 60 => ⟨S64x16x2x1, .i32⟩
  | 61 => ⟨S64x16x2x1, .i32⟩
  | 62 => ⟨S64x16x2x1, .i32⟩
  | 63 => ⟨S64x16x2x4, .i32⟩
  | 64 => ⟨S64x16x2, .f32⟩
  | 65 => ⟨S64x16x2, .f32⟩
  | 66 => ⟨S64x16x2, .f32⟩
  | 67 => ⟨S_, .f32⟩
  | 68 => ⟨S64x16x2, .f32⟩
  | 69 => ⟨S64x16x2, .i1⟩
  | 70 => ⟨S_, .f32⟩
  | 71 => ⟨S64x16x2, .f32⟩
  | 72 => ⟨S64x16x2, .f32⟩
  | 73 => ⟨S64x16x2, .f32⟩
  | 74 => ⟨S_, .f32⟩
  | 75 => ⟨S64x16x2, .f32⟩
  | 76 => ⟨S64x16x2, .f32⟩
  | 77 => ⟨S64x16x2, .f32⟩
  | 78 => ⟨S_, .f32⟩
  | 79 => ⟨S_, .f32⟩
  | 80 => ⟨S_, .f32⟩
  | 81 => ⟨S_, .f32⟩
  | 82 => ⟨S64, .i32⟩
  | 83 => ⟨S64x1x1, .i32⟩
  | 84 => ⟨S2, .i32⟩
  | 85 => ⟨S1x1x2, .i32⟩
  | 86 => ⟨S64x16x1, .i32⟩
  | 87 => ⟨S64x16, .i32⟩
  | 88 => ⟨S64x16x1, .i32⟩
  | 89 => ⟨S64x16x1, .i32⟩
  | 90 => ⟨S64x16, .i32⟩
  | 91 => ⟨S64x16x1, .i32⟩
  | 92 => ⟨S_, .i32⟩
  | 93 => ⟨S64x1x1, .i32⟩
  | 94 => ⟨S64x1x1, .i1⟩
  | 95 => ⟨S_, .i32⟩
  | 96 => ⟨S64x1x1, .i32⟩
  | 97 => ⟨S64x1x1, .i32⟩
  | 98 => ⟨S64x1x1, .i32⟩
  | 99 => ⟨S_, .i32⟩
  | 100 => ⟨S1x1x2, .i32⟩
  | 101 => ⟨S1x1x2, .i1⟩
  | 102 => ⟨S_, .i32⟩
  | 103 => ⟨S1x1x2, .i32⟩
  | 104 => ⟨S1x1x2, .i32⟩
  | 105 => ⟨S1x1x2, .i32⟩
  | 106 => ⟨S_, .i32⟩
  | 107 => ⟨S64x16x1, .i32⟩
  | 108 => ⟨S64x16x1, .i1⟩
  | 109 => ⟨S_, .i32⟩
  | 110 => ⟨S64x16x1, .i32⟩
  | 111 => ⟨S64x16x1, .i32⟩
  | 112 => ⟨S64x16x1, .i32⟩
  | 113 => ⟨S_, .i32⟩
  | 114 => ⟨S64x16x1, .i32⟩
  | 115 => ⟨S64x16x1, .i1⟩
  | 116 => ⟨S_, .i32⟩
  | 117 => ⟨S64x16x1, .i32⟩
  | 118 => ⟨S64x16x1, .i32⟩
  | 119 => ⟨S64x16x1, .i32⟩
  | 120 => ⟨S64x16x2, .i32⟩
  | 121 => ⟨S64x16x2, .i32⟩
  | 122 => ⟨S64x16x2, .i32⟩
  | 123 => ⟨S64x16x2, .i32⟩
  | 124 => ⟨S64x16x2x1, .i32⟩
  | 125 => ⟨S64x16x2x1, .i32⟩
  | 126 => ⟨S64x16x2x1, .i32⟩
  | 127 => ⟨S64x16x2x1, .i32⟩
  | _ => ⟨S64x16x256x256, .f32⟩

abbrev hbmTy0_1 (i : Nat) : BufTy := match i % 128 with
  | 0 => ⟨S64x16x2x4, .i32⟩
  | 1 => ⟨S64x16x2, .f32⟩
  | 2 => ⟨S64x16x2, .f32⟩
  | 3 => ⟨S64x16x2, .f32⟩
  | 4 => ⟨S_, .f32⟩
  | 5 => ⟨S64x16x2, .f32⟩
  | 6 => ⟨S64x16x2, .i1⟩
  | 7 => ⟨S_, .f32⟩
  | 8 => ⟨S64x16x2, .f32⟩
  | 9 => ⟨S64x16x2, .f32⟩
  | 10 => ⟨S64x16x2, .f32⟩
  | 11 => ⟨S_, .f32⟩
  | 12 => ⟨S64x16x2, .f32⟩
  | 13 => ⟨S64x16x2, .f32⟩
  | 14 => ⟨S64x16x2, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | _ => ⟨S64x16x256x256, .f32⟩

abbrev hbmTy (i : Nat) : BufTy := match i / 128 with
  | 0 => hbmTy0_0 i
  | 1 => hbmTy0_1 i
  | _ => ⟨S64x16x256x256, .f32⟩

abbrev bufTy : (tb : Table) → Fin (tcTables nBuf tb) → BufTy
  | .hbm, ⟨i, _⟩ => hbmTy i
  | .local _ .vmem, ⟨0, _⟩ => ⟨S32x256x256, .f32⟩
  | .local _ .vmem, ⟨1, _⟩ => ⟨S32x256x256, .f32⟩
  | .local _ .vmem, ⟨2, _⟩ => ⟨S32x256x256, .f32⟩
  | .local _ .vmem, ⟨3, _⟩ => ⟨S32x256x256, .f32⟩
  | .local _ .vmem, ⟨4, _⟩ => ⟨S1x8x128, .f32⟩
  | .local _ .vmem, ⟨5, _⟩ => ⟨S1x8x128, .f32⟩
  | .local _ .vmem, ⟨6, _⟩ => ⟨S1x1, .f32⟩
  | _, _ => ⟨S64x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_12 : Ref sig .tc := ⟨.hbm, 92, rfl⟩
abbrev main_v71 : Ref sig .tc := ⟨.hbm, 93, rfl⟩
abbrev main_v72 : Ref sig .tc := ⟨.hbm, 94, rfl⟩
abbrev main_c_13 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_14 : Ref sig .tc := ⟨.hbm, 99, rfl⟩
abbrev main_v76 : Ref sig .tc := ⟨.hbm, 100, rfl⟩
abbrev main_v77 : Ref sig .tc := ⟨.hbm, 101, rfl⟩
abbrev main_c_15 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_16 : Ref sig .tc := ⟨.hbm, 106, rfl⟩
abbrev main_v81 : Ref sig .tc := ⟨.hbm, 107, rfl⟩
abbrev main_v82 : Ref sig .tc := ⟨.hbm, 108, rfl⟩
abbrev main_c_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_18 : Ref sig .tc := ⟨.hbm, 113, rfl⟩
abbrev main_v86 : Ref sig .tc := ⟨.hbm, 114, rfl⟩
abbrev main_v87 : Ref sig .tc := ⟨.hbm, 115, rfl⟩
abbrev main_c_19 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_20 : Ref sig .tc := ⟨.hbm, 132, rfl⟩
abbrev main_v103 : Ref sig .tc := ⟨.hbm, 133, rfl⟩
abbrev main_v104 : Ref sig .tc := ⟨.hbm, 134, rfl⟩
abbrev main_cst_21 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_22 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_23 : Ref sig .tc := ⟨.hbm, 143, rfl⟩
abbrev main_v111 : Ref sig .tc := ⟨.hbm, 144, rfl⟩
abbrev main_cst_24 : Ref sig .tc := ⟨.hbm, 145, rfl⟩
abbrev main_v112 : Ref sig .tc := ⟨.hbm, 146, rfl⟩
abbrev main_cst_25 : Ref sig .tc := ⟨.hbm, 147, rfl⟩
abbrev main_v113 : Ref sig .tc := ⟨.hbm, 148, rfl⟩
abbrev main_cst_26 : Ref sig .tc := ⟨.hbm, 149, rfl⟩
abbrev main_v114 : Ref sig .tc := ⟨.hbm, 150, rfl⟩
abbrev main_v115 : Ref sig .tc := ⟨.hbm, 151, rfl⟩
abbrev main_cst_27 : Ref sig .tc := ⟨.hbm, 152, rfl⟩
abbrev main_v116 : Ref sig .tc := ⟨.hbm, 153, rfl⟩
abbrev main_v117 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c8_i32 : BitVec 32 := 8#32
  let v14 : BitVec 32 := Scalar.muli arg6 c8_i32
  v14
def k0_off1 (k0_t1 : Fin k0_t1_loop.trips) : Fin 3 → Nat :=
  let c0_i32_1 : BitVec 32 := 0#32
  let c1_i32 : BitVec 32 := 1#32
  let arg6 : BitVec 32 := Scf.iv c0_i32_1 c1_i32 k0_t1
  let c8_i32 : BitVec 32 := 8#32
  let v14 : BitVec 32 := Scalar.muli arg6 c8_i32
  let v15 : BitVec 32 := v14
  let v16 : Index := Scalar.indexCast v15
  let c0_7 : Index := 0#32
  let c0_8 : Index := 0#32
  ![v16.toNat, 0, 0]
def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_6 : BitVec 32 := 0#32
  let v13 : BitVec 1 := Scalar.cmpi .ne v12 c0_i32_6
  v13

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x16x256x256_S1024x256x256 : S64x16x256x256.ShapeCasts S1024x256x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S8x256x256 : 0 < S8x256x256.numel
  shapeCasts_S8x256x256_S8x256x256 : S8x256x256.ShapeCasts S8x256x256
  reduces_S8x256x256_S8x256 : S8x256x256.Reduces [2] S8x256
  shapeCasts_S8x256_S8x256x1 : S8x256.ShapeCasts S8x256x1
  reduces_S8x256x1_S8x1 : S8x256x1.Reduces [1] S8x1
  shapeCasts_S8x1_S8x1x1 : S8x1.ShapeCasts S8x1x1
  reduces_S8x1x1_S1x1 : S8x1x1.Reduces [0] S1x1
  iota_S1x8x128_d2_w32 : S1x8x128.Iotas .tc 32 [2]
  iota_S1x8x128_d1_w32 : S1x8x128.Iotas .tc 32 [1]
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  bcast_S64_S64x1x1_0 : S64.BroadcastsInDim S64x1x1 (![0] : Fin 1 → Fin S64x1x1.rank)
  bcast_S2_S1x1x2_2 : S2.BroadcastsInDim S1x1x2 (![2] : Fin 1 → Fin S1x1x2.rank)
  slices_S64x16x2_S64x16x1_0_0_1 : S64x16x2.Slices ![0, 0, 1] S64x16x1
  shapeCasts_S64x16x1_S64x16 : S64x16x1.ShapeCasts S64x16
  bcast_S64x16_S64x16x1_0_1 : S64x16.BroadcastsInDim S64x16x1 (![0, 1] : Fin 2 → Fin S64x16x1.rank)
  slices_S64x16x2_S64x16x1_0_0_0 : S64x16x2.Slices ![0, 0, 0] S64x16x1
  bcast_S_S64x1x1 : S_.BroadcastsInDim S64x1x1 (![] : Fin 0 → Fin S64x1x1.rank)
  bcast_S_S1x1x2 : S_.BroadcastsInDim S1x1x2 (![] : Fin 0 → Fin S1x1x2.rank)
  bcast_S_S64x16x1 : S_.BroadcastsInDim S64x16x1 (![] : Fin 0 → Fin S64x16x1.rank)
  bcast_S64x1x1_S64x16x2_0_1_2 : S64x1x1.BroadcastsInDim S64x16x2 (![0, 1, 2] : Fin 3 → Fin S64x16x2.rank)
  bcast_S1x1x2_S64x16x2_0_1_2 : S1x1x2.BroadcastsInDim S64x16x2 (![0, 1, 2] : Fin 3 → Fin S64x16x2.rank)
  bcast_S64x16x1_S64x16x2_0_1_2 : S64x16x1.BroadcastsInDim S64x16x2 (![0, 1, 2] : Fin 3 → Fin S64x16x2.rank)
  bcast_S64x16x2_S64x16x2x1_0_1_2 : S64x16x2.BroadcastsInDim S64x16x2x1 (![0, 1, 2] : Fin 3 → Fin S64x16x2x1.rank)
  concatenates_S64x16x2x1_S64x16x2x1_S64x16x2x1_S64x16x2x1_S64x16x2x4_d3 : Shape.Concatenates [S64x16x2x1, S64x16x2x1, S64x16x2x1, S64x16x2x1] S64x16x2x4 3
  bcast_S_S64x16x2 : S_.BroadcastsInDim S64x16x2 (![] : Fin 0 → Fin S64x16x2.rank)
  reducesTo_S64x16x2_S_d0_1_2 : S64x16x2.ReducesTo [0, 1, 2] S_
  h_S_ : 0 < S_.numel
  gather_S64x2x256x256_S64x16x2x4_S64x16x2_n_0123_n_n_0123_3_1111_wf : GatherDims.WF S64x2x256x256 S64x16x2x4 S64x16x2 [] [0, 1, 2, 3] [] [0, 1, 2, 3] [] 3 ![1, 1, 1, 1]
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x256x256.size a ≤ S32x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x256.size a ≤ S1024x256x256.size a
  hwx0_0 : ∀ i : grid0.Coords, EltTy.bits .f32 = 32 ∨ (Rect.block (s := S1024x256x256) S32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x256.size a ≤ S1024x256x256.size a
  hwx0_1 : ∀ i : grid0.Coords, EltTy.bits .f32 = 32 ∨ (Rect.block (s := S1024x256x256) S32x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

def gather_S64x2x256x256_S64x16x2x4_S64x16x2_n_0123_n_n_0123_3_1111 : GatherDims S64x2x256x256 S64x16x2x4 S64x16x2 where
  offsetDims := []
  collapsedSliceDims := [0, 1, 2, 3]
  operandBatchingDims := []
  startIndicesBatchingDims := []
  startIndexMap := [0, 1, 2, 3]
  indexVectorDim := 3
  sliceSizes := ![1, 1, 1, 1]
  wf := gather_S64x2x256x256_S64x16x2x4_S64x16x2_n_0123_n_n_0123_3_1111_wf

abbrev win0_0 : Pipeline.Window sig grid0 :=
  Pipeline.Window.ofSpec (Memref.whole main_v0) S32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x16x256x256 : Shape := ⟨4, ![64, 16, 256, 256]⟩
abbrev S64x2x256x256 : Shape := ⟨4, ![64, 2, 256, 256]⟩
abbrev S64x16x2 : Shape := ⟨3, ![64, 16, 2]⟩
abbrev S_ : Shape := ⟨0, ![]⟩
abbrev S64x256x256x2 : Shape := ⟨4, ![64, 256, 256, 2]⟩
abbrev S64 : Shape := ⟨1, ![64]⟩
abbrev S64x1 : Shape := ⟨2, ![64, 1]⟩
abbrev S64x16x1 : Shape := ⟨3, ![64, 16, 1]⟩
abbrev S64x16 : Shape := ⟨2, ![64, 16]⟩
abbrev S64x16x3 : Shape := ⟨3, ![64, 16, 3]⟩

abbrev nBuf : Space → Nat
  | .hbm => 139
  | .vmem => 0
  | .smem => 0
  | _ => 0

abbrev hbmTy0_0 (i : Nat) : BufTy := match i % 128 with
  | 0 => ⟨S64x16x256x256, .f32⟩
  | 1 => ⟨S64x2x256x256, .f32⟩
  | 2 => ⟨S64x2x256x256, .f32⟩
  | 3 => ⟨S64x16x256x256, .f32⟩
  | 4 => ⟨S64x16x2, .f32⟩
  | 5 => ⟨S64x16x2, .f32⟩
  | 6 => ⟨S64x16x2, .i32⟩
  | 7 => ⟨S64x16x256x256, .f32⟩
  | 8 => ⟨S64x16x256x256, .f32⟩
  | 9 => ⟨S_, .f32⟩
  | 10 => ⟨S64x16x256x256, .f32⟩
  | 11 => ⟨S64x16x256x256, .f32⟩
  | 12 => ⟨S_, .f32⟩
  | 13 => ⟨S64x16x256x256, .f32⟩
  | 14 => ⟨S64x16x256x256, .f32⟩
  | 15 => ⟨S_, .f32⟩
  | 16 => ⟨S_, .f32⟩
  | 17 => ⟨S_, .f32⟩
  | 18 => ⟨S64x16x256x256, .f32⟩
  | 19 => ⟨S64x16x256x256, .f32⟩
  | 20 => ⟨S_, .f32⟩
  | 21 => ⟨S64x16x256x256, .f32⟩
  | 22 => ⟨S64x16x256x256, .f32⟩
  | 23 => ⟨S64x16x256x256, .f32⟩
  | 24 => ⟨S64x16x256x256, .f32⟩
  | 25 => ⟨S_, .f32⟩
  | 26 => ⟨S_, .f32⟩
  | 27 => ⟨S_, .f32⟩
  | 28 => ⟨S_, .f32⟩
  | 29 => ⟨S64x256x256x2, .f32⟩
  | 30 => ⟨S64, .i32⟩
  | 31 => ⟨S64x1, .i32⟩
  | 32 => ⟨S64x16x1, .i32⟩
  | 33 => ⟨S64x16, .i32⟩
  | 34 => ⟨S64x16x1, .i32⟩
  | 35 => ⟨S64x16, .i32⟩
  | 36 => ⟨S_, .i32⟩
  | 37 => ⟨S64x1, .i32⟩
  | 38 => ⟨S64x1, .i1⟩
  | 39 => ⟨S_, .i32⟩
  | 40 => ⟨S64x1, .i32⟩
  | 41 => ⟨S64x1, .i32⟩
  | 42 => ⟨S64x1, .i32⟩
  | 43 => ⟨S_, .i32⟩
  | 44 => ⟨S64x16, .i32⟩
  | 45 => ⟨S64x16, .i1⟩
  | 46 => ⟨S_, .i32⟩
  | 47 => ⟨S64x16, .i32⟩
  | 48 => ⟨S64x16, .i32⟩
  | 49 => ⟨S64x16, .i32⟩
  | 50 => ⟨S_, .i32⟩
  | 51 => ⟨S64x16, .i32⟩
  | 52 => ⟨S64x16, .i1⟩
  | 53 => ⟨S_, .i32⟩
  | 54 => ⟨S64x16, .i32⟩
  | 55 => ⟨S64x16, .i32⟩
  | 56 => ⟨S64x16, .i32⟩
  | 57 => ⟨S64x16, .i32⟩
  | 58 => ⟨S64x16x1, .i32⟩
  | 59 => ⟨S64x16x1, .i32⟩
  | 60 => ⟨S64x16x1, .i32⟩
  | 61 => ⟨S64x16x3, .i32⟩
  | 62 => ⟨S64x16x2, .f32⟩
  | 63 => ⟨S64x16x2, .f32⟩
  | 64 => ⟨S64x16x2, .f32⟩
  | 65 => ⟨S_, .f32⟩
  | 66 => ⟨S64x16x2, .f32⟩
  | 67 => ⟨S64x16x2, .i1⟩
  | 68 => ⟨S_, .f32⟩
  | 69 => ⟨S64x16x2, .f32⟩
  | 70 => ⟨S64x16x2, .f32⟩
  | 71 => ⟨S64x16x2, .f32⟩
  | 72 => ⟨S_, .f32⟩
  | 73 => ⟨S64x16x2, .f32⟩
  | 74 => ⟨S64x16x2, .f32⟩
  | 75 => ⟨S64x16x2, .f32⟩
  | 76 => ⟨S_, .f32⟩
  | 77 => ⟨S_, .f32⟩
  | 78 => ⟨S_, .f32⟩
  | 79 => ⟨S_, .f32⟩
  | 80 => ⟨S64x256x256x2, .f32⟩
  | 81 => ⟨S64, .i32⟩
  | 82 => ⟨S64x1, .i32⟩
  | 83 => ⟨S64x16x1, .i32⟩
  | 84 => ⟨S64x16, .i32⟩
  | 85 => ⟨S64x16x1, .i32⟩
  | 86 => ⟨S64x16, .i32⟩
  | 87 => ⟨S_, .i32⟩
  | 88 => ⟨S64x1, .i32⟩
  | 89 => ⟨S64x1, .i1⟩
  | 90 => ⟨S_, .i32⟩
  | 91 => ⟨S64x1, .i32⟩
  | 92 => ⟨S64x1, .i32⟩
  | 93 => ⟨S64x1, .i32⟩
  | 94 => ⟨S_, .i32⟩
  | 95 => ⟨S64x16, .i32⟩
  | 96 => ⟨S64x16, .i1⟩
  | 97 => ⟨S_, .i32⟩
  | 98 => ⟨S64x16, .i32⟩
  | 99 => ⟨S64x16, .i32⟩
  | 100 => ⟨S64x16, .i32⟩
  | 101 => ⟨S_, .i32⟩
  | 102 => ⟨S64x16, .i32⟩
  | 103 => ⟨S64x16, .i1⟩
  | 104 => ⟨S_, .i32⟩
  | 105 => ⟨S64x16, .i32⟩
  | 106 => ⟨S64x16, .i32⟩
  | 107 => ⟨S64x16, .i32⟩
  | 108 => ⟨S64x16, .i32⟩
  | 109 => ⟨S64x16x1, .i32⟩
  | 110 => ⟨S64x16x1, .i32⟩
  | 111 => ⟨S64x16x1, .i32⟩
  | 112 => ⟨S64x16x3, .i32⟩
  | 113 => ⟨S64x16x2, .f32⟩
  | 114 => ⟨S64x16x2, .f32⟩
  | 115 => ⟨S64x16x2, .f32⟩
  | 116 => ⟨S_, .f32⟩
  | 117 => ⟨S64x16x2, .f32⟩
  | 118 => ⟨S64x16x2, .i1⟩
  | 119 => ⟨S_, .f32⟩
  | 120 => ⟨S64x16x2, .f32⟩
  | 121 => ⟨S64x16x2, .f32⟩
  | 122 => ⟨S64x16x2, .f32⟩
  | 123 => ⟨S_, .f32⟩
  | 124 => ⟨S64x16x2, .f32⟩
  | 125 => ⟨S64x16x2, .f32⟩
  | 126 => ⟨S64x16x2, .f32⟩
  | 127 => ⟨S_, .f32⟩
  | _ => ⟨S64x16x256x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | _ => ⟨S64x16x256x256, .f32⟩

abbrev hbmTy (i : Nat) : BufTy := match i / 128 with
  | 0 => hbmTy0_0 i
  | 1 => hbmTy0_1 i
  | _ => ⟨S64x16x256x256, .f32⟩

abbrev bufTy : (tb : Table) → Fin (tcTables nBuf tb) → BufTy
  | .hbm, ⟨i, _⟩ => hbmTy i
  | _, _ => ⟨S64x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_cst_4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_c_7 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_cst_14 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_15 : Ref sig .tc := ⟨.hbm, 87, rfl⟩
abbrev main_v58 : Ref sig .tc := ⟨.hbm, 88, rfl⟩
abbrev main_v59 : Ref sig .tc := ⟨.hbm, 89, rfl⟩
abbrev main_c_16 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_17 : Ref sig .tc := ⟨.hbm, 94, rfl⟩
abbrev main_v63 : Ref sig .tc := ⟨.hbm, 95, rfl⟩
abbrev main_v64 : Ref sig .tc := ⟨.hbm, 96, rfl⟩
abbrev main_c_18 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_19 : Ref sig .tc := ⟨.hbm, 101, rfl⟩
abbrev main_v68 : Ref sig .tc := ⟨.hbm, 102, rfl⟩
abbrev main_v69 : Ref sig .tc := ⟨.hbm, 103, rfl⟩
abbrev main_c_20 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_21 : Ref sig .tc := ⟨.hbm, 116, rfl⟩
abbrev main_v81 : Ref sig .tc := ⟨.hbm, 117, rfl⟩
abbrev main_v82 : Ref sig .tc := ⟨.hbm, 118, rfl⟩
abbrev main_cst_22 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_23 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_24 : Ref sig .tc := ⟨.hbm, 127, rfl⟩
abbrev main_v89 : Ref sig .tc := ⟨.hbm, 128, rfl⟩
abbrev main_cst_25 : Ref sig .tc := ⟨.hbm, 129, rfl⟩
abbrev main_v90 : Ref sig .tc := ⟨.hbm, 130, rfl⟩
abbrev main_cst_26 : Ref sig .tc := ⟨.hbm, 131, rfl⟩
abbrev main_v91 : Ref sig .tc := ⟨.hbm, 132, rfl⟩
abbrev main_cst_27 : Ref sig .tc := ⟨.hbm, 133, rfl⟩
abbrev main_v92 : Ref sig .tc := ⟨.hbm, 134, rfl⟩
abbrev main_v93 : Ref sig .tc := ⟨.hbm, 135, rfl⟩
abbrev main_cst_28 : Ref sig .tc := ⟨.hbm, 136, rfl⟩
abbrev main_v94 : Ref sig .tc := ⟨.hbm, 137, rfl⟩
abbrev main_v95 : Ref sig .tc := ⟨.hbm, 138, rfl⟩

abbrev nD : Nat := 1
abbrev τ : Topo := Topo.v7x

variable {F : FTy → Type} [FloatOps F]

class Facts₀ : Prop where
  bcast_S_S64x16x256x256 : S_.BroadcastsInDim S64x16x256x256 (![] : Fin 0 → Fin S64x16x256x256.rank)
  reducesTo_S64x16x256x256_S_d0_1_2_3 : S64x16x256x256.ReducesTo [0, 1, 2, 3] S_
  h_S_ : 0 < S_.numel
  transposes_S64x2x256x256_S64x256x256x2_0_2_3_1 : S64x2x256x256.Transposes [0, 2, 3, 1] S64x256x256x2
  bcast_S64_S64x1_0 : S64.BroadcastsInDim S64x1 (![0] : Fin 1 → Fin S64x1.rank)
  slices_S64x16x2_S64x16x1_0_0_1 : S64x16x2.Slices ![0, 0, 1] S64x16x1
  shapeCasts_S64x16x1_S64x16 : S64x16x1.ShapeCasts S64x16
  slices_S64x16x2_S64x16x1_0_0_0 : S64x16x2.Slices ![0, 0, 0] S64x16x1
  bcast_S_S64x1 : S_.BroadcastsInDim S64x1 (![] : Fin 0 → Fin S64x1.rank)
  bcast_S_S64x16 : S_.BroadcastsInDim S64x16 (![] : Fin 0 → Fin S64x16.rank)
  bcast_S64x1_S64x16_0_1 : S64x1.BroadcastsInDim S64x16 (![0, 1] : Fin 2 → Fin S64x16.rank)
  bcast_S64x16_S64x16x1_0_1 : S64x16.BroadcastsInDim S64x16x1 (![0, 1] : Fin 2 → Fin S64x16x1.rank)
  concatenates_S64x16x1_S64x16x1_S64x16x1_S64x16x3_d2 : Shape.Concatenates [S64x16x1, S64x16x1, S64x16x1] S64x16x3 2
  bcast_S_S64x16x2 : S_.BroadcastsInDim S64x16x2 (![] : Fin 0 → Fin S64x16x2.rank)
  reducesTo_S64x16x2_S_d0_1_2 : S64x16x2.ReducesTo [0, 1, 2] S_
  gather_S64x256x256x2_S64x16x3_S64x16x2_2_012_n_n_012_2_1112_wf : GatherDims.WF S64x256x256x2 S64x16x3 S64x16x2 [2] [0, 1, 2] [] [0, 1, 2] [] 2 ![1, 1, 1, 2]

variable [Facts₀]

def gather_S64x256x256x2_S64x16x3_S64x16x2_2_012_n_n_012_2_1112 : GatherDims S64x256x256x2 S64x16x3 S64x16x2 where
  offsetDims := [2]
  collapsedSliceDims := [0, 1, 2]
  operandBatchingDims := []
  startIndicesBatchingDims := []
  startIndexMap := [0, 1, 2]
  indexVectorDim := 2
  sliceSizes := ![1, 1, 1, 2]
  wf := gather_S64x256x256x2_S64x16x3_S64x16x2_2_012_n_n_012_2_1112_wf

class Facts : Prop extends Facts₀ where

variable [Facts]
-- ==== Proof.Kernel.Around.lean ====
/-
  The program around its one grid region: two reshapes (the two heat-map arrays as `[1024, 256, 256]`), the region, and
  145 host lines that only read the region's result array. This module states what the region finds (`V`), that the
  later lines allocate nothing, stay within the unscoped buffers and leave the region's three arrays and the seven
  argument arrays alone, which blocks of the two input arrays each grid point sees, and when the body's two branches
  are taken: the first (clear the running sum) at the first of each sixteen points, the second (write the result
  block) at the last of each sixteen.
-/
import proofs.«404243_j39548058861680_3_alg».proof.Proof.Gen.Kernel.Launch
import proofs.«404243_j39548058861680_3_alg».proof.Proof.Gen.Kernel.Skeleton
import proofs.«404243_j39548058861680_3_alg».proof.Proof.Gen.Kernel.Points
import proofs.«404243_j39548058861680_3_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines before and after the region -/

/-- The buffers' contents when the region is entered: the launch contents after the two reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The lines after the region, stretch by stretch. -/
abbrev tail : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [hostOps1, List.Forall]; repeat' constructor
theorem hostOps1_1_fresh : (hostOps1_1 : List (HloOp τ sig (Elt F))).Forall fun op => op.fresh = ∅ := by
  simp only [hostOps1_1, List.Forall]; repeat' constructor
theorem hostOps1_2_fresh : (hostOps1_2 : List (HloOp τ sig (Elt F))).Forall fun op => op.fresh = ∅ := by
  simp only [hostOps1_2, List.Forall]; repeat' constructor
theorem hostOps1_3_fresh : (hostOps1_3 : List (HloOp τ sig (Elt F))).Forall fun op => op.fresh = ∅ := by
  simp only [hostOps1_3, List.Forall]; repeat' constructor
theorem hostOps1_4_fresh : (hostOps1_4 : List (HloOp τ sig (Elt F))).Forall fun op => op.fresh = ∅ := by
  simp only [hostOps1_4, List.Forall]; repeat' constructor

/-- The program is: the earlier lines, the region, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- Every later line touches unscoped TensorCore buffers only. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None allocates. -/
theorem tail_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-! A buffer among the first ten of the device's HBM buffers — the seven arguments and the region's three arrays — is the
    result buffer of no later line: each line writes one buffer, and that buffer's number is ten or more. -/

theorem hostOps0_keeps (b : Ref sig .tc) (hb : b.idx.val ≤ 6) :
    (hostOps0 : List (HloOp τ sig (Elt F))).Forall fun op => Proc.devRef .tc b ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (fun e => absurd (e ▸ hb) (by decide))
theorem hostOps1_keeps (b : Ref sig .tc) (hb : b.idx.val ≤ 9) :
    (hostOps1 : List (HloOp τ sig (Elt F))).Forall fun op => Proc.devRef .tc b ∉ op.writes := by
  simp only [hostOps1, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (fun e => absurd (e ▸ hb) (by decide))
theorem hostOps1_1_keeps (b : Ref sig .tc) (hb : b.idx.val ≤ 9) :
    (hostOps1_1 : List (HloOp τ sig (Elt F))).Forall fun op => Proc.devRef .tc b ∉ op.writes := by
  simp only [hostOps1_1, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (fun e => absurd (e ▸ hb) (by decide))
theorem hostOps1_2_keeps (b : Ref sig .tc) (hb : b.idx.val ≤ 9) :
    (hostOps1_2 : List (HloOp τ sig (Elt F))).Forall fun op => Proc.devRef .tc b ∉ op.writes := by
  simp only [hostOps1_2, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (fun e => absurd (e ▸ hb) (by decide))
theorem hostOps1_3_keeps (b : Ref sig .tc) (hb : b.idx.val ≤ 9) :
    (hostOps1_3 : List (HloOp τ sig (Elt F))).Forall fun op => Proc.devRef .tc b ∉ op.writes := by
  simp only [hostOps1_3, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (fun e => absurd (e ▸ hb) (by decide))
theorem hostOps1_4_keeps (b : Ref sig .tc) (hb : b.idx.val ≤ 9) :
    (hostOps1_4 : List (HloOp τ sig (Elt F))).Forall fun op => Proc.devRef .tc b ∉ op.writes := by
  simp only [hostOps1_4, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (fun e => absurd (e ▸ hb) (by decide))

/-- The seven arguments reach the region as launched. -/
theorem V_keep (c : Dev nD) (b : Ref sig .tc) (hb : b.idx.val ≤ 6) : V m c b = m ((c : Thread nD τ).loc b) :=
  StableHlo.after_of_forall_not_mem (b := Proc.devRef .tc b) _ _ (List.forall_iff_forall_mem.mp (by
    simp only [List.flatten_cons, List.flatten_nil, List.append_nil]
    exact hostOps0_keeps b hb))

/-- The later lines leave the first ten buffers as they find them. -/
theorem tail_after_keep (W : Valuation τ sig (Elt F)) (b : Ref sig .tc) (hb : b.idx.val ≤ 9) :
    StableHlo.after (tail (F := F)).flatten W (Proc.devRef .tc b) = W (Proc.devRef .tc b) :=
  StableHlo.after_of_forall_not_mem _ _ fun op hop => by
    obtain ⟨ops, hops, hop⟩ := List.mem_flatten.mp hop
    simp only [List.mem_cons, List.mem_nil_iff, or_false] at hops
    rcases hops with rfl | rfl | rfl | rfl | rfl
    · exact (List.forall_iff_forall_mem.mp (hostOps1_keeps b hb)) op hop
    · exact (List.forall_iff_forall_mem.mp (hostOps1_1_keeps b hb)) op hop
    · exact (List.forall_iff_forall_mem.mp (hostOps1_2_keeps b hb)) op hop
    · exact (List.forall_iff_forall_mem.mp (hostOps1_3_keeps b hb)) op hop
    · exact (List.forall_iff_forall_mem.mp (hostOps1_4_keeps b hb)) op hop

/-- And write none of the region's three arrays. -/
theorem tail_keeps : ∀ ops ∈ (tail : List (List (HloOp τ sig (Elt F)))), ∀ op ∈ ops,
    ∀ w, Proc.devRef .tc (Pipeline.arrRef spec0 w) ∉ op.writes := by
  intro ops hops op hop w
  have hw : (Pipeline.arrRef spec0 w).idx.val ≤ 9 := by revert w; decide
  simp only [List.mem_cons, List.mem_nil_iff, or_false] at hops
  rcases hops with rfl | rfl | rfl | rfl | rfl
  · exact (List.forall_iff_forall_mem.mp (hostOps1_keeps _ hw)) op hop
  · exact (List.forall_iff_forall_mem.mp (hostOps1_1_keeps _ hw)) op hop
  · exact (List.forall_iff_forall_mem.mp (hostOps1_2_keeps _ hw)) op hop
  · exact (List.forall_iff_forall_mem.mp (hostOps1_3_keeps _ hw)) op hop
  · exact (List.forall_iff_forall_mem.mp (hostOps1_4_keeps _ hw)) op hop

/-- After the whole program an argument array still holds its launch contents, whatever the region's arrays ended at. -/
theorem W_keep (dats : (p : Fin 1) → (c : Dev nD) → Dat τ (Elt F) Unit ℕ (UR sig nD τ) ℕ (cfgs p) c) (c : Dev nD)
    (b : Ref sig .tc) (hb : b.idx.val ≤ 6) (hne : ∀ w, Pipeline.arrRef spec0 w ≠ b) :
    Pipeline.afterTail₀ cfgs dats 0 (V0 m) tail c b = m ((c : Thread nD τ).loc b) := by
  unfold Pipeline.afterTail₀
  rw [tail_after_keep _ b (by omega), Pipeline.withArrays_of_ne _ c (V0 m c) _ b hne]
  exact V_keep m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data over `V` whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim's -/

/-- A run ending with every unscoped buffer outside the region's arrays as the later lines leave it ends with the seven
    argument arrays at their launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_keep m dats c main_arg0 (by decide) (by decide)),
    ((h c).2 main_arg1 (Pipeline.mem_restRefs_of main_arg1 (by decide) (by decide))).trans (W_keep m dats c main_arg1 (by decide) (by decide)),
    ((h c).2 main_arg2 (Pipeline.mem_restRefs_of main_arg2 (by decide) (by decide))).trans (W_keep m dats c main_arg2 (by decide) (by decide)),
    ((h c).2 main_arg3 (Pipeline.mem_restRefs_of main_arg3 (by decide) (by decide))).trans (W_keep m dats c main_arg3 (by decide) (by decide)),
    ((h c).2 main_arg4 (Pipeline.mem_restRefs_of main_arg4 (by decide) (by decide))).trans (W_keep m dats c main_arg4 (by decide) (by decide)),
    ((h c).2 main_arg5 (Pipeline.mem_restRefs_of main_arg5 (by decide) (by decide))).trans (W_keep m dats c main_arg5 (by decide) (by decide)),
    ((h c).2 main_arg6 (Pipeline.mem_restRefs_of main_arg6 (by decide) (by decide))).trans (W_keep m dats c main_arg6 (by decide) (by decide))⟩) h

/-! ## The body's two branches -/

/-- The first branch's condition (the second grid coordinate is 0), as the body computes it. -/
abbrev cond0_0 (i : grid0.Coords) : Prop := (Scalar.cmpi .ne (Scalar.extui (Scalar.cmpi .eq (BitVec.ofNat 32 (i 1).val) 0#32)) 0#32) = 1#1
/-- It holds at the first of each sixteen points. -/
theorem hcond0_0 : ∀ t : Fin cfg0.N, cond0_0 (grid0.coords t) ↔ t.val % 16 = 0 :=
  (by decide +kernel : ∀ t : Fin grid0.N, cond0_0 (grid0.coords t) ↔ t.val % 16 = 0)
/-- The second branch's condition (the second grid coordinate is 15). -/
abbrev cond0_1 (i : grid0.Coords) : Prop := k0_cond2 i = 1#1
/-- It holds at the last of each sixteen points. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the result window is idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second branch is not taken the result window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- Where it is taken the window is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S32x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
/-- The one-entry scratch buffer that carries the running sum from point to point. -/
abbrev scM : Memref sig .tc .vmem S1x1 .f32 := Memref.whole cc0_scratch0
abbrev VS : View sig .tc .vmem S1x1 .f32 := (scM).view
/-- One staging buffer of the result window, through which its contents are stated. -/
abbrev VO : View sig .tc .vmem S1x8x128 .f32 := (Memref.whole cc0_stg2_0 : Memref sig .tc .vmem S1x8x128 .f32).view

/-- What the region's invariant holds besides the windows: the scratch buffer at some contents and the generator's register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.Kernel.RunA.lean ====
/-
  The body at a grid point of one kind (the first of sixteen: the running sum is cleared, then the block's sum is added to it; the result block is left alone). Run on whole staging buffers holding the two input blocks, it ends
  holding them unchanged, the scratch entry with the stores it made written over it, and the result block
  as it was; the stores are found by running the body, the four chunks of the inner loop through the loop's
  invariant.
-/
import proofs.«404243_j39548058861680_3_alg».proof.Proof.Kernel.Around

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_A (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : cond0_0 i) (hc1 : ¬cond0_1 i)
    (x0 x1 : Vec F S32x256x256 .f32) :
    Σ' (L2 : List (View.Piece (Elt F) S1x8x128 .f32)), { LS0 : List (View.Piece (Elt F) S1x1 .f32) //
      ∀ (xi2 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__loss_hm_kernel i arg2 harg2 arg3 harg3 arg4 harg4 arg5 harg5) K } := by
  refine ⟨[], ?_, fun xi2 E K => ?run⟩
  case run =>
    simp only [cc0__loss_hm_kernel_eq_skeleton]; unfold cc0__loss_hm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.Kernel.RunB.lean ====
/-
  The body at a grid point of one kind (a middle point: the block's sum is added to the running sum; the result block is left alone). Run on whole staging buffers holding the two input blocks, it ends
  holding them unchanged, the scratch entry with the stores it made written over it, and the result block
  as it was; the stores are found by running the body, the four chunks of the inner loop through the loop's
  invariant.
-/
import proofs.«404243_j39548058861680_3_alg».proof.Proof.Kernel.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_B (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : ¬cond0_1 i)
    (x0 x1 : Vec F S32x256x256 .f32) (xs0 : Vec F S1x1 .f32) :
    Σ' (L2 : List (View.Piece (Elt F) S1x8x128 .f32)), { LS0 : List (View.Piece (Elt F) S1x1 .f32) //
      ∀ (xi2 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__loss_hm_kernel i arg2 harg2 arg3 harg3 arg4 harg4 arg5 harg5) K } := by
  refine ⟨[], ?_, fun xi2 E K => ?run⟩
  case run =>
    simp only [cc0__loss_hm_kernel_eq_skeleton]; unfold cc0__loss_hm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.Kernel.RunC.lean ====
/-
  The body at a grid point of one kind (the last of sixteen: the block's sum is added to the running sum, and the sum is written to entry (0,0,0) of the result block, zeros elsewhere). Run on whole staging buffers holding the two input blocks, it ends
  holding them unchanged, the scratch entry with the stores it made written over it, and the result block
  with its one store written; the stores are found by running the body, the four chunks of the inner loop through the loop's
  invariant.
-/
import proofs.«404243_j39548058861680_3_alg».proof.Proof.Kernel.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_C (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 x1 : Vec F S32x256x256 .f32) (xs0 : Vec F S1x1 .f32) :
    Σ' (L2 : List (View.Piece (Elt F) S1x8x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__loss_hm_kernel i arg2 harg2 arg3 harg3 arg4 harg4 arg5 harg5) K } := by
  refine ⟨?_, ?_, fun E K => ?run⟩
  case run =>
    simp only [cc0__loss_hm_kernel_eq_skeleton]; unfold cc0__loss_hm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.Kernel.Frame.lean ====
/-
  The frame of the program. After point `n` of the grid the scratch entry holds the running sum the stores found by the
  three runs leave there (`outsAt`, by recursion on the point: the first of each sixteen points starts afresh, the
  others add to what the point before left), and the result window's staging buffer holds, at the last of each sixteen
  points, the block the run's store leaves. With these as the region's proof data the body meets its obligation at every
  point, the launch theorem for a region between host lines applies, and the seven argument arrays end as launched.
-/
import proofs.«404243_j39548058861680_3_alg».proof.Proof.Kernel.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point leaves, kind by kind -/

theorem notLast_of_first (t : Fin cfg0.N) (h0 : t.val % 16 = 0) : ¬cond0_1 (grid0.coords t) :=
  fun h => by have := (hcond0_1 t).mp h; omega
theorem notFirst_of_last (t : Fin cfg0.N) (h1 : t.val % 16 = 15) : ¬cond0_0 (grid0.coords t) :=
  fun h => by have := (hcond0_0 t).mp h; omega

/-- The scratch entry after a first-of-sixteen point. -/
def sumA (c : Dev nD) (t : Fin cfg0.N) (h0 : t.val % 16 = 0) : Vec F S1x1 .f32 :=
  VS.read (Elt F) (VS.writes (Elt F) VS.junk (kernelRun0_A c (grid0.coords t) (ms0_0 t) (hs0_0 t) (ms0_1 t) (hs0_1 t) (ms0_2 t) (hs0_2 t) scM (Memref.isWhole_whole _) ((hcond0_0 t).mpr h0) (notLast_of_first t h0) (iblk m c 0 t) (iblk m c 1 t)).2.1)
/-- The scratch entry after a middle point, over what the point before left (`xs`). -/
def sumB (c : Dev nD) (t : Fin cfg0.N) (h0 : ¬t.val % 16 = 0) (h1 : ¬t.val % 16 = 15) (xs : Vec F S1x1 .f32) : Vec F S1x1 .f32 :=
  VS.read (Elt F) (VS.writes (Elt F) VS.junk (kernelRun0_B c (grid0.coords t) (ms0_0 t) (hs0_0 t) (ms0_1 t) (hs0_1 t) (ms0_2 t) (hs0_2 t) scM (Memref.isWhole_whole _) (fun h => h0 ((hcond0_0 t).mp h)) (fun h => h1 ((hcond0_1 t).mp h)) (iblk m c 0 t) (iblk m c 1 t) xs).2.1)
/-- The scratch entry after a last-of-sixteen point, -/
def sumC (c : Dev nD) (t : Fin cfg0.N) (h1 : t.val % 16 = 15) (xs : Vec F S1x1 .f32) : Vec F S1x1 .f32 :=
  VS.read (Elt F) (VS.writes (Elt F) VS.junk (kernelRun0_C c (grid0.coords t) (ms0_0 t) (hs0_0 t) (ms0_1 t) (hs0_1 t) (ms0_2 t) (hs0_2 t) scM (Memref.isWhole_whole _) (notFirst_of_last t h1) ((hcond0_1 t).mpr h1) (iblk m c 0 t) (iblk m c 1 t) xs).2.1)
/-- and the result block it stores. -/
def blockC (c : Dev nD) (t : Fin cfg0.N) (h1 : t.val % 16 = 15) (xs : Vec F S1x1 .f32) : Vec F S1x8x128 .f32 :=
  VO.read (Elt F) (VO.writes (Elt F) VO.junk (kernelRun0_C c (grid0.coords t) (ms0_0 t) (hs0_0 t) (ms0_1 t) (hs0_1 t) (ms0_2 t) (hs0_2 t) scM (Memref.isWhole_whole _) (notFirst_of_last t h1) ((hcond0_1 t).mpr h1) (iblk m c 0 t) (iblk m c 1 t) xs).1)
/-- Where the result window is idle nothing reads its buffer: any block will do. -/
def blockIdle : Vec F S1x8x128 .f32 := VO.read (Elt F) VO.junk

/-- The runs' stores into the one-entry scratch cover it. -/
theorem coverA (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : cond0_0 i) (hc1 : ¬cond0_1 i)
    (x0 x1 : Vec F S32x256x256 .f32) (y : S1x1.Idx) :
    ∃ pc ∈ (kernelRun0_A c i arg2 harg2 arg3 harg3 arg4 harg4 arg5 harg5 hc0 hc1 x0 x1).2.1, y ∈ pc.1.set :=
  View.cover_of_tiledL _ S1x1.size (by sl_kernel_rfl) y
theorem coverB (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : ¬cond0_1 i)
    (x0 x1 : Vec F S32x256x256 .f32) (xs0 : Vec F S1x1 .f32) (y : S1x1.Idx) :
    ∃ pc ∈ (kernelRun0_B c i arg2 harg2 arg3 harg3 arg4 harg4 arg5 harg5 hc0 hc1 x0 x1 xs0).2.1, y ∈ pc.1.set :=
  View.cover_of_tiledL _ S1x1.size (by sl_kernel_rfl) y
theorem coverC (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 x1 : Vec F S32x256x256 .f32) (xs0 : Vec F S1x1 .f32) (y : S1x1.Idx) :
    ∃ pc ∈ (kernelRun0_C c i arg2 harg2 arg3 harg3 arg4 harg4 arg5 harg5 hc0 hc1 x0 x1 xs0).2.1, y ∈ pc.1.set :=
  View.cover_of_tiledL _ S1x1.size (by sl_kernel_rfl) y
/-- The last-of-sixteen run's store covers the result block. -/
theorem coverOutC (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 x1 : Vec F S32x256x256 .f32) (xs0 : Vec F S1x1 .f32) (y : S1x8x128.Idx) :
    ∃ pc ∈ (kernelRun0_C c i arg2 harg2 arg3 harg3 arg4 harg4 arg5 harg5 hc0 hc1 x0 x1 xs0).1, y ∈ pc.1.set :=
  View.cover_of_tiledL _ S1x8x128.size (by sl_kernel_rfl) y

/-! ## Point by point -/

/-- What the result window's staging buffer and the scratch entry hold after point `n`. -/
def outsAt (c : Dev nD) : (n : ℕ) → n < cfg0.N → Vec F S1x8x128 .f32 × Vec F S1x1 .f32
  | 0, hn => (blockIdle, sumA m c ⟨0, hn⟩ (Nat.zero_mod _))
  | n + 1, hn =>
    if h1 : (n + 1) % 16 = 15 then
      (blockC m c ⟨n + 1, hn⟩ h1 (outsAt c n (Nat.lt_of_succ_lt hn)).2, sumC m c ⟨n + 1, hn⟩ h1 (outsAt c n (Nat.lt_of_succ_lt hn)).2)
    else if h0 : (n + 1) % 16 = 0 then
      (blockIdle, sumA m c ⟨n + 1, hn⟩ h0)
    else
      (blockIdle, sumB m c ⟨n + 1, hn⟩ h0 h1 (outsAt c n (Nat.lt_of_succ_lt hn)).2)

theorem outsAt_A (c : Dev nD) (t : Fin cfg0.N) (h0 : t.val % 16 = 0) :
    outsAt m c t.val t.isLt = (blockIdle, sumA m c t h0) := by
  obtain ⟨n, hn⟩ := t
  cases n with
  | zero => rfl
  | succ n => exact (dif_neg (by (try dsimp only at h0); omega)).trans ((dif_pos h0).trans rfl)

theorem outsAt_B (c : Dev nD) (t : Fin cfg0.N) (h0 : ¬t.val % 16 = 0) (h1 : ¬t.val % 16 = 15) :
    outsAt m c t.val t.isLt = (blockIdle, sumB m c t h0 h1 (outsAt m c (t.val - 1) (Nat.lt_of_le_of_lt (Nat.sub_le _ _) t.isLt)).2) := by
  obtain ⟨n, hn⟩ := t
  cases n with
  | zero => exact absurd (Nat.zero_mod _) h0
  | succ n => exact (dif_neg h1).trans ((dif_neg h0).trans rfl)

theorem outsAt_C (c : Dev nD) (t : Fin cfg0.N) (h1 : t.val % 16 = 15) :
    outsAt m c t.val t.isLt = (blockC m c t h1 (outsAt m c (t.val - 1) (Nat.lt_of_le_of_lt (Nat.sub_le _ _) t.isLt)).2, sumC m c t h1 (outsAt m c (t.val - 1) (Nat.lt_of_le_of_lt (Nat.sub_le _ _) t.isLt)).2) := by
  obtain ⟨n, hn⟩ := t
  cases n with
  | zero => exact (by exfalso; (try dsimp only at h1); omega)
  | succ n => exact (dif_pos h1).trans rfl

/-- The region's invariant before point `n`: at the start the scratch entry holds anything; afterwards it holds what the
    point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The region's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val % 16 = 15
  · -- the last of sixteen
    have hz : t.val ≠ 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [outsAt_C m c t h1]
    unfold blockC sumC; (try dsimp only)
    rw [PhiS_castSucc m c t, PhiS_pos m c _ _ hz]
    iintro ⟨⟨HS0, Hg⟩, Ho, ⟨%d0, H0⟩, ⟨%d1, H1⟩, ⟨%d2, H2⟩⟩
    iapply ((kernelRun0_C c (grid0.coords t) (ms0_0 t) (hs0_0 t) (ms0_1 t) (hs0_1 t) (ms0_2 t) (hs0_2 t) scM (Memref.isWhole_whole _) (notFirst_of_last t h1) ((hcond0_1 t).mpr h1) (iblk m c 0 t) (iblk m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (coverC c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (coverOutC c _ _ _ _ _ _ _ _ _ _ _ _ _ _)
  · have hnl : ¬cond0_1 (grid0.coords t) := fun h => h1 ((hcond0_1 t).mp h)
    rw [Dat.leavesExact_idle (dats m 0 c) 2 t (idleAt0_2 t hnl) (noFlush0_2 t hnl)]
    by_cases h0 : t.val % 16 = 0
    · -- the first of sixteen
      rw [outsAt_A m c t h0]
      unfold sumA; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM (Memref.isWhole_whole _) ((hcond0_0 t).mpr h0) (notLast_of_first t h0) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (coverA c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM (Memref.isWhole_whole _) ((hcond0_0 t).mpr h0) (notLast_of_first t h0) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (coverA c _ _ _ _ _ _ _ _ _ _ _ _ _)
          iexact Hg
        isplitl [Ho]; · iexact Ho
        isplitl [H0]; · iexact H0
        isplitl [H1]; · iexact H1
        iexists _; iexact H2
    · -- a middle point
      have hz : t.val ≠ 0 := fun e => h0 (by rw [e])
      rw [outsAt_B m c t h0 h1]
      unfold sumB; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM (Memref.isWhole_whole _) (fun h => h0 ((hcond0_0 t).mp h)) hnl (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (coverB c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨HS0, Hg⟩
  isplitl [HS0]
  · iexists _; iexact HS0
  iexact Hg

/-! ## The run and the frame -/

set_option backward.isDefEq.respectTransparency.types false in
/-- Every weakly fair execution of the program terminates; the region's three arrays end at what the proof data compute
    and every other unscoped buffer as the later lines leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps)
    (hmain := hmain m Variants.none) (hA := A_eq m) (hin := hin m) (hout := hout m)

/-- The seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Fr

end
-- ==== Proof.KernelIdeal.Around.lean ====
/-
  The program around its one grid region: two reshapes (the two heat-map arrays as `[1024, 256, 256]`), the region, and
  145 host lines that only read the region's result array. This module states what the region finds (`V`), that the
  later lines allocate nothing, stay within the unscoped buffers and leave the region's three arrays and the seven
  argument arrays alone, which blocks of the two input arrays each grid point sees, and when the body's two branches
  are taken: the first (clear the running sum) at the first of each sixteen points, the second (write the result
  block) at the last of each sixteen.
-/
import proofs.«404243_j39548058861680_3_alg».proof.Proof.Gen.KernelIdeal.Launch
import proofs.«404243_j39548058861680_3_alg».proof.Proof.Gen.KernelIdeal.Skeleton
import proofs.«404243_j39548058861680_3_alg».proof.Proof.Gen.KernelIdeal.Points
import proofs.«404243_j39548058861680_3_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines before and after the region -/

/-- The buffers' contents when the region is entered: the launch contents after the two reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The lines after the region, stretch by stretch. -/
abbrev tail : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [hostOps1, List.Forall]; repeat' constructor
theorem hostOps1_1_fresh : (hostOps1_1 : List (HloOp τ sig (Elt F))).Forall fun op => op.fresh = ∅ := by
  simp only [hostOps1_1, List.Forall]; repeat' constructor
theorem hostOps1_2_fresh : (hostOps1_2 : List (HloOp τ sig (Elt F))).Forall fun op => op.fresh = ∅ := by
  simp only [hostOps1_2, List.Forall]; repeat' constructor
theorem hostOps1_3_fresh : (hostOps1_3 : List (HloOp τ sig (Elt F))).Forall fun op => op.fresh = ∅ := by
  simp only [hostOps1_3, List.Forall]; repeat' constructor
theorem hostOps1_4_fresh : (hostOps1_4 : List (HloOp τ sig (Elt F))).Forall fun op => op.fresh = ∅ := by
  simp only [hostOps1_4, List.Forall]; repeat' constructor

/-- The program is: the earlier lines, the region, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- Every later line touches unscoped TensorCore buffers only. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None allocates. -/
theorem tail_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-! A buffer among the first ten of the device's HBM buffers — the seven arguments and the region's three arrays — is the
    result buffer of no later line: each line writes one buffer, and that buffer's number is ten or more. -/

theorem hostOps0_keeps (b : Ref sig .tc) (hb : b.idx.val ≤ 6) :
    (hostOps0 : List (HloOp τ sig (Elt F))).Forall fun op => Proc.devRef .tc b ∉ op.writes := by
  simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (fun e => absurd (e ▸ hb) (by decide))
theorem hostOps1_keeps (b : Ref sig .tc) (hb : b.idx.val ≤ 9) :
    (hostOps1 : List (HloOp τ sig (Elt F))).Forall fun op => Proc.devRef .tc b ∉ op.writes := by
  simp only [hostOps1, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (fun e => absurd (e ▸ hb) (by decide))
theorem hostOps1_1_keeps (b : Ref sig .tc) (hb : b.idx.val ≤ 9) :
    (hostOps1_1 : List (HloOp τ sig (Elt F))).Forall fun op => Proc.devRef .tc b ∉ op.writes := by
  simp only [hostOps1_1, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (fun e => absurd (e ▸ hb) (by decide))
theorem hostOps1_2_keeps (b : Ref sig .tc) (hb : b.idx.val ≤ 9) :
    (hostOps1_2 : List (HloOp τ sig (Elt F))).Forall fun op => Proc.devRef .tc b ∉ op.writes := by
  simp only [hostOps1_2, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (fun e => absurd (e ▸ hb) (by decide))
theorem hostOps1_3_keeps (b : Ref sig .tc) (hb : b.idx.val ≤ 9) :
    (hostOps1_3 : List (HloOp τ sig (Elt F))).Forall fun op => Proc.devRef .tc b ∉ op.writes := by
  simp only [hostOps1_3, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (fun e => absurd (e ▸ hb) (by decide))
theorem hostOps1_4_keeps (b : Ref sig .tc) (hb : b.idx.val ≤ 9) :
    (hostOps1_4 : List (HloOp τ sig (Elt F))).Forall fun op => Proc.devRef .tc b ∉ op.writes := by
  simp only [hostOps1_4, List.Forall, StableHlo.TRef.ternary, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (fun e => absurd (e ▸ hb) (by decide))

/-- The seven arguments reach the region as launched. -/
theorem V_keep (c : Dev nD) (b : Ref sig .tc) (hb : b.idx.val ≤ 6) : V m c b = m ((c : Thread nD τ).loc b) :=
  StableHlo.after_of_forall_not_mem (b := Proc.devRef .tc b) _ _ (List.forall_iff_forall_mem.mp (by
    simp only [List.flatten_cons, List.flatten_nil, List.append_nil]
    exact hostOps0_keeps b hb))

/-- The later lines leave the first ten buffers as they find them. -/
theorem tail_after_keep (W : Valuation τ sig (Elt F)) (b : Ref sig .tc) (hb : b.idx.val ≤ 9) :
    StableHlo.after (tail (F := F)).flatten W (Proc.devRef .tc b) = W (Proc.devRef .tc b) :=
  StableHlo.after_of_forall_not_mem _ _ fun op hop => by
    obtain ⟨ops, hops, hop⟩ := List.mem_flatten.mp hop
    simp only [List.mem_cons, List.mem_nil_iff, or_false] at hops
    rcases hops with rfl | rfl | rfl | rfl | rfl
    · exact (List.forall_iff_forall_mem.mp (hostOps1_keeps b hb)) op hop
    · exact (List.forall_iff_forall_mem.mp (hostOps1_1_keeps b hb)) op hop
    · exact (List.forall_iff_forall_mem.mp (hostOps1_2_keeps b hb)) op hop
    · exact (List.forall_iff_forall_mem.mp (hostOps1_3_keeps b hb)) op hop
    · exact (List.forall_iff_forall_mem.mp (hostOps1_4_keeps b hb)) op hop

/-- And write none of the region's three arrays. -/
theorem tail_keeps : ∀ ops ∈ (tail : List (List (HloOp τ sig (Elt F)))), ∀ op ∈ ops,
    ∀ w, Proc.devRef .tc (Pipeline.arrRef spec0 w) ∉ op.writes := by
  intro ops hops op hop w
  have hw : (Pipeline.arrRef spec0 w).idx.val ≤ 9 := by revert w; decide
  simp only [List.mem_cons, List.mem_nil_iff, or_false] at hops
  rcases hops with rfl | rfl | rfl | rfl | rfl
  · exact (List.forall_iff_forall_mem.mp (hostOps1_keeps _ hw)) op hop
  · exact (List.forall_iff_forall_mem.mp (hostOps1_1_keeps _ hw)) op hop
  · exact (List.forall_iff_forall_mem.mp (hostOps1_2_keeps _ hw)) op hop
  · exact (List.forall_iff_forall_mem.mp (hostOps1_3_keeps _ hw)) op hop
  · exact (List.forall_iff_forall_mem.mp (hostOps1_4_keeps _ hw)) op hop

/-- After the whole program an argument array still holds its launch contents, whatever the region's arrays ended at. -/
theorem W_keep (dats : (p : Fin 1) → (c : Dev nD) → Dat τ (Elt F) Unit ℕ (UR sig nD τ) ℕ (cfgs p) c) (c : Dev nD)
    (b : Ref sig .tc) (hb : b.idx.val ≤ 6) (hne : ∀ w, Pipeline.arrRef spec0 w ≠ b) :
    Pipeline.afterTail₀ cfgs dats 0 (V0 m) tail c b = m ((c : Thread nD τ).loc b) := by
  unfold Pipeline.afterTail₀
  rw [tail_after_keep _ b (by omega), Pipeline.withArrays_of_ne _ c (V0 m c) _ b hne]
  exact V_keep m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data over `V` whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim's -/

/-- A run ending with every unscoped buffer outside the region's arrays as the later lines leave it ends with the seven
    argument arrays at their launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_keep m dats c main_arg0 (by decide) (by decide)),
    ((h c).2 main_arg1 (Pipeline.mem_restRefs_of main_arg1 (by decide) (by decide))).trans (W_keep m dats c main_arg1 (by decide) (by decide)),
    ((h c).2 main_arg2 (Pipeline.mem_restRefs_of main_arg2 (by decide) (by decide))).trans (W_keep m dats c main_arg2 (by decide) (by decide)),
    ((h c).2 main_arg3 (Pipeline.mem_restRefs_of main_arg3 (by decide) (by decide))).trans (W_keep m dats c main_arg3 (by decide) (by decide)),
    ((h c).2 main_arg4 (Pipeline.mem_restRefs_of main_arg4 (by decide) (by decide))).trans (W_keep m dats c main_arg4 (by decide) (by decide)),
    ((h c).2 main_arg5 (Pipeline.mem_restRefs_of main_arg5 (by decide) (by decide))).trans (W_keep m dats c main_arg5 (by decide) (by decide)),
    ((h c).2 main_arg6 (Pipeline.mem_restRefs_of main_arg6 (by decide) (by decide))).trans (W_keep m dats c main_arg6 (by decide) (by decide))⟩) h

/-! ## The body's two branches -/

/-- The first branch's condition (the second grid coordinate is 0), as the body computes it. -/
abbrev cond0_0 (i : grid0.Coords) : Prop := (Scalar.cmpi .ne (Scalar.extui (Scalar.cmpi .eq (BitVec.ofNat 32 (i 1).val) 0#32)) 0#32) = 1#1
/-- It holds at the first of each sixteen points. -/
theorem hcond0_0 : ∀ t : Fin cfg0.N, cond0_0 (grid0.coords t) ↔ t.val % 16 = 0 :=
  (by decide +kernel : ∀ t : Fin grid0.N, cond0_0 (grid0.coords t) ↔ t.val % 16 = 0)
/-- The second branch's condition (the second grid coordinate is 15). -/
abbrev cond0_1 (i : grid0.Coords) : Prop := k0_cond2 i = 1#1
/-- It holds at the last of each sixteen points. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the result window is idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second branch is not taken the result window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- Where it is taken the window is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S32x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
/-- The one-entry scratch buffer that carries the running sum from point to point. -/
abbrev scM : Memref sig .tc .vmem S1x1 .f32 := Memref.whole cc0_scratch0
abbrev VS : View sig .tc .vmem S1x1 .f32 := (scM).view
/-- One staging buffer of the result window, through which its contents are stated. -/
abbrev VO : View sig .tc .vmem S1x8x128 .f32 := (Memref.whole cc0_stg2_0 : Memref sig .tc .vmem S1x8x128 .f32).view

/-- What the region's invariant holds besides the windows: the scratch buffer at some contents and the generator's register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.KernelIdeal.RunA.lean ====
/-
  The body at a grid point of one kind (the first of sixteen: the running sum is cleared, then the block's sum is added to it; the result block is left alone). Run on whole staging buffers holding the two input blocks, it ends
  holding them unchanged, the scratch entry with the stores it made written over it, and the result block
  as it was; the stores are found by running the body, the four chunks of the inner loop through the loop's
  invariant.
-/
import proofs.«404243_j39548058861680_3_alg».proof.Proof.KernelIdeal.Around

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_A (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : cond0_0 i) (hc1 : ¬cond0_1 i)
    (x0 x1 : Vec F S32x256x256 .f32) :
    Σ' (L2 : List (View.Piece (Elt F) S1x8x128 .f32)), { LS0 : List (View.Piece (Elt F) S1x1 .f32) //
      ∀ (xi2 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__loss_hm_kernel i arg2 harg2 arg3 harg3 arg4 harg4 arg5 harg5) K } := by
  refine ⟨[], ?_, fun xi2 E K => ?run⟩
  case run =>
    simp only [cc0__loss_hm_kernel_eq_skeleton]; unfold cc0__loss_hm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KernelIdeal.RunB.lean ====
/-
  The body at a grid point of one kind (a middle point: the block's sum is added to the running sum; the result block is left alone). Run on whole staging buffers holding the two input blocks, it ends
  holding them unchanged, the scratch entry with the stores it made written over it, and the result block
  as it was; the stores are found by running the body, the four chunks of the inner loop through the loop's
  invariant.
-/
import proofs.«404243_j39548058861680_3_alg».proof.Proof.KernelIdeal.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_B (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : ¬cond0_1 i)
    (x0 x1 : Vec F S32x256x256 .f32) (xs0 : Vec F S1x1 .f32) :
    Σ' (L2 : List (View.Piece (Elt F) S1x8x128 .f32)), { LS0 : List (View.Piece (Elt F) S1x1 .f32) //
      ∀ (xi2 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__loss_hm_kernel i arg2 harg2 arg3 harg3 arg4 harg4 arg5 harg5) K } := by
  refine ⟨[], ?_, fun xi2 E K => ?run⟩
  case run =>
    simp only [cc0__loss_hm_kernel_eq_skeleton]; unfold cc0__loss_hm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KernelIdeal.RunC.lean ====
/-
  The body at a grid point of one kind (the last of sixteen: the block's sum is added to the running sum, and the sum is written to entry (0,0,0) of the result block, zeros elsewhere). Run on whole staging buffers holding the two input blocks, it ends
  holding them unchanged, the scratch entry with the stores it made written over it, and the result block
  with its one store written; the stores are found by running the body, the four chunks of the inner loop through the loop's
  invariant.
-/
import proofs.«404243_j39548058861680_3_alg».proof.Proof.KernelIdeal.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
noncomputable def kernelRun0_C (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 x1 : Vec F S32x256x256 .f32) (xs0 : Vec F S1x1 .f32) :
    Σ' (L2 : List (View.Piece (Elt F) S1x8x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__loss_hm_kernel i arg2 harg2 arg3 harg3 arg4 harg4 arg5 harg5) K } := by
  refine ⟨?_, ?_, fun E K => ?run⟩
  case run =>
    simp only [cc0__loss_hm_kernel_eq_skeleton]; unfold cc0__loss_hm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KernelIdeal.Frame.lean ====
/-
  The frame of the program. After point `n` of the grid the scratch entry holds the running sum the stores found by the
  three runs leave there (`outsAt`, by recursion on the point: the first of each sixteen points starts afresh, the
  others add to what the point before left), and the result window's staging buffer holds, at the last of each sixteen
  points, the block the run's store leaves. With these as the region's proof data the body meets its obligation at every
  point, the launch theorem for a region between host lines applies, and the seven argument arrays end as launched.
-/
import proofs.«404243_j39548058861680_3_alg».proof.Proof.KernelIdeal.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point leaves, kind by kind -/

theorem notLast_of_first (t : Fin cfg0.N) (h0 : t.val % 16 = 0) : ¬cond0_1 (grid0.coords t) :=
  fun h => by have := (hcond0_1 t).mp h; omega
theorem notFirst_of_last (t : Fin cfg0.N) (h1 : t.val % 16 = 15) : ¬cond0_0 (grid0.coords t) :=
  fun h => by have := (hcond0_0 t).mp h; omega

/-- The scratch entry after a first-of-sixteen point. -/
def sumA (c : Dev nD) (t : Fin cfg0.N) (h0 : t.val % 16 = 0) : Vec F S1x1 .f32 :=
  VS.read (Elt F) (VS.writes (Elt F) VS.junk (kernelRun0_A c (grid0.coords t) (ms0_0 t) (hs0_0 t) (ms0_1 t) (hs0_1 t) (ms0_2 t) (hs0_2 t) scM (Memref.isWhole_whole _) ((hcond0_0 t).mpr h0) (notLast_of_first t h0) (iblk m c 0 t) (iblk m c 1 t)).2.1)
/-- The scratch entry after a middle point, over what the point before left (`xs`). -/
def sumB (c : Dev nD) (t : Fin cfg0.N) (h0 : ¬t.val % 16 = 0) (h1 : ¬t.val % 16 = 15) (xs : Vec F S1x1 .f32) : Vec F S1x1 .f32 :=
  VS.read (Elt F) (VS.writes (Elt F) VS.junk (kernelRun0_B c (grid0.coords t) (ms0_0 t) (hs0_0 t) (ms0_1 t) (hs0_1 t) (ms0_2 t) (hs0_2 t) scM (Memref.isWhole_whole _) (fun h => h0 ((hcond0_0 t).mp h)) (fun h => h1 ((hcond0_1 t).mp h)) (iblk m c 0 t) (iblk m c 1 t) xs).2.1)
/-- The scratch entry after a last-of-sixteen point, -/
def sumC (c : Dev nD) (t : Fin cfg0.N) (h1 : t.val % 16 = 15) (xs : Vec F S1x1 .f32) : Vec F S1x1 .f32 :=
  VS.read (Elt F) (VS.writes (Elt F) VS.junk (kernelRun0_C c (grid0.coords t) (ms0_0 t) (hs0_0 t) (ms0_1 t) (hs0_1 t) (ms0_2 t) (hs0_2 t) scM (Memref.isWhole_whole _) (notFirst_of_last t h1) ((hcond0_1 t).mpr h1) (iblk m c 0 t) (iblk m c 1 t) xs).2.1)
/-- and the result block it stores. -/
def blockC (c : Dev nD) (t : Fin cfg0.N) (h1 : t.val % 16 = 15) (xs : Vec F S1x1 .f32) : Vec F S1x8x128 .f32 :=
  VO.read (Elt F) (VO.writes (Elt F) VO.junk (kernelRun0_C c (grid0.coords t) (ms0_0 t) (hs0_0 t) (ms0_1 t) (hs0_1 t) (ms0_2 t) (hs0_2 t) scM (Memref.isWhole_whole _) (notFirst_of_last t h1) ((hcond0_1 t).mpr h1) (iblk m c 0 t) (iblk m c 1 t) xs).1)
/-- Where the result window is idle nothing reads its buffer: any block will do. -/
def blockIdle : Vec F S1x8x128 .f32 := VO.read (Elt F) VO.junk

/-- The runs' stores into the one-entry scratch cover it. -/
theorem coverA (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : cond0_0 i) (hc1 : ¬cond0_1 i)
    (x0 x1 : Vec F S32x256x256 .f32) (y : S1x1.Idx) :
    ∃ pc ∈ (kernelRun0_A c i arg2 harg2 arg3 harg3 arg4 harg4 arg5 harg5 hc0 hc1 x0 x1).2.1, y ∈ pc.1.set :=
  View.cover_of_tiledL _ S1x1.size (by sl_kernel_rfl) y
theorem coverB (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : ¬cond0_1 i)
    (x0 x1 : Vec F S32x256x256 .f32) (xs0 : Vec F S1x1 .f32) (y : S1x1.Idx) :
    ∃ pc ∈ (kernelRun0_B c i arg2 harg2 arg3 harg3 arg4 harg4 arg5 harg5 hc0 hc1 x0 x1 xs0).2.1, y ∈ pc.1.set :=
  View.cover_of_tiledL _ S1x1.size (by sl_kernel_rfl) y
theorem coverC (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 x1 : Vec F S32x256x256 .f32) (xs0 : Vec F S1x1 .f32) (y : S1x1.Idx) :
    ∃ pc ∈ (kernelRun0_C c i arg2 harg2 arg3 harg3 arg4 harg4 arg5 harg5 hc0 hc1 x0 x1 xs0).2.1, y ∈ pc.1.set :=
  View.cover_of_tiledL _ S1x1.size (by sl_kernel_rfl) y
/-- The last-of-sixteen run's store covers the result block. -/
theorem coverOutC (c : Dev nD) (i : grid0.Coords) (arg2 : Memref sig .tc .vmem S32x256x256 .f32) (harg2 : arg2.IsWhole) (arg3 : Memref sig .tc .vmem S32x256x256 .f32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 x1 : Vec F S32x256x256 .f32) (xs0 : Vec F S1x1 .f32) (y : S1x8x128.Idx) :
    ∃ pc ∈ (kernelRun0_C c i arg2 harg2 arg3 harg3 arg4 harg4 arg5 harg5 hc0 hc1 x0 x1 xs0).1, y ∈ pc.1.set :=
  View.cover_of_tiledL _ S1x8x128.size (by sl_kernel_rfl) y

/-! ## Point by point -/

/-- What the result window's staging buffer and the scratch entry hold after point `n`. -/
def outsAt (c : Dev nD) : (n : ℕ) → n < cfg0.N → Vec F S1x8x128 .f32 × Vec F S1x1 .f32
  | 0, hn => (blockIdle, sumA m c ⟨0, hn⟩ (Nat.zero_mod _))
  | n + 1, hn =>
    if h1 : (n + 1) % 16 = 15 then
      (blockC m c ⟨n + 1, hn⟩ h1 (outsAt c n (Nat.lt_of_succ_lt hn)).2, sumC m c ⟨n + 1, hn⟩ h1 (outsAt c n (Nat.lt_of_succ_lt hn)).2)
    else if h0 : (n + 1) % 16 = 0 then
      (blockIdle, sumA m c ⟨n + 1, hn⟩ h0)
    else
      (blockIdle, sumB m c ⟨n + 1, hn⟩ h0 h1 (outsAt c n (Nat.lt_of_succ_lt hn)).2)

theorem outsAt_A (c : Dev nD) (t : Fin cfg0.N) (h0 : t.val % 16 = 0) :
    outsAt m c t.val t.isLt = (blockIdle, sumA m c t h0) := by
  obtain ⟨n, hn⟩ := t
  cases n with
  | zero => rfl
  | succ n => exact (dif_neg (by (try dsimp only at h0); omega)).trans ((dif_pos h0).trans rfl)

theorem outsAt_B (c : Dev nD) (t : Fin cfg0.N) (h0 : ¬t.val % 16 = 0) (h1 : ¬t.val % 16 = 15) :
    outsAt m c t.val t.isLt = (blockIdle, sumB m c t h0 h1 (outsAt m c (t.val - 1) (Nat.lt_of_le_of_lt (Nat.sub_le _ _) t.isLt)).2) := by
  obtain ⟨n, hn⟩ := t
  cases n with
  | zero => exact absurd (Nat.zero_mod _) h0
  | succ n => exact (dif_neg h1).trans ((dif_neg h0).trans rfl)

theorem outsAt_C (c : Dev nD) (t : Fin cfg0.N) (h1 : t.val % 16 = 15) :
    outsAt m c t.val t.isLt = (blockC m c t h1 (outsAt m c (t.val - 1) (Nat.lt_of_le_of_lt (Nat.sub_le _ _) t.isLt)).2, sumC m c t h1 (outsAt m c (t.val - 1) (Nat.lt_of_le_of_lt (Nat.sub_le _ _) t.isLt)).2) := by
  obtain ⟨n, hn⟩ := t
  cases n with
  | zero => exact (by exfalso; (try dsimp only at h1); omega)
  | succ n => exact (dif_pos h1).trans rfl

/-- The region's invariant before point `n`: at the start the scratch entry holds anything; afterwards it holds what the
    point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The region's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val % 16 = 15
  · -- the last of sixteen
    have hz : t.val ≠ 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [outsAt_C m c t h1]
    unfold blockC sumC; (try dsimp only)
    rw [PhiS_castSucc m c t, PhiS_pos m c _ _ hz]
    iintro ⟨⟨HS0, Hg⟩, Ho, ⟨%d0, H0⟩, ⟨%d1, H1⟩, ⟨%d2, H2⟩⟩
    iapply ((kernelRun0_C c (grid0.coords t) (ms0_0 t) (hs0_0 t) (ms0_1 t) (hs0_1 t) (ms0_2 t) (hs0_2 t) scM (Memref.isWhole_whole _) (notFirst_of_last t h1) ((hcond0_1 t).mpr h1) (iblk m c 0 t) (iblk m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (coverC c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (coverOutC c _ _ _ _ _ _ _ _ _ _ _ _ _ _)
  · have hnl : ¬cond0_1 (grid0.coords t) := fun h => h1 ((hcond0_1 t).mp h)
    rw [Dat.leavesExact_idle (dats m 0 c) 2 t (idleAt0_2 t hnl) (noFlush0_2 t hnl)]
    by_cases h0 : t.val % 16 = 0
    · -- the first of sixteen
      rw [outsAt_A m c t h0]
      unfold sumA; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM (Memref.isWhole_whole _) ((hcond0_0 t).mpr h0) (notLast_of_first t h0) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (coverA c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM (Memref.isWhole_whole _) ((hcond0_0 t).mpr h0) (notLast_of_first t h0) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (coverA c _ _ _ _ _ _ _ _ _ _ _ _ _)
          iexact Hg
        isplitl [Ho]; · iexact Ho
        isplitl [H0]; · iexact H0
        isplitl [H1]; · iexact H1
        iexists _; iexact H2
    · -- a middle point
      have hz : t.val ≠ 0 := fun e => h0 (by rw [e])
      rw [outsAt_B m c t h0 h1]
      unfold sumB; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM (Memref.isWhole_whole _) (fun h => h0 ((hcond0_0 t).mp h)) hnl (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (coverB c _ _ _ _ _ _ _ _ _ _ _ _ _ _)
        iexact Hg
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨HS0, Hg⟩
  isplitl [HS0]
  · iexists _; iexact HS0
  iexact Hg

/-! ## The run and the frame -/

set_option backward.isDefEq.respectTransparency.types false in
/-- Every weakly fair execution of the program terminates; the region's three arrays end at what the proof data compute
    and every other unscoped buffer as the later lines leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps)
    (hmain := hmain m Variants.none) (hA := A_eq m) (hin := hin m) (hout := hout m)

/-- The seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Fr

end
-- ==== Proof.KernelIdeal.Pieces.lean ====
/-
  What the three runs' stores are. The scratch entry after a point is the body's last payload — what the scratch held
  before (zero at the first of sixteen points) plus the inner loop's total over the point's two blocks — and the result
  block stored at the last of sixteen points is the block-shaped payload of that sum. The inner loop's total is its four
  chunk payloads folded from zero.
-/
import proofs.«404243_j39548058861680_3_alg».proof.Proof.KernelIdeal.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hzS : (![0, 0] : Fin 2 → Nat) = fun _ => 0 := funext fun a => by fin_cases a <;> rfl
theorem hzO : (![0, 0, 0] : Fin 3 → Nat) = fun _ => 0 := funext fun a => by fin_cases a <;> rfl

/-- The inner loop's total at point `t` over blocks `x0`, `x1`: the carried value after its four trips. -/
abbrev loopTot (c : Dev nD) (t : Fin cfg0.N) (x0 x1 : Vec F S32x256x256 .f32) : FVec F S1x1 .f32 :=
  st_k0_t1 (F := F) Variants.none c none (grid0.coords t) (ms0_0 t) (hs0_0 t) (ms0_1 t) (hs0_1 t) (ms0_2 t) (hs0_2 t) scM (Memref.isWhole_whole _)
    ((hs0_0 t).unread x0) ((hs0_1 t).unread x1) (k0_pay2 (F := F)) (Scf.trips (0#32) (Scalar.addi 0#32 4#32) 1#32)

theorem sumB_eq (c : Dev nD) (t : Fin cfg0.N) (h0 : ¬t.val % 16 = 0) (h1 : ¬t.val % 16 = 15) (xs : Vec F S1x1 .f32) :
    sumB m c t h0 h1 xs = k0_pay4 (loopTot c t (iblk m c 0 t) (iblk m c 1 t)) xs := by
  unfold sumB
  rw [View.read_writes_eq_canon _ _ _ (coverB c _ _ _ _ _ _ _ _ _ _ _ _ _ _)]
  unfold kernelRun0_B
  dsimp only
  sl_unfold_words
  rw [View.canon_unit_zero hzS]
  simp only [View.readAt_eq_ld, View.ld_unit_zero (S := S1x1) hzS]
  exact congrArg (k0_pay4 (loopTot c t (iblk m c 0 t) (iblk m c 1 t))) ((Memref.isWhole_whole (cc0_scratch0 : Ref sig .tc) : (scM : Memref sig .tc .vmem S1x1 .f32).IsWhole).read_unread (Val := Elt F) xs)

theorem sumC_eq (c : Dev nD) (t : Fin cfg0.N) (h1 : t.val % 16 = 15) (xs : Vec F S1x1 .f32) :
    sumC m c t h1 xs = k0_pay4 (loopTot c t (iblk m c 0 t) (iblk m c 1 t)) xs := by
  unfold sumC
  rw [View.read_writes_eq_canon _ _ _ (coverC c _ _ _ _ _ _ _ _ _ _ _ _ _ _)]
  unfold kernelRun0_C
  dsimp only
  sl_unfold_words
  rw [View.canon_unit_zero hzS]
  simp only [View.readAt_eq_ld, View.ld_unit_zero (S := S1x1) hzS]
  exact congrArg (k0_pay4 (loopTot c t (iblk m c 0 t) (iblk m c 1 t))) ((Memref.isWhole_whole (cc0_scratch0 : Ref sig .tc) : (scM : Memref sig .tc .vmem S1x1 .f32).IsWhole).read_unread (Val := Elt F) xs)

theorem blockC_eq (c : Dev nD) (t : Fin cfg0.N) (h1 : t.val % 16 = 15) (xs : Vec F S1x1 .f32) :
    blockC m c t h1 xs = k0_pay5 (k0_pay4 (loopTot c t (iblk m c 0 t) (iblk m c 1 t)) xs) := by
  unfold blockC
  rw [View.read_writes_eq_canon _ _ _ (coverOutC c _ _ _ _ _ _ _ _ _ _ _ _ _ _)]
  unfold kernelRun0_C
  dsimp only
  sl_unfold_words
  rw [View.canon_unit_zero hzO]
  simp only [View.readCov_unit_zero (S := S1x1) _ hzS, View.readAt_eq_ld, View.ld_unit_zero (S := S1x1) hzS]
  exact congrArg (fun v => k0_pay5 (k0_pay4 (loopTot c t (iblk m c 0 t) (iblk m c 1 t)) v)) ((Memref.isWhole_whole (cc0_scratch0 : Ref sig .tc) : (scM : Memref sig .tc .vmem S1x1 .f32).IsWhole).read_unread (Val := Elt F) xs)

theorem sumA_eq (c : Dev nD) (t : Fin cfg0.N) (h0 : t.val % 16 = 0) :
    sumA m c t h0 = k0_pay4 (loopTot c t (iblk m c 0 t) (iblk m c 1 t)) (k0_pay1 (F := F)) := by
  unfold sumA
  rw [View.read_writes_eq_canon _ _ _ (coverA c _ _ _ _ _ _ _ _ _ _ _ _ _)]
  unfold kernelRun0_A
  dsimp only
  sl_unfold_words
  rw [View.canon_cons_unit_zero (S := S1x1) hzS]
  simp only [View.readCov_unit_zero (S := S1x1) _ hzS]

/-- One trip of the inner loop is the chunk payload of the carried value and the two chunks it loads. -/
theorem trip_eq (c : Dev nD) (t : Fin cfg0.N) (X2 : BufTy.Contents (Elt F) (ms0_0 t).view.ty) (X3 : BufTy.Contents (Elt F) (ms0_1 t).view.ty)
    (k : Fin k0_t1_loop.trips) (acc : FVec F S1x1 .f32) :
    tripR_k0_t1 (F := F) Variants.none c none (grid0.coords t) (ms0_0 t) (hs0_0 t) (ms0_1 t) (hs0_1 t) (ms0_2 t) (hs0_2 t) scM (Memref.isWhole_whole _) X2 X3 k acc
      = k0_pay3 acc (View.readAt (Elt F) (ms0_0 t).view (Rect.unit (s := S32x256x256) (k0_off1 k) S8x256x256.size (k0_off1_inb k)).toLoadRect X2)
          (View.readAt (Elt F) (ms0_1 t).view (Rect.unit (s := S32x256x256) (k0_off1 k) S8x256x256.size (k0_off1_inb k)).toLoadRect X3) := by
  unfold tripR_k0_t1 trip_k0_t1
  rfl

/-- A chunk of a block: rows `8k … 8k + 7`. -/
abbrev chunk (x : Vec F S32x256x256 .f32) (k : Fin k0_t1_loop.trips) : Vec F S8x256x256 .f32 :=
  View.ld x (Rect.unit (s := S32x256x256) (k0_off1 k) S8x256x256.size (k0_off1_inb k))

/-- The loop's total is the four chunk payloads folded from its zero start. -/
theorem loopTot_eq (c : Dev nD) (t : Fin cfg0.N) (x0 x1 : Vec F S32x256x256 .f32) :
    loopTot c t x0 x1
      = k0_pay3 (k0_pay3 (k0_pay3 (k0_pay3 (k0_pay2 (F := F)) (chunk x0 ⟨0, by decide⟩) (chunk x1 ⟨0, by decide⟩))
          (chunk x0 ⟨1, by decide⟩) (chunk x1 ⟨1, by decide⟩)) (chunk x0 ⟨2, by decide⟩) (chunk x1 ⟨2, by decide⟩))
          (chunk x0 ⟨3, by decide⟩) (chunk x1 ⟨3, by decide⟩) := by
  unfold loopTot
  rw [show Scf.trips (0#32) (Scalar.addi 0#32 4#32) 1#32 = (⟨3, by decide⟩ : Fin k0_t1_loop.trips).val + 1 from by decide,
    st_k0_t1_succ, trip_eq,
    show (⟨3, by decide⟩ : Fin k0_t1_loop.trips).val = (⟨2, by decide⟩ : Fin k0_t1_loop.trips).val + 1 from rfl, st_k0_t1_succ, trip_eq,
    show (⟨2, by decide⟩ : Fin k0_t1_loop.trips).val = (⟨1, by decide⟩ : Fin k0_t1_loop.trips).val + 1 from rfl, st_k0_t1_succ, trip_eq,
    show (⟨1, by decide⟩ : Fin k0_t1_loop.trips).val = (⟨0, by decide⟩ : Fin k0_t1_loop.trips).val + 1 from rfl, st_k0_t1_succ, trip_eq]
  simp only [View.readAt_eq_ld, Memref.IsWhole.read_unread]
  rfl

end Cert.KernelIdeal.Fr

end
-- ==== Proof.KernelIdeal.Blocks.lean ====
/-
  Which entries of the two heat-map argument arrays each grid point's two input blocks are. The region reads the two
  arrays through their reshapes to `[1024, 256, 256]`; point `t` of the 32 sees rows `32·t … 32·t + 31` of each, and
  row `r` of the reshaped array is entry `(r / 16, r % 16)` of the `[64, 16, 256, 256]` array (row-major order).
-/
import proofs.«404243_j39548058861680_3_alg».proof.Proof.KernelIdeal.Around
import Idealize.ShloMosaic.Lib.Pipeline.Value
import Idealize.ShloMosaic.Lib.ValueIdx
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The blocks -/

/-- The first input block at point t, as an array of its literal type. -/
abbrev blk0 (c : Dev nD) (t : Fin cfg0.N) : Vec F S32x256x256 .f32 := iblk m c 0 t
/-- The second input block at point t, as an array of its literal type. -/
abbrev blk1 (c : Dev nD) (t : Fin cfg0.N) : Vec F S32x256x256 .f32 := iblk m c 1 t

/-! ## Where the blocks start

Both index maps send the grid point `(i, j)` to block `(16·i + j, 0, 0)`, and the point's number in the grid's row-major
order is `t = 16·i + j`: block `t` along the rows, the whole extent on the other two axes. Decided once over the 32 points. -/

/-- The first window's block index at point `t` is `(t, 0, 0)`. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
/-- The second window's block index at point `t` is `(t, 0, 0)`. -/
theorem index1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

/-! ## The two arrays the region reads are reshapes of two argument arrays -/

/-- The first window's array, as the region finds it, is the first heat-map argument reshaped to `[1024, 256, 256]`. -/
theorem V_main_v0 (c : Dev nD) :
    (V m c main_v0 : S1024x256x256.Idx → Elt F .f32)
      = shapeCast S1024x256x256 (m ((c : Thread nD τ).loc main_arg0)) shapeCasts_S64x16x256x256_S1024x256x256 := by
  dsimp only [V, V0]
  simp only [hostOps0, List.flatten_cons, List.flatten_nil, List.append_nil]
  after_results
  rfl
/-- The second window's array is the second heat-map argument reshaped to `[1024, 256, 256]`. -/
theorem V_main_v1 (c : Dev nD) :
    (V m c main_v1 : S1024x256x256.Idx → Elt F .f32)
      = shapeCast S1024x256x256 (m ((c : Thread nD τ).loc main_arg3)) shapeCasts_S64x16x256x256_S1024x256x256 := by
  dsimp only [V, V0]
  simp only [hostOps0, List.flatten_cons, List.flatten_nil, List.append_nil]
  after_results
  rfl

/-! ## A block's entry in the argument array

Entry `(p, h, w)` of point `t`'s block is entry `(32·t + p, h, w)` of the reshaped array (block index times block size plus
the coordinate inside the block, on each axis). Its row-major position there is `((32·t + p)·256 + h)·256 + w`; the entry
of the `[64, 16, 256, 256]` array at the same position is `((32·t + p) / 16, (32·t + p) % 16, h, w)`, since
`(r / 16)·16 + r % 16 = r`. -/

/-- Entry `(p, h, w)` of the first input block at point `t` is the first heat-map argument at
    `((32·t + p) / 16, (32·t + p) % 16, h, w)`. -/
theorem blk0_apply (c : Dev nD) (t : Fin cfg0.N) (p : Fin 32) (h w : Fin 256) :
    blk0 m c t (ix3 p h w) = (m ((c : Thread nD τ).loc main_arg0) : Vec F S64x16x256x256 .f32) (ix4 (⟨(32 * t.val + p.val) / 16, by have := t.isLt; have : cfg0.N = 32 := N_0; omega⟩ : Fin 64) (⟨(32 * t.val + p.val) % 16, by omega⟩ : Fin 16) h w) := by
  show V m c main_v0 (((cfg0.win 0).blk t).view.emb (ix3 p h w)) = _
  rw [V_main_v0]
  obtain ⟨e0, e1, e2⟩ := index0 t
  have ht : t.val < 32 := lt_of_lt_of_eq t.isLt (show cfg0.N = 32 from N_0)
  refine shapeCast_apply _ _ _ _ ?_
  refine (Shape.rowMajor_val_four (d := ![64, 16, 256, 256]) _).trans ?_
  refine Eq.trans ?_ (Shape.rowMajor_val_three (d := ![1024, 256, 256]) _).symm
  show (((32 * t.val + p.val) / 16 * 16 + (32 * t.val + p.val) % 16) * 256 + h.val) * 256 + w.val
    = ((win0_0.index t (0 : Fin 3) * 32 + 1 * p.val) * 256 + (win0_0.index t (1 : Fin 3) * 256 + 1 * h.val)) * 256
      + (win0_0.index t (2 : Fin 3) * 256 + 1 * w.val)
  rw [e0, e1, e2]
  omega

/-- Entry `(p, h, w)` of the second input block at point `t` is the second heat-map argument at
    `((32·t + p) / 16, (32·t + p) % 16, h, w)`. -/
theorem blk1_apply (c : Dev nD) (t : Fin cfg0.N) (p : Fin 32) (h w : Fin 256) :
    blk1 m c t (ix3 p h w) = (m ((c : Thread nD τ).loc main_arg3) : Vec F S64x16x256x256 .f32) (ix4 (⟨(32 * t.val + p.val) / 16, by have := t.isLt; have : cfg0.N = 32 := N_0; omega⟩ : Fin 64) (⟨(32 * t.val + p.val) % 16, by omega⟩ : Fin 16) h w) := by
  show V m c main_v1 (((cfg0.win 1).blk t).view.emb (ix3 p h w)) = _
  rw [V_main_v1]
  obtain ⟨e0, e1, e2⟩ := index1 t
  have ht : t.val < 32 := lt_of_lt_of_eq t.isLt (show cfg0.N = 32 from N_0)
  refine shapeCast_apply _ _ _ _ ?_
  refine (Shape.rowMajor_val_four (d := ![64, 16, 256, 256]) _).trans ?_
  refine Eq.trans ?_ (Shape.rowMajor_val_three (d := ![1024, 256, 256]) _).symm
  show (((32 * t.val + p.val) / 16 * 16 + (32 * t.val + p.val) % 16) * 256 + h.val) * 256 + w.val
    = ((win0_1.index t (0 : Fin 3) * 32 + 1 * p.val) * 256 + (win0_1.index t (1 : Fin 3) * 256 + 1 * h.val)) * 256
      + (win0_1.index t (2 : Fin 3) * 256 + 1 * w.val)
  rw [e0, e1, e2]
  omega

end Cert.KernelIdeal.Fr

end
-- ==== Proof.LibClampIx.lean ====
/-! # A gather's start index: a 32-bit word read signed and clamped into an axis

StableHLO's gather reads each component of a start index as a signed integer and clamps it into
`[0, size − slice size]`. On an axis of `U` positions whose slice has one position that is
`min (max w 0) (U − 1)`: `Int.toNat` sends the negative words to `0`, `min` cuts at `U − 1`. This file names
that position as an element of `Fin U`, so that two programs gathering along the same axis are seen to read
the same place, and records two facts about words that already lie on the axis. -/

namespace Cert.Hand

/-- The position on an axis of `U` places that the word `w`, read signed, is clamped to. -/
def clampIx (U : Nat) (hU : 0 < U) (w : BitVec 32) : Fin U := ⟨min w.toInt.toNat (U - 1), by omega⟩

theorem clampIx_val (U : Nat) (hU : 0 < U) (w : BitVec 32) :
    (clampIx U hU w).val = min w.toInt.toNat (U - 1) := rfl

/-- A word that lies on the axis is its own clamped position. -/
theorem clampIx_val_of_mem (U : Nat) (hU : 0 < U) (w : BitVec 32) (h0 : 0 ≤ w.toInt) (hlt : w.toInt < (U : Int)) :
    (clampIx U hU w).val = w.toInt.toNat := by
  rw [clampIx_val]
  have : w.toInt.toNat < U := by omega
  omega

/-- As an integer, too. -/
theorem clampIx_val_int_of_mem (U : Nat) (hU : 0 < U) (w : BitVec 32) (h0 : 0 ≤ w.toInt) (hlt : w.toInt < (U : Int)) :
    ((clampIx U hU w).val : Int) = w.toInt := by
  rw [clampIx_val_of_mem U hU w h0 hlt]; omega

/-- A word that is not negative as a signed integer is not signed-below zero. -/
theorem slt_zero_of_nonneg (w : BitVec 32) (h0 : 0 ≤ w.toInt) : BitVec.slt w 0#32 = false := by
  simp only [BitVec.slt, BitVec.toInt_zero]
  exact decide_eq_false (by omega)

/-- The normalisation of a possibly negative position — add the axis' length to a word below zero — leaves a
    word that is not negative alone. -/
theorem wrap_of_nonneg (w u : BitVec 32) (h0 : 0 ≤ w.toInt) : (if BitVec.slt w 0#32 then w + u else w) = w := by
  rw [slt_zero_of_nonneg w h0]; rfl

end Cert.Hand
-- ==== Proof.LossSpec.lean ====
import proofs.«404243_j39548058861680_3_alg».proof.Proof.LibClampIx
import Idealize.ShloMosaic.PureOps
import Idealize.ShloMosaic.PureOps.Ideal
import Idealize.ShloMosaic.Lib.ValueIdx

/-! # What the two programs compute, entry by entry

Both programs evaluate the same three losses and combine them in the same way.

* The heat-map loss is the mean over all `64·16·256·256` entries of `(clip(σ(hm)) − target)²`, where `σ` is the
  logistic function and `clip` keeps a value between two fixed float literals: `sqTerm` is one entry's term.
* The two regression losses read, for each of the `64·16` key points `(b, k)` and each of the two channels `ch`,
  the entry `(b, ch, y, x)` of a `[64, 2, 256, 256]` map, where `(x, y)` is the key point's pair of coordinate
  words. A coordinate word is used as an array position the way both programs' index arithmetic uses it: a
  negative word has the axis' length `256` added to it, and the word is then read as a signed integer and
  clamped onto the axis (`pix`). The gathered values enter a smooth-L1 mean against their targets
  (`smoothL1Mean`), and `total` is the weighted sum of the three losses.
-/

noncomputable section

namespace Cert.Loss

open Idealize.ShloMosaic Idealize.ShloMosaic.ValueIdx

/-- The position on an axis of 256 places that a coordinate word names: 256 is added to a negative word, and the
    result, read signed, is clamped to `0 … 255`. -/
def pix (w : BitVec 32) : Fin 256 :=
  Cert.Hand.clampIx 256 (by decide) (if BitVec.slt w 0#32 then w + 256#32 else w)

/-- One entry's term of the heat-map loss over the extended reals: the logistic of the prediction, kept between the
    two float literals, minus the target, squared. -/
def sqTerm (x y : Ideal .f32) : Ideal .f32 :=
  FloatOps.mulf
    (FloatOps.subf (FloatOps.minimumf (FloatOps.ofBits .f32 0x3F7FF972#32)
      (FloatOps.maximumf (FloatOps.ofBits .f32 0x38D1B717#32) (FloatOps.logistic x))) y)
    (FloatOps.subf (FloatOps.minimumf (FloatOps.ofBits .f32 0x3F7FF972#32)
      (FloatOps.maximumf (FloatOps.ofBits .f32 0x38D1B717#32) (FloatOps.logistic x))) y)

/-- The shape of a scalar, and of the `64 × 16 × 2` arrays of gathered values and of their targets. -/
abbrev S0 : Shape := ⟨0, ![]⟩
abbrev SK : Shape := ⟨3, ![64, 16, 2]⟩

variable {F : FTy → Type} [FloatOps F]

/-- The smooth-L1 loss of gathered values `g` against targets `t`, averaged over the 2048 entries: with
    `d = |g − t|`, an entry contributes `d²/2` where `d < 1` and `d − 1/2` elsewhere; the sum is divided by 2048.
    The three shape facts are the ones each program states for these operations. -/
def smoothL1Mean (hb : S0.BroadcastsInDim SK (![] : Fin 0 → Fin SK.rank)) (hr : SK.ReducesTo [0, 1, 2] S0)
    (h0 : 0 < S0.numel) (g t : FVec F SK .f32) : FVec F S0 .f32 :=
  Host.divf
    (Host.reduceAdd
      (select (cmpf .olt (Host.absf (subf g t)) (broadcastInDim SK ![] hb (constant S0 .f32 0x3F800000#32)))
        (mulf (mulf (broadcastInDim SK ![] hb (constant S0 .f32 0x3F000000#32)) (Host.absf (subf g t))) (Host.absf (subf g t)))
        (subf (Host.absf (subf g t)) (broadcastInDim SK ![] hb (constant S0 .f32 0x3F000000#32))))
      (constant S0 .f32 0x00000000#32) hr h0)
    (constant S0 .f32 0x45000000#32)

/-- The total: `1 · (x / 2²⁴) + c · L(g₁, t₁) + 0 · L(g₂, t₂)`, where `x` is the sum of the heat-map terms, `c` the float
    literal nearest 0.01 and `L` the smooth-L1 mean. -/
def total (hb : S0.BroadcastsInDim SK (![] : Fin 0 → Fin SK.rank)) (hr : SK.ReducesTo [0, 1, 2] S0)
    (h0 : 0 < S0.numel) (x : FVec F S0 .f32) (g1 g2 t1 t2 : FVec F SK .f32) : FVec F S0 .f32 :=
  addf
    (addf (mulf (constant S0 .f32 0x3F800000#32) (Host.divf x (constant S0 .f32 0x4C800000#32)))
      (mulf (constant S0 .f32 0x3C23D70A#32) (smoothL1Mean hb hr h0 g1 t1)))
    (mulf (constant S0 .f32 0x00000000#32) (smoothL1Mean hb hr h0 g2 t2))

end Cert.Loss

end
-- ==== Proof.KPayloads.lean ====
import proofs.«404243_j39548058861680_3_alg».proof.Proof.Gen.KernelIdeal.Skeleton
import proofs.«404243_j39548058861680_3_alg».proof.Proof.LossSpec
import Idealize.ShloMosaic.PureOps.Ideal.Laws
import Idealize.ShloMosaic.Lib.ValueIdx
import Idealize.ShloMosaic.Lib.Pipeline.Value
import Idealize.ShloMosaic.Lib.ValueLayout

/-! # The kernel body's five pure values, entry by entry

Over the extended reals each value the body stores or carries is read at an index. The two cleared values are zero.
One chunk adds to the carried value the sum, over the chunk's 8 × 256 × 256 entries, of the squared difference between
the clipped logistic of the prediction and the target: the body sums the last axis, then the middle axis, then the
first, each time through a view that appends a unit axis, and a sum over one axis is the sum over that axis's
coordinates. The running sum after a point is what was held plus the loop's total. The result block holds the running
sum at its first entry: there both compared coordinates are zero, so the mask is set and the spread value is chosen.
-/

noncomputable section

namespace Cert.KernelIdeal.Pay

open Cert.KernelIdeal Cert.KernelIdeal.Gen Idealize.ShloMosaic Idealize.ShloMosaic.ValueIdx

/-- A 1 × 1 vector has one index. -/
theorem idx11 (j : S1x1.Idx) : j = ix2 (0 : Fin 1) (0 : Fin 1) :=
  (eq_ix2 j).trans (congrArg₂ (fun (a b : Fin 1) => ix2 a b) (Fin.eq_zero _) (Fin.eq_zero _))

/-- The cleared running sum is zero. -/
theorem pay1_apply (j : S1x1.Idx) : k0_pay1 (F := Ideal) j = 0 := by
  unfold k0_pay1
  simp only [shapeCast_self]
  exact Ideal.ofBits_zero_f32

/-- The inner loop starts from zero. -/
theorem pay2_apply (j : S1x1.Idx) : k0_pay2 (F := Ideal) j = 0 := by
  unfold k0_pay2
  exact Ideal.ofBits_zero_f32

/-- The running sum after a point: what the scratch held plus the loop's total. -/
theorem pay4_apply (v5 : FVec Ideal S1x1 .f32) (v6 : Vec Ideal S1x1 .f32) (j : S1x1.Idx) :
    k0_pay4 (F := Ideal) v5 v6 j = v6 j + v5 j := by
  unfold k0_pay4
  simp only [shapeCast_self]
  rfl

/-- One entry of the squared clipped-logistic error, as the body computes it from the two loaded blocks. -/
theorem term_apply (x y : Vec Ideal S8x256x256 .f32) (r : Fin 8) (h : Fin 256) (w : Fin 256) :
    mulf (subf (minimumf (broadcast S8x256x256 (Scalar.ofBits (F := Ideal) .f32 0x3F7FF972#32))
        (maximumf (broadcast S8x256x256 (Scalar.ofBits (F := Ideal) .f32 0x38D1B717#32)) (logistic x))) y)
      (subf (minimumf (broadcast S8x256x256 (Scalar.ofBits (F := Ideal) .f32 0x3F7FF972#32))
        (maximumf (broadcast S8x256x256 (Scalar.ofBits (F := Ideal) .f32 0x38D1B717#32)) (logistic x))) y) (ix3 r h w)
      = Cert.Loss.sqTerm (x (ix3 r h w)) (y (ix3 r h w)) := rfl

/-- The sum over the last axis of an 8 × 256 × 256 vector, at (r, h): the sum over w of the entries (r, h, w). -/
theorem red2_apply (src : FVec Ideal S8x256x256 .f32) (hφ : FKind.Formats .f32)
    (hacc : (0x00000000#32 : BitVec 32) = FKind.add.neutral .f32 hφ) (r : Fin 8) (h : Fin 256) :
    multiReduction (F := Ideal) .add [2] S8x256 src 0x00000000#32 reduces_S8x256x256_S8x256 hφ hacc (ix2 r h)
      = ∑ w : Fin 256, src (ix3 r h w) := by
  refine (Ideal.multiReduction_add_single src 0x00000000#32 reduces_S8x256x256_S8x256 hφ hacc (ix2 r h)).trans ?_
  refine Finset.sum_congr rfl fun w _ => congrArg src ?_
  funext c
  refine Fin.ext ?_
  match c with
  | ⟨0, _⟩ => rfl
  | ⟨1, _⟩ => rfl
  | ⟨2, _⟩ => rfl

/-- The sum over the middle axis of an 8 × 256 × 1 vector, at (r, 0): the sum over h of the entries (r, h, 0). -/
theorem red1_apply (src : FVec Ideal S8x256x1 .f32) (hφ : FKind.Formats .f32)
    (hacc : (0x00000000#32 : BitVec 32) = FKind.add.neutral .f32 hφ) (r : Fin 8) :
    multiReduction (F := Ideal) .add [1] S8x1 src 0x00000000#32 reduces_S8x256x1_S8x1 hφ hacc (ix2 r (0 : Fin 1))
      = ∑ h : Fin 256, src (ix3 r h (0 : Fin 1)) := by
  refine (Ideal.multiReduction_add_single src 0x00000000#32 reduces_S8x256x1_S8x1 hφ hacc (ix2 r (0 : Fin 1))).trans ?_
  refine Finset.sum_congr rfl fun h _ => congrArg src ?_
  funext c
  refine Fin.ext ?_
  match c with
  | ⟨0, _⟩ => rfl
  | ⟨1, _⟩ => rfl
  | ⟨2, _⟩ => rfl

/-- The sum over the first axis of an 8 × 1 × 1 vector, at (0, 0): the sum over r of the entries (r, 0, 0). -/
theorem red0_apply (src : FVec Ideal S8x1x1 .f32) (hφ : FKind.Formats .f32)
    (hacc : (0x00000000#32 : BitVec 32) = FKind.add.neutral .f32 hφ) :
    multiReduction (F := Ideal) .add [0] S1x1 src 0x00000000#32 reduces_S8x1x1_S1x1 hφ hacc (ix2 (0 : Fin 1) (0 : Fin 1))
      = ∑ r : Fin 8, src (ix3 r (0 : Fin 1) (0 : Fin 1)) := by
  refine (Ideal.multiReduction_add_single src 0x00000000#32 reduces_S8x1x1_S1x1 hφ hacc (ix2 (0 : Fin 1) (0 : Fin 1))).trans ?_
  refine Finset.sum_congr rfl fun r _ => congrArg src ?_
  funext c
  refine Fin.ext ?_
  match c with
  | ⟨0, _⟩ => rfl
  | ⟨1, _⟩ => rfl
  | ⟨2, _⟩ => rfl

section Casts
variable {α : Type}

/-- An 8 × 256 vector viewed as 8 × 256 × 1: entry (r, h, 0) is entry (r, h). -/
theorem cast_8x256_apply (v : S8x256.Idx → α) (r : Fin 8) (h : Fin 256) :
    shapeCast S8x256x1 v shapeCasts_S8x256_S8x256x1 (ix3 r h (0 : Fin 1)) = v (ix2 r h) :=
  shapeCast_apply v _ _ _ (by
    rw [Shape.rowMajor_val_two, Shape.rowMajor_val_three]
    show r.val * 256 + h.val = (r.val * 256 + h.val) * 1 + 0
    omega)

/-- An 8 × 1 vector viewed as 8 × 1 × 1: entry (r, 0, 0) is entry (r, 0). -/
theorem cast_8x1_apply (v : S8x1.Idx → α) (r : Fin 8) :
    shapeCast S8x1x1 v shapeCasts_S8x1_S8x1x1 (ix3 r (0 : Fin 1) (0 : Fin 1)) = v (ix2 r (0 : Fin 1)) :=
  shapeCast_apply v _ _ _ (by
    rw [Shape.rowMajor_val_two, Shape.rowMajor_val_three]
    show r.val * 1 + 0 = (r.val * 1 + 0) * 1 + 0
    omega)

/-- A 1 × 1 vector viewed as 1 × 1 × 1: the one entry. -/
theorem cast_1x1_apply (v : S1x1.Idx → α) :
    shapeCast S1x1x1 v shapeCasts_S1x1_S1x1x1 (ix3 (0 : Fin 1) (0 : Fin 1) (0 : Fin 1)) = v (ix2 (0 : Fin 1) (0 : Fin 1)) :=
  shapeCast_apply v _ _ _ (by
    rw [Shape.rowMajor_val_two, Shape.rowMajor_val_three]
    rfl)

end Casts

/-- One chunk: the carried value plus the sum, over the chunk's 8 × 256 × 256 entries, of the squared clipped-logistic error. -/
theorem pay3_apply (acc : FVec Ideal S1x1 .f32) (x y : Vec Ideal S8x256x256 .f32) (j : S1x1.Idx) :
    k0_pay3 (F := Ideal) acc x y j
      = acc j + ∑ r : Fin 8, ∑ h : Fin 256, ∑ w : Fin 256, Cert.Loss.sqTerm (x (ix3 r h w)) (y (ix3 r h w)) := by
  obtain rfl : j = ix2 (0 : Fin 1) (0 : Fin 1) := idx11 j
  unfold k0_pay3
  simp only [shapeCast_self]
  rw [addf_apply]
  congr 1
  refine (red0_apply _ _ _).trans (Finset.sum_congr rfl fun r _ => ?_)
  refine (cast_8x1_apply _ r).trans ?_
  refine (red1_apply _ _ _ r).trans (Finset.sum_congr rfl fun h _ => ?_)
  refine (cast_8x256_apply _ r h).trans ?_
  refine (red2_apply _ _ _ r h).trans (Finset.sum_congr rfl fun w _ => ?_)
  exact term_apply x y r h w

/-- The mask that picks the result block's first entry: at (0, 0, 0) both coordinates compared are zero, so it is set. -/
theorem mask_apply :
    andi (cmpi .eq (iota .tc S1x8x128 32 [2] iota_S1x8x128_d2_w32) (broadcast S1x8x128 0#32))
        (cmpi .eq (iota .tc S1x8x128 32 [1] iota_S1x8x128_d1_w32) (broadcast S1x8x128 0#32))
      (ix3 (0 : Fin 1) (0 : Fin 8) (0 : Fin 128)) = 1#1 := by
  show IntOp.andi
      (IntOp.cmpi .eq (iota .tc S1x8x128 32 [2] iota_S1x8x128_d2_w32 (ix3 (0 : Fin 1) (0 : Fin 8) (0 : Fin 128))) 0#32)
      (IntOp.cmpi .eq (iota .tc S1x8x128 32 [1] iota_S1x8x128_d1_w32 (ix3 (0 : Fin 1) (0 : Fin 8) (0 : Fin 128))) 0#32) = 1#1
  rw [iota_single_apply, iota_single_apply]
  rfl

/-- A 1 × 1 × 1 vector spread over 1 × 8 × 128: entry (0, 0, 0) is the one entry. -/
theorem spread_apply {α : Type} (v : S1x1x1.Idx → α) :
    broadcastTo S1x8x128 v broadcasts_S1x1x1_S1x8x128 (ix3 (0 : Fin 1) (0 : Fin 8) (0 : Fin 128))
      = v (ix3 (0 : Fin 1) (0 : Fin 1) (0 : Fin 1)) :=
  broadcastTo_apply v _ _ _ (fun a => match a with | ⟨0, _⟩ => rfl | ⟨1, _⟩ => rfl | ⟨2, _⟩ => rfl)

/-- The result block: the running sum at entry (0,0,0) (and zero elsewhere, which nothing reads). -/
theorem pay5_apply (v : Vec Ideal S1x1 .f32) :
    k0_pay5 (F := Ideal) v (ix3 (0 : Fin 1) (0 : Fin 8) (0 : Fin 128)) = v (ix2 (0 : Fin 1) (0 : Fin 1)) := by
  unfold k0_pay5
  simp only [shapeCast_self]
  rw [select_apply, mask_apply, select_one]
  exact (spread_apply _).trans (cast_1x1_apply v)

end Cert.KernelIdeal.Pay

end
-- ==== Proof.KernelIdeal.Sums.lean ====
/-
  The running sum as a number. Over the extended reals a chunk's payload adds, to the carried value, the sum over the
  chunk's `8 × 256 × 256` entries of the squared clipped-logistic error; so the inner loop's total is the sum over the
  point's block pair, the scratch entry after point `n` is the sum of the block sums of the points of `n`'s group of
  sixteen up to `n`, and entry `(q, 0, 0)` of the result array is the sum over the sixteen points of half `q`.
-/
import proofs.«404243_j39548058861680_3_alg».proof.Proof.KernelIdeal.Pieces
import proofs.«404243_j39548058861680_3_alg».proof.Proof.KernelIdeal.Blocks
import proofs.«404243_j39548058861680_3_alg».proof.Proof.KPayloads
import proofs.«404243_j39548058861680_3_alg».proof.Proof.LossSpec
import Idealize.ShloMosaic.Lib.Pipeline.Value
import Mathlib.Algebra.BigOperators.Fin

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## One point's contribution -/

/-- The sum of the squared errors over the `32 × 256 × 256` entries of a pair of blocks, chunk by chunk. -/
def blockSum (x0 x1 : Vec Ideal S32x256x256 .f32) : EReal :=
  ∑ k : Fin 4, ∑ r : Fin 8, ∑ h : Fin 256, ∑ w : Fin 256,
    Cert.Loss.sqTerm (x0 (ix3 (⟨8 * k.val + r.val, by have := k.isLt; have := r.isLt; omega⟩ : Fin 32) h w))
      (x1 (ix3 (⟨8 * k.val + r.val, by have := k.isLt; have := r.isLt; omega⟩ : Fin 32) h w))

/-- Chunk `k` of a block is its rows `8k … 8k + 7`. -/
theorem chunk_apply (x : Vec Ideal S32x256x256 .f32) (k : Fin k0_t1_loop.trips) (r : Fin 8) (h w : Fin 256) :
    chunk x k (ix3 r h w)
      = x (ix3 (⟨8 * k.val + r.val, by have : k.val < 4 := k.isLt; have := r.isLt; omega⟩ : Fin 32) h w) := by
  show x ((Rect.unit (s := S32x256x256) (k0_off1 k) S8x256x256.size (k0_off1_inb k)).idx (ix3 r h w)) = _
  have e := k0_off1_eq k
  have e0 : k0_off1 k 0 = 8 * k.val := by rw [e]; rfl
  have e1 : k0_off1 k 1 = 0 := by rw [e]; rfl
  have e2 : k0_off1 k 2 = 0 := by rw [e]; rfl
  congr 1
  funext a
  apply Fin.ext
  match a with
  | ⟨0, _⟩ => show k0_off1 k 0 + 1 * r.val = 8 * k.val + r.val; omega
  | ⟨1, _⟩ => show k0_off1 k 1 + 1 * h.val = h.val; omega
  | ⟨2, _⟩ => show k0_off1 k 2 + 1 * w.val = w.val; omega

/-- A chunk's sum, with the chunk's entries named as the block's. -/
theorem chunkTerm (x0 x1 : Vec Ideal S32x256x256 .f32) (k : Fin k0_t1_loop.trips) :
    (∑ r : Fin 8, ∑ h : Fin 256, ∑ w : Fin 256, Cert.Loss.sqTerm (chunk x0 k (ix3 r h w)) (chunk x1 k (ix3 r h w)))
      = ∑ r : Fin 8, ∑ h : Fin 256, ∑ w : Fin 256,
          Cert.Loss.sqTerm (x0 (ix3 (⟨8 * k.val + r.val, by have : k.val < 4 := k.isLt; have := r.isLt; omega⟩ : Fin 32) h w))
            (x1 (ix3 (⟨8 * k.val + r.val, by have : k.val < 4 := k.isLt; have := r.isLt; omega⟩ : Fin 32) h w)) :=
  Finset.sum_congr rfl fun r _ => Finset.sum_congr rfl fun h _ => Finset.sum_congr rfl fun w _ => by
    rw [chunk_apply, chunk_apply]

/-- The inner loop's total is the block pair's sum. -/
theorem loopTot_apply (c : Dev nD) (t : Fin cfg0.N) (x0 x1 : Vec Ideal S32x256x256 .f32) (j : S1x1.Idx) :
    loopTot (F := Ideal) c t x0 x1 j = blockSum x0 x1 := by
  rw [loopTot_eq]
  rw [Cert.KernelIdeal.Pay.pay3_apply, Cert.KernelIdeal.Pay.pay3_apply, Cert.KernelIdeal.Pay.pay3_apply,
    Cert.KernelIdeal.Pay.pay3_apply, Cert.KernelIdeal.Pay.pay2_apply]
  rw [chunkTerm, chunkTerm, chunkTerm, chunkTerm]
  unfold blockSum
  rw [Fin.sum_univ_four, zero_add]
  rfl

/-! ## The running sum, point by point -/

/-- One point's contribution to the running sum: the block pair's sum (zero past the grid). -/
def ptSum (c : Dev nD) (p : ℕ) : EReal :=
  if h : p < cfg0.N then blockSum (blk0 m c ⟨p, h⟩) (blk1 m c ⟨p, h⟩) else 0

theorem ptSum_of_lt (c : Dev nD) (t : Fin cfg0.N) : ptSum m c t.val = blockSum (blk0 m c t) (blk1 m c t) := dif_pos t.isLt

theorem sumA_apply (c : Dev nD) (t : Fin cfg0.N) (h0 : t.val % 16 = 0) (j : S1x1.Idx) :
    sumA m c t h0 j = ptSum m c t.val := by
  rw [sumA_eq, Cert.KernelIdeal.Pay.pay4_apply, Cert.KernelIdeal.Pay.pay1_apply, zero_add, loopTot_apply, ptSum_of_lt]
theorem sumB_apply (c : Dev nD) (t : Fin cfg0.N) (h0 : ¬t.val % 16 = 0) (h1 : ¬t.val % 16 = 15) (xs : Vec Ideal S1x1 .f32) (j : S1x1.Idx) :
    sumB m c t h0 h1 xs j = xs j + ptSum m c t.val := by
  rw [sumB_eq, Cert.KernelIdeal.Pay.pay4_apply, loopTot_apply, ptSum_of_lt]
theorem sumC_apply (c : Dev nD) (t : Fin cfg0.N) (h1 : t.val % 16 = 15) (xs : Vec Ideal S1x1 .f32) (j : S1x1.Idx) :
    sumC m c t h1 xs j = xs j + ptSum m c t.val := by
  rw [sumC_eq, Cert.KernelIdeal.Pay.pay4_apply, loopTot_apply, ptSum_of_lt]

/-- After point `n` the scratch entry holds the contributions of the points of `n`'s group of sixteen up to `n`. -/
theorem scratch_after (c : Dev nD) : ∀ (n : ℕ) (hn : n < cfg0.N) (j : S1x1.Idx),
    (outsAt m c n hn).2 j = ∑ s ∈ Finset.range (n % 16 + 1), ptSum m c (n - n % 16 + s)
  | 0, hn, j => by
    show sumA m c ⟨0, hn⟩ (Nat.zero_mod _) j = _
    rw [sumA_apply]
    simp
  | n + 1, hn, j => by
    have ih := scratch_after c n (Nat.lt_of_succ_lt hn) j
    by_cases h1 : (n + 1) % 16 = 15
    · rw [outsAt_C m c ⟨n + 1, hn⟩ h1]
      show sumC m c ⟨n + 1, hn⟩ h1 (outsAt m c n (Nat.lt_of_succ_lt hn)).2 j = _
      rw [sumC_apply, ih]
      have hm : (n + 1) % 16 = n % 16 + 1 := by omega
      have hb : n + 1 - (n % 16 + 1) = n - n % 16 := by omega
      rw [hm, hb, Finset.sum_range_succ _ (n % 16 + 1)]
      congr 2
      show n + 1 = n - n % 16 + (n % 16 + 1)
      omega
    · by_cases h0 : (n + 1) % 16 = 0
      · rw [outsAt_A m c ⟨n + 1, hn⟩ h0]
        show sumA m c ⟨n + 1, hn⟩ h0 j = _
        rw [sumA_apply]
        show ptSum m c (n + 1) = _
        rw [h0]
        simp
      · rw [outsAt_B m c ⟨n + 1, hn⟩ h0 h1]
        show sumB m c ⟨n + 1, hn⟩ h0 h1 (outsAt m c n (Nat.lt_of_succ_lt hn)).2 j = _
        rw [sumB_apply, ih]
        have hm : (n + 1) % 16 = n % 16 + 1 := by omega
        have hb : n + 1 - (n % 16 + 1) = n - n % 16 := by omega
        rw [hm, hb, Finset.sum_range_succ _ (n % 16 + 1)]
        congr 2
        show n + 1 = n - n % 16 + (n % 16 + 1)
        omega

/-! ## The result array -/

/-- The result window's block index at point `t` is `(t / 16, 0, 0)`. -/
theorem idx2_facts : ∀ t : Fin cfg0.N, win0_2.index t (0 : Fin 3) = t.val / 16 ∧ win0_2.index t (1 : Fin 3) = 0 ∧ win0_2.index t (2 : Fin 3) = 0 :=
  (by decide +kernel : ∀ t : Fin grid0.N, win0_2.index t (0 : Fin 3) = t.val / 16 ∧ win0_2.index t (1 : Fin 3) = 0 ∧ win0_2.index t (2 : Fin 3) = 0)

/-- The two points that write the result back write different blocks. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => by
    have a := (flush0_2 t).mp hf
    have b := (flush0_2 t').mp hf'
    have e : win0_2.index t (0 : Fin 3) = win0_2.index t' (0 : Fin 3) := congrFun h (0 : Fin 3)
    rw [(idx2_facts t).1, (idx2_facts t').1] at e
    have hN : cfg0.N = 32 := N_0
    exact hne (Fin.ext (by have := t.isLt; have := t'.isLt; omega))

/-- At a last-of-sixteen point the stored block is the block-shaped payload of the running sum. -/
theorem out_block (c : Dev nD) (t : Fin cfg0.N) (h1 : t.val % 16 = 15) :
    (outsAt m c t.val t.isLt).1 = k0_pay5 (outsAt m c t.val t.isLt).2 := by
  rw [outsAt_C m c t h1]
  show blockC m c t h1 _ = k0_pay5 (sumC m c t h1 _)
  rw [blockC_eq, sumC_eq]

/-- Entry `(q, 0, 0)` of the result array after the run: the sum over the sixteen points of half `q`. -/
theorem out_entry (c : Dev nD) (q : Fin 2) :
    ((dats m 0 c).arrAt 2 cfg0.N : Vec Ideal S2x8x128 .f32) (ix3 q (0 : Fin 8) (0 : Fin 128))
      = ∑ s ∈ Finset.range 16, ptSum m c (16 * q.val + s) := by
  have hN : cfg0.N = 32 := N_0
  have hq := q.isLt
  obtain ⟨t, ht⟩ : ∃ t : Fin cfg0.N, t.val = 16 * q.val + 15 := ⟨⟨16 * q.val + 15, by omega⟩, rfl⟩
  have h1 : t.val % 16 = 15 := by omega
  have hf : (cfg0.win 2).flush t = true := (flush0_2 t).mpr h1
  have key := (dats m 0 c).arrAt_emb_eq_flushed 2 disjoint2 t hf (ix3 (0 : Fin 1) (0 : Fin 8) (0 : Fin 128))
  have hemb : ((cfg0.win 2).blk t).view.emb (ix3 (0 : Fin 1) (0 : Fin 8) (0 : Fin 128)) = ix3 q (0 : Fin 8) (0 : Fin 128) := by
    obtain ⟨e0, e1, e2⟩ := idx2_facts t
    funext a; apply Fin.ext
    match a with
    | ⟨0, _⟩ => show win0_2.index t (0 : Fin 3) * 1 + 1 * 0 = q.val; omega
    | ⟨1, _⟩ => show win0_2.index t (1 : Fin 3) * 8 + 1 * 0 = 0; omega
    | ⟨2, _⟩ => show win0_2.index t (2 : Fin 3) * 128 + 1 * 0 = 0; omega
  rw [hemb] at key
  refine key.trans ?_
  rw [cast_eq]
  show ((dats m 0 c).after 2 t : Vec Ideal S1x8x128 .f32) (ix3 (0 : Fin 1) (0 : Fin 8) (0 : Fin 128)) = _
  rw [after0_2, out_block m c t h1, Cert.KernelIdeal.Pay.pay5_apply, scratch_after]
  have hm : t.val % 16 + 1 = 16 := by omega
  have hb : t.val - t.val % 16 = 16 * q.val := by omega
  rw [hm, hb]

end Cert.KernelIdeal.Fr

end
-- ==== Proof.KTail.lean ====
import proofs.«404243_j39548058861680_3_alg».proof.Proof.Gen.KernelIdeal.Launch
import proofs.«404243_j39548058861680_3_alg».proof.Proof.LossSpec
import proofs.«404243_j39548058861680_3_alg».proof.Proof.LibClampIx
import Idealize.ShloMosaic.Lib.StableHlo.Run
import Idealize.ShloMosaic.Lib.ValueIdx
import Idealize.ShloMosaic.Lib.Pipeline.Value
import Idealize.ShloMosaic.Lib.Pipeline.Frame

/-! # The kernel program's host operations after its region, as one function

After the region has left its result array, the kernel program runs 145 host operations. They add two entries of
the result array and scale the sum, build the start indices of two gathers from the coordinate words, gather, and
evaluate the two smooth-L1 means and the weighted total. This file names the two sub-computations that are not
already named by the loss specification — the sum of the two entries (`outSum`) and the start indices
(`gatherIx`) —, shows that the 145 operations leave the specification's `total` of them in the last buffer
(`tail_result`), and reads the sum and the gather at an index (`outSum_apply`, `gather_at`). -/

noncomputable section

namespace Cert.KernelIdeal.KTail

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The lines after the region, stretch by stretch. -/
abbrev tailOps : List (List (HloOp τ sig (Elt F))) := [hostOps1, hostOps1_1, hostOps1_2, hostOps1_3, hostOps1_4]

/-- Operations %9 … %47 (and, the same operations again, %61 … %99): the start indices of both gathers from the
    coordinate words. Word 0 of a start index is the batch position (an iota over 64 places, 64 added where it is
    negative), word 1 the channel (an iota over 2 places, 2 added where negative), words 2 and 3 the coordinate
    words `cord(b, k, 1)` and `cord(b, k, 0)`, each with 256 added where it is negative. -/
def gatherIx (cord : (⟨S64x16x2, .i32⟩ : BufTy).Contents (Elt F)) : (⟨S64x16x2x4, .i32⟩ : BufTy).Contents (Elt F) :=
  have v9 : (⟨S64, .i32⟩ : BufTy).Contents (Elt F) := iotaInDim S64 32 0
  have v10 : (⟨S64x1x1, .i32⟩ : BufTy).Contents (Elt F) := broadcastInDim S64x1x1 ![0] bcast_S64_S64x1x1_0 v9
  have v11 : (⟨S2, .i32⟩ : BufTy).Contents (Elt F) := iotaInDim S2 32 0
  have v12 : (⟨S1x1x2, .i32⟩ : BufTy).Contents (Elt F) := broadcastInDim S1x1x2 ![2] bcast_S2_S1x1x2_2 v11
  have v13 : (⟨S64x16x1, .i32⟩ : BufTy).Contents (Elt F) := extractStridedSlice S64x16x1 ![0, 0, 1] cord slices_S64x16x2_S64x16x1_0_0_1
  have v14 : (⟨S64x16, .i32⟩ : BufTy).Contents (Elt F) := shapeCast S64x16 v13 shapeCasts_S64x16x1_S64x16
  have v15 : (⟨S64x16x1, .i32⟩ : BufTy).Contents (Elt F) := broadcastInDim S64x16x1 ![0, 1] bcast_S64x16_S64x16x1_0_1 v14
  have v16 : (⟨S64x16x1, .i32⟩ : BufTy).Contents (Elt F) := extractStridedSlice S64x16x1 ![0, 0, 0] cord slices_S64x16x2_S64x16x1_0_0_0
  have v17 : (⟨S64x16, .i32⟩ : BufTy).Contents (Elt F) := shapeCast S64x16 v16 shapeCasts_S64x16x1_S64x16
  have v18 : (⟨S64x16x1, .i32⟩ : BufTy).Contents (Elt F) := broadcastInDim S64x16x1 ![0, 1] bcast_S64x16_S64x16x1_0_1 v17
  have c : (⟨S_, .i32⟩ : BufTy).Contents (Elt F) := constantI S_ 32 0#32
  have v19 : (⟨S64x1x1, .i32⟩ : BufTy).Contents (Elt F) := broadcastInDim S64x1x1 ![] bcast_S_S64x1x1 c
  have v20 : (⟨S64x1x1, .i1⟩ : BufTy).Contents (Elt F) := cmpi .slt v10 v19
  have c_0 : (⟨S_, .i32⟩ : BufTy).Contents (Elt F) := constantI S_ 32 64#32
  have v21 : (⟨S64x1x1, .i32⟩ : BufTy).Contents (Elt F) := broadcastInDim S64x1x1 ![] bcast_S_S64x1x1 c_0
  have v22 : (⟨S64x1x1, .i32⟩ : BufTy).Contents (Elt F) := addi v10 v21
  have v23 : (⟨S64x1x1, .i32⟩ : BufTy).Contents (Elt F) := select v20 v22 v10
  have c_1 : (⟨S_, .i32⟩ : BufTy).Contents (Elt F) := constantI S_ 32 0#32
  have v24 : (⟨S1x1x2, .i32⟩ : BufTy).Contents (Elt F) := broadcastInDim S1x1x2 ![] bcast_S_S1x1x2 c_1
  have v25 : (⟨S1x1x2, .i1⟩ : BufTy).Contents (Elt F) := cmpi .slt v12 v24
  have c_2 : (⟨S_, .i32⟩ : BufTy).Contents (Elt F) := constantI S_ 32 2#32
  have v26 : (⟨S1x1x2, .i32⟩ : BufTy).Contents (Elt F) := broadcastInDim S1x1x2 ![] bcast_S_S1x1x2 c_2
  have v27 : (⟨S1x1x2, .i32⟩ : BufTy).Contents (Elt F) := addi v12 v26
  have v28 : (⟨S1x1x2, .i32⟩ : BufTy).Contents (Elt F) := select v25 v27 v12
  have c_3 : (⟨S_, .i32⟩ : BufTy).Contents (Elt F) := constantI S_ 32 0#32
  have v29 : (⟨S64x16x1, .i32⟩ : BufTy).Contents (Elt F) := broadcastInDim S64x16x1 ![] bcast_S_S64x16x1 c_3
  have v30 : (⟨S64x16x1, .i1⟩ : BufTy).Contents (Elt F) := cmpi .slt v15 v29
  have c_4 : (⟨S_, .i32⟩ : BufTy).Contents (Elt F) := constantI S_ 32 256#32
  have v31 : (⟨S64x16x1, .i32⟩ : BufTy).Contents (Elt F) := broadcastInDim S64x16x1 ![] bcast_S_S64x16x1 c_4
  have v32 : (⟨S64x16x1, .i32⟩ : BufTy).Contents (Elt F) := addi v15 v31
  have v33 : (⟨S64x16x1, .i32⟩ : BufTy).Contents (Elt F) := select v30 v32 v15
  have c_5 : (⟨S_, .i32⟩ : BufTy).Contents (Elt F) := constantI S_ 32 0#32
  have v34 : (⟨S64x16x1, .i32⟩ : BufTy).Contents (Elt F) := broadcastInDim S64x16x1 ![] bcast_S_S64x16x1 c_5
  have v35 : (⟨S64x16x1, .i1⟩ : BufTy).Contents (Elt F) := cmpi .slt v18 v34
  have c_6 : (⟨S_, .i32⟩ : BufTy).Contents (Elt F) := constantI S_ 32 256#32
  have v36 : (⟨S64x16x1, .i32⟩ : BufTy).Contents (Elt F) := broadcastInDim S64x16x1 ![] bcast_S_S64x16x1 c_6
  have v37 : (⟨S64x16x1, .i32⟩ : BufTy).Contents (Elt F) := addi v18 v36
  have v38 : (⟨S64x16x1, .i32⟩ : BufTy).Contents (Elt F) := select v35 v37 v18
  have v39 : (⟨S64x16x2, .i32⟩ : BufTy).Contents (Elt F) := broadcastInDim S64x16x2 ![0, 1, 2] bcast_S64x1x1_S64x16x2_0_1_2 v23
  have v40 : (⟨S64x16x2, .i32⟩ : BufTy).Contents (Elt F) := broadcastInDim S64x16x2 ![0, 1, 2] bcast_S1x1x2_S64x16x2_0_1_2 v28
  have v41 : (⟨S64x16x2, .i32⟩ : BufTy).Contents (Elt F) := broadcastInDim S64x16x2 ![0, 1, 2] bcast_S64x16x1_S64x16x2_0_1_2 v33
  have v42 : (⟨S64x16x2, .i32⟩ : BufTy).Contents (Elt F) := broadcastInDim S64x16x2 ![0, 1, 2] bcast_S64x16x1_S64x16x2_0_1_2 v38
  have v43 : (⟨S64x16x2x1, .i32⟩ : BufTy).Contents (Elt F) := broadcastInDim S64x16x2x1 ![0, 1, 2] bcast_S64x16x2_S64x16x2x1_0_1_2 v39
  have v44 : (⟨S64x16x2x1, .i32⟩ : BufTy).Contents (Elt F) := broadcastInDim S64x16x2x1 ![0, 1, 2] bcast_S64x16x2_S64x16x2x1_0_1_2 v40
  have v45 : (⟨S64x16x2x1, .i32⟩ : BufTy).Contents (Elt F) := broadcastInDim S64x16x2x1 ![0, 1, 2] bcast_S64x16x2_S64x16x2x1_0_1_2 v41
  have v46 : (⟨S64x16x2x1, .i32⟩ : BufTy).Contents (Elt F) := broadcastInDim S64x16x2x1 ![0, 1, 2] bcast_S64x16x2_S64x16x2x1_0_1_2 v42
  concatenate S64x16x2x4 3 [⟨S64x16x2x1, v43⟩, ⟨S64x16x2x1, v44⟩, ⟨S64x16x2x1, v45⟩, ⟨S64x16x2x1, v46⟩]
    concatenates_S64x16x2x1_S64x16x2x1_S64x16x2x1_S64x16x2x1_S64x16x2x4_d3

/-- Operations %3 … %7: entry (0,0,0) plus entry (1,0,0) of the region's result array. -/
def outSum (o : (⟨S2x8x128, .f32⟩ : BufTy).Contents (Elt F)) : (⟨S_, .f32⟩ : BufTy).Contents (Elt F) :=
  have v3 : (⟨S1x1x1, .f32⟩ : BufTy).Contents (Elt F) := extractStridedSlice S1x1x1 ![0, 0, 0] o slices_S2x8x128_S1x1x1_0_0_0
  have v4 : (⟨S_, .f32⟩ : BufTy).Contents (Elt F) := shapeCast S_ v3 shapeCasts_S1x1x1_S_
  have v5 : (⟨S1x1x1, .f32⟩ : BufTy).Contents (Elt F) := extractStridedSlice S1x1x1 ![1, 0, 0] o slices_S2x8x128_S1x1x1_1_0_0
  have v6 : (⟨S_, .f32⟩ : BufTy).Contents (Elt F) := shapeCast S_ v5 shapeCasts_S1x1x1_S_
  addf v4 v6

/-! ## The 145 operations, stretch by stretch

Each lemma reads one buffer after one stretch run from an arbitrary valuation `V`: a buffer the stretch does not
write keeps its contents, and a buffer it writes holds its operation's value of the contents of the operands. -/

/-- The one-pass reading of a run of host operations, applied to a hypothesis and to the goal alike, so that the two
    meet in the same form. -/
local macro "results_at " h:ident : tactic =>
  `(tactic| simp (disch := decide) only [after_cons, after_nil, nullary_result', unary_result', binary_result', ternary_result', reshape_result', nary_result',
      nullary_result_ne', unary_result_ne', binary_result_ne', ternary_result_ne', reshape_result_ne', nary_result_ne'] at $h:ident ⊢)

set_option maxRecDepth 8192 in
set_option maxHeartbeats 4000000 in
/-- After the first stretch, the sum of the two entries divided by `2²⁴`. -/
theorem s1_hm (V : Valuation τ sig (Elt F)) :
    StableHlo.after (hostOps1 (F := F)) V (Proc.devRef .tc main_v8)
      = Host.divf (outSum (V (Proc.devRef .tc main_v2))) (constant S_ .f32 0x4C800000#32) := by
  after_results_simp <;> rfl

set_option maxRecDepth 8192 in
set_option maxHeartbeats 4000000 in
/-- The start indices the stretch builds are `gatherIx` of the coordinate words: the printed operations are its lines. -/
theorem s1_ix (V : Valuation τ sig (Elt F)) :
    StableHlo.after (hostOps1 (F := F)) V (Proc.devRef .tc main_v47) = gatherIx (V (Proc.devRef .tc main_arg6)) := by
  after_results_simp <;> rfl

set_option maxRecDepth 8192 in
set_option maxHeartbeats 4000000 in
/-- Where `|g − t| < 1`. -/
theorem s1_lt (V : Valuation τ sig (Elt F)) :
    StableHlo.after (hostOps1 (F := F)) V (Proc.devRef .tc main_v52)
      = cmpf .olt (Host.absf (subf (Host.gather gather_S64x2x256x256_S64x16x2x4_S64x16x2_n_0123_n_n_0123_3_1111 (V (Proc.devRef .tc main_arg1)) (gatherIx (V (Proc.devRef .tc main_arg6)))) (V (Proc.devRef .tc main_arg4)))) (broadcastInDim S64x16x2 ![] bcast_S_S64x16x2 (constant S_ .f32 0x3F800000#32)) := by
  have hix := s1_ix V
  results_at hix
  rw [hix]

set_option maxRecDepth 8192 in
set_option maxHeartbeats 4000000 in
/-- `½ · |g − t| · |g − t|`. -/
theorem s1_sq (V : Valuation τ sig (Elt F)) :
    StableHlo.after (hostOps1 (F := F)) V (Proc.devRef .tc main_v55)
      = mulf (mulf (broadcastInDim S64x16x2 ![] bcast_S_S64x16x2 (constant S_ .f32 0x3F000000#32)) (Host.absf (subf (Host.gather gather_S64x2x256x256_S64x16x2x4_S64x16x2_n_0123_n_n_0123_3_1111 (V (Proc.devRef .tc main_arg1)) (gatherIx (V (Proc.devRef .tc main_arg6)))) (V (Proc.devRef .tc main_arg4))))) (Host.absf (subf (Host.gather gather_S64x2x256x256_S64x16x2x4_S64x16x2_n_0123_n_n_0123_3_1111 (V (Proc.devRef .tc main_arg1)) (gatherIx (V (Proc.devRef .tc main_arg6)))) (V (Proc.devRef .tc main_arg4)))) := by
  have hix := s1_ix V
  results_at hix
  rw [hix]

set_option maxRecDepth 8192 in
set_option maxHeartbeats 4000000 in
/-- `|g − t| − ½`. -/
theorem s1_lin (V : Valuation τ sig (Elt F)) :
    StableHlo.after (hostOps1 (F := F)) V (Proc.devRef .tc main_v57)
      = subf (Host.absf (subf (Host.gather gather_S64x2x256x256_S64x16x2x4_S64x16x2_n_0123_n_n_0123_3_1111 (V (Proc.devRef .tc main_arg1)) (gatherIx (V (Proc.devRef .tc main_arg6)))) (V (Proc.devRef .tc main_arg4)))) (broadcastInDim S64x16x2 ![] bcast_S_S64x16x2 (constant S_ .f32 0x3F000000#32)) := by
  have hix := s1_ix V
  results_at hix
  rw [hix]

set_option maxRecDepth 8192 in
set_option maxHeartbeats 4000000 in
theorem s1_arg2 (V : Valuation τ sig (Elt F)) :
    StableHlo.after (hostOps1 (F := F)) V (Proc.devRef .tc main_arg2) = V (Proc.devRef .tc main_arg2) := by
  after_results_simp <;> rfl

set_option maxRecDepth 8192 in
set_option maxHeartbeats 4000000 in
theorem s1_arg5 (V : Valuation τ sig (Elt F)) :
    StableHlo.after (hostOps1 (F := F)) V (Proc.devRef .tc main_arg5) = V (Proc.devRef .tc main_arg5) := by
  after_results_simp <;> rfl

set_option maxRecDepth 8192 in
set_option maxHeartbeats 4000000 in
theorem s1_arg6 (V : Valuation τ sig (Elt F)) :
    StableHlo.after (hostOps1 (F := F)) V (Proc.devRef .tc main_arg6) = V (Proc.devRef .tc main_arg6) := by
  after_results_simp <;> rfl

set_option maxRecDepth 8192 in
set_option maxHeartbeats 4000000 in
/-- The first inlined select. -/
theorem s1_1_sel (V : Valuation τ sig (Elt F)) :
    StableHlo.after (hostOps1_1 (F := F)) V (Proc.devRef .tc main_v58)
      = select (V (Proc.devRef .tc main_v52)) (V (Proc.devRef .tc main_v55)) (V (Proc.devRef .tc main_v57)) := by
  after_results_simp <;> rfl
set_option maxRecDepth 8192 in
set_option maxHeartbeats 4000000 in
theorem s1_1_v8 (V : Valuation τ sig (Elt F)) :
    StableHlo.after (hostOps1_1 (F := F)) V (Proc.devRef .tc main_v8) = V (Proc.devRef .tc main_v8) := by
  after_results_simp <;> rfl

set_option maxRecDepth 8192 in
set_option maxHeartbeats 4000000 in
theorem s1_1_arg2 (V : Valuation τ sig (Elt F)) :
    StableHlo.after (hostOps1_1 (F := F)) V (Proc.devRef .tc main_arg2) = V (Proc.devRef .tc main_arg2) := by
  after_results_simp <;> rfl

set_option maxRecDepth 8192 in
set_option maxHeartbeats 4000000 in
theorem s1_1_arg5 (V : Valuation τ sig (Elt F)) :
    StableHlo.after (hostOps1_1 (F := F)) V (Proc.devRef .tc main_arg5) = V (Proc.devRef .tc main_arg5) := by
  after_results_simp <;> rfl

set_option maxRecDepth 8192 in
set_option maxHeartbeats 4000000 in
theorem s1_1_arg6 (V : Valuation τ sig (Elt F)) :
    StableHlo.after (hostOps1_1 (F := F)) V (Proc.devRef .tc main_arg6) = V (Proc.devRef .tc main_arg6) := by
  after_results_simp <;> rfl

set_option maxRecDepth 8192 in
set_option maxHeartbeats 4000000 in
/-- After the third stretch, the first smooth-L1 mean. -/
theorem s2_mean (V : Valuation τ sig (Elt F)) :
    StableHlo.after (hostOps1_2 (F := F)) V (Proc.devRef .tc main_v60)
      = Host.divf (Host.reduceAdd (V (Proc.devRef .tc main_v58)) (constant S_ .f32 0x00000000#32) reducesTo_S64x16x2_S_d0_1_2 h_S_)
          (constant S_ .f32 0x45000000#32) := by
  after_results_simp <;> rfl

set_option maxRecDepth 8192 in
set_option maxHeartbeats 4000000 in
/-- The start indices the stretch builds are `gatherIx` of the coordinate words: the printed operations are its lines. -/
theorem s2_ix (V : Valuation τ sig (Elt F)) :
    StableHlo.after (hostOps1_2 (F := F)) V (Proc.devRef .tc main_v99) = gatherIx (V (Proc.devRef .tc main_arg6)) := by
  after_results_simp <;> rfl

set_option maxRecDepth 8192 in
set_option maxHeartbeats 4000000 in
/-- Where `|g − t| < 1`. -/
theorem s2_lt (V : Valuation τ sig (Elt F)) :
    StableHlo.after (hostOps1_2 (F := F)) V (Proc.devRef .tc main_v104)
      = cmpf .olt (Host.absf (subf (Host.gather gather_S64x2x256x256_S64x16x2x4_S64x16x2_n_0123_n_n_0123_3_1111 (V (Proc.devRef .tc main_arg2)) (gatherIx (V (Proc.devRef .tc main_arg6)))) (V (Proc.devRef .tc main_arg5)))) (broadcastInDim S64x16x2 ![] bcast_S_S64x16x2 (constant S_ .f32 0x3F800000#32)) := by
  have hix := s2_ix V
  results_at hix
  rw [hix]

set_option maxRecDepth 8192 in
set_option maxHeartbeats 4000000 in
/-- `½ · |g − t| · |g − t|`. -/
theorem s2_sq (V : Valuation τ sig (Elt F)) :
    StableHlo.after (hostOps1_2 (F := F)) V (Proc.devRef .tc main_v107)
      = mulf (mulf (broadcastInDim S64x16x2 ![] bcast_S_S64x16x2 (constant S_ .f32 0x3F000000#32)) (Host.absf (subf (Host.gather gather_S64x2x256x256_S64x16x2x4_S64x16x2_n_0123_n_n_0123_3_1111 (V (Proc.devRef .tc main_arg2)) (gatherIx (V (Proc.devRef .tc main_arg6)))) (V (Proc.devRef .tc main_arg5))))) (Host.absf (subf (Host.gather gather_S64x2x256x256_S64x16x2x4_S64x16x2_n_0123_n_n_0123_3_1111 (V (Proc.devRef .tc main_arg2)) (gatherIx (V (Proc.devRef .tc main_arg6)))) (V (Proc.devRef .tc main_arg5)))) := by
  have hix := s2_ix V
  results_at hix
  rw [hix]

set_option maxRecDepth 8192 in
set_option maxHeartbeats 4000000 in
/-- `|g − t| − ½`. -/
theorem s2_lin (V : Valuation τ sig (Elt F)) :
    StableHlo.after (hostOps1_2 (F := F)) V (Proc.devRef .tc main_v109)
      = subf (Host.absf (subf (Host.gather gather_S64x2x256x256_S64x16x2x4_S64x16x2_n_0123_n_n_0123_3_1111 (V (Proc.devRef .tc main_arg2)) (gatherIx (V (Proc.devRef .tc main_arg6)))) (V (Proc.devRef .tc main_arg5)))) (broadcastInDim S64x16x2 ![] bcast_S_S64x16x2 (constant S_ .f32 0x3F000000#32)) := by
  have hix := s2_ix V
  results_at hix
  rw [hix]

set_option maxRecDepth 8192 in
set_option maxHeartbeats 4000000 in
theorem s2_v8 (V : Valuation τ sig (Elt F)) :
    StableHlo.after (hostOps1_2 (F := F)) V (Proc.devRef .tc main_v8) = V (Proc.devRef .tc main_v8) := by
  after_results_simp <;> rfl

set_option maxRecDepth 8192 in
set_option maxHeartbeats 4000000 in
/-- The second inlined select. -/
theorem s3_sel (V : Valuation τ sig (Elt F)) :
    StableHlo.after (hostOps1_3 (F := F)) V (Proc.devRef .tc main_v110)
      = select (V (Proc.devRef .tc main_v104)) (V (Proc.devRef .tc main_v107)) (V (Proc.devRef .tc main_v109)) := by
  after_results_simp <;> rfl
set_option maxRecDepth 8192 in
set_option maxHeartbeats 4000000 in
theorem s3_v8 (V : Valuation τ sig (Elt F)) :
    StableHlo.after (hostOps1_3 (F := F)) V (Proc.devRef .tc main_v8) = V (Proc.devRef .tc main_v8) := by
  after_results_simp <;> rfl

set_option maxRecDepth 8192 in
set_option maxHeartbeats 4000000 in
theorem s3_v60 (V : Valuation τ sig (Elt F)) :
    StableHlo.after (hostOps1_3 (F := F)) V (Proc.devRef .tc main_v60) = V (Proc.devRef .tc main_v60) := by
  after_results_simp <;> rfl

set_option maxRecDepth 8192 in
set_option maxHeartbeats 4000000 in
/-- The last stretch: the second mean and the weighted sum of the three losses. -/
theorem s4_total (V : Valuation τ sig (Elt F)) :
    StableHlo.after (hostOps1_4 (F := F)) V (Proc.devRef .tc main_v117)
      = addf (addf (mulf (constant S_ .f32 0x3F800000#32) (V (Proc.devRef .tc main_v8)))
            (mulf (constant S_ .f32 0x3C23D70A#32) (V (Proc.devRef .tc main_v60))))
          (mulf (constant S_ .f32 0x00000000#32)
            (Host.divf (Host.reduceAdd (V (Proc.devRef .tc main_v110)) (constant S_ .f32 0x00000000#32) reducesTo_S64x16x2_S_d0_1_2 h_S_)
              (constant S_ .f32 0x45000000#32))) := by
  after_results_simp <;> rfl

set_option maxRecDepth 8192 in
set_option maxHeartbeats 4000000 in
/-- Run from any valuation `W`, the 145 operations leave in the last buffer the specification's total of: the sum of
    the two entries of the region's result array, the two gathers at the start indices built from the coordinate
    words, and the two target arrays. -/
theorem tail_result (W : Valuation τ sig (Elt F)) :
    StableHlo.after (tailOps (F := F)).flatten W (Proc.devRef .tc main_v117)
      = Cert.Loss.total bcast_S_S64x16x2 reducesTo_S64x16x2_S_d0_1_2 h_S_
          (outSum (W (Proc.devRef .tc main_v2)))
          (Host.gather gather_S64x2x256x256_S64x16x2x4_S64x16x2_n_0123_n_n_0123_3_1111 (W (Proc.devRef .tc main_arg1)) (gatherIx (W (Proc.devRef .tc main_arg6))))
          (Host.gather gather_S64x2x256x256_S64x16x2x4_S64x16x2_n_0123_n_n_0123_3_1111 (W (Proc.devRef .tc main_arg2)) (gatherIx (W (Proc.devRef .tc main_arg6))))
          (W (Proc.devRef .tc main_arg4)) (W (Proc.devRef .tc main_arg5)) := by
  show StableHlo.after (hostOps1 ++ (hostOps1_1 ++ (hostOps1_2 ++ (hostOps1_3 ++ (hostOps1_4 ++ []))))) W _ = _
  rw [List.append_nil, StableHlo.after_append, StableHlo.after_append, StableHlo.after_append, StableHlo.after_append]
  rw [s4_total, s3_sel, s3_v8, s3_v60, s2_mean, s2_lt, s2_sq, s2_lin, s2_v8,
    s1_1_sel, s1_1_v8, s1_1_arg2, s1_1_arg5, s1_1_arg6, s1_hm, s1_lt, s1_sq, s1_lin, s1_arg2, s1_arg5, s1_arg6]
  rfl

/-! ## The sum of the two entries at an index -/

/-- `[1, 1, 1]` reshaped to a scalar reads the one element. -/
theorem reshape_S1x1x1 {α : Type} (x : S1x1x1.Idx → α) (h : S1x1x1.ShapeCasts S_) (j : S_.Idx) :
    shapeCast S_ x h j = x (ix3 (0 : Fin 1) (0 : Fin 1) (0 : Fin 1)) :=
  shapeCast_apply x h j (ix3 0 0 0) (by
    rw [Shape.rowMajor_val_three]
    show (0 * 1 + 0) * 1 + 0 = (Shape.rowMajorPi _ j).val
    rw [Shape.rowMajorPi_zero])

/-- The `[1, 1, 1]` slice of `[2, 8, 128]` at offsets `(0, 0, 0)` reads entry `(0, 0, 0)`. -/
theorem slice_S2x8x128_0 {α : Type} (x : S2x8x128.Idx → α) (h : S2x8x128.Slices ![0, 0, 0] S1x1x1) :
    extractStridedSlice S1x1x1 ![0, 0, 0] x h (ix3 (0 : Fin 1) (0 : Fin 1) (0 : Fin 1))
      = x (ix3 (0 : Fin 2) (0 : Fin 8) (0 : Fin 128)) :=
  extractStridedSlice_apply _ x h _ _ (fun a => match a with
    | ⟨0, _⟩ => rfl
    | ⟨1, _⟩ => rfl
    | ⟨2, _⟩ => rfl)

/-- The `[1, 1, 1]` slice of `[2, 8, 128]` at offsets `(1, 0, 0)` reads entry `(1, 0, 0)`. -/
theorem slice_S2x8x128_1 {α : Type} (x : S2x8x128.Idx → α) (h : S2x8x128.Slices ![1, 0, 0] S1x1x1) :
    extractStridedSlice S1x1x1 ![1, 0, 0] x h (ix3 (0 : Fin 1) (0 : Fin 1) (0 : Fin 1))
      = x (ix3 (1 : Fin 2) (0 : Fin 8) (0 : Fin 128)) :=
  extractStridedSlice_apply _ x h _ _ (fun a => match a with
    | ⟨0, _⟩ => rfl
    | ⟨1, _⟩ => rfl
    | ⟨2, _⟩ => rfl)

/-- At the extended reals the sum is the sum of the two entries. -/
theorem outSum_apply (o : FVec Ideal S2x8x128 .f32) (j : S_.Idx) :
    outSum (F := Ideal) o j = o (ix3 (0 : Fin 2) (0 : Fin 8) (0 : Fin 128)) + o (ix3 (1 : Fin 2) (0 : Fin 8) (0 : Fin 128)) := by
  unfold outSum
  dsimp only
  rw [addf_apply, reshape_S1x1x1, reshape_S1x1x1, slice_S2x8x128_0, slice_S2x8x128_1]

/-! ## The gather read at an index -/

section Layout
variable {α : Type}

/-- A rank-0 operand broadcast to any shape reads its one element. -/
theorem bcast_scalar (t : Shape) (dims : Fin S_.rank → Fin t.rank) (h : S_.BroadcastsInDim t dims) (x : S_.Idx → α) (j : t.Idx) :
    broadcastInDim t dims h x j = x ix0 :=
  broadcastInDim_apply dims h x j ix0 (fun a => a.elim0)

/-- The batch iota laid along the first axis of `[64, 1, 1]`. -/
theorem bcast_S64 (h : S64.BroadcastsInDim S64x1x1 ![0]) (x : S64.Idx → α) (b : Fin 64) (z z' : Fin 1) :
    broadcastInDim S64x1x1 ![0] h x (ix3 b z z') = x (ix1 b) :=
  broadcastInDim_apply _ h x _ (ix1 b) (fun a => match a with
    | ⟨0, _⟩ => rfl)

/-- The channel iota laid along the last axis of `[1, 1, 2]`. -/
theorem bcast_S2 (h : S2.BroadcastsInDim S1x1x2 ![2]) (x : S2.Idx → α) (z z' : Fin 1) (ch : Fin 2) :
    broadcastInDim S1x1x2 ![2] h x (ix3 z z' ch) = x (ix1 ch) :=
  broadcastInDim_apply _ h x _ (ix1 ch) (fun a => match a with
    | ⟨0, _⟩ => rfl)

/-- A `[64, 16]` array given a unit last axis. -/
theorem bcast_S64x16 (h : S64x16.BroadcastsInDim S64x16x1 ![0, 1]) (x : S64x16.Idx → α) (b : Fin 64) (k : Fin 16) (z : Fin 1) :
    broadcastInDim S64x16x1 ![0, 1] h x (ix3 b k z) = x (ix2 b k) :=
  broadcastInDim_apply _ h x _ (ix2 b k) (fun a => match a with
    | ⟨0, _⟩ => rfl
    | ⟨1, _⟩ => rfl)

/-- `[64, 1, 1]` stretched to `[64, 16, 2]` reads the unit axes at 0. -/
theorem bcast_S64x1x1 (h : S64x1x1.BroadcastsInDim S64x16x2 ![0, 1, 2]) (x : S64x1x1.Idx → α) (b : Fin 64) (k : Fin 16) (ch : Fin 2) :
    broadcastInDim S64x16x2 ![0, 1, 2] h x (ix3 b k ch) = x (ix3 b 0 0) :=
  broadcastInDim_apply _ h x _ (ix3 b 0 0) (fun a => match a with
    | ⟨0, _⟩ => rfl
    | ⟨1, _⟩ => rfl
    | ⟨2, _⟩ => rfl)

/-- `[1, 1, 2]` stretched to `[64, 16, 2]` reads the unit axes at 0. -/
theorem bcast_S1x1x2 (h : S1x1x2.BroadcastsInDim S64x16x2 ![0, 1, 2]) (x : S1x1x2.Idx → α) (b : Fin 64) (k : Fin 16) (ch : Fin 2) :
    broadcastInDim S64x16x2 ![0, 1, 2] h x (ix3 b k ch) = x (ix3 0 0 ch) :=
  broadcastInDim_apply _ h x _ (ix3 0 0 ch) (fun a => match a with
    | ⟨0, _⟩ => rfl
    | ⟨1, _⟩ => rfl
    | ⟨2, _⟩ => rfl)

/-- `[64, 16, 1]` stretched to `[64, 16, 2]` reads the unit axis at 0. -/
theorem bcast_S64x16x1 (h : S64x16x1.BroadcastsInDim S64x16x2 ![0, 1, 2]) (x : S64x16x1.Idx → α) (b : Fin 64) (k : Fin 16) (ch : Fin 2) :
    broadcastInDim S64x16x2 ![0, 1, 2] h x (ix3 b k ch) = x (ix3 b k 0) :=
  broadcastInDim_apply _ h x _ (ix3 b k 0) (fun a => match a with
    | ⟨0, _⟩ => rfl
    | ⟨1, _⟩ => rfl
    | ⟨2, _⟩ => rfl)

/-- `[64, 16, 2]` given a unit last axis. -/
theorem bcast_S64x16x2 (h : S64x16x2.BroadcastsInDim S64x16x2x1 ![0, 1, 2]) (x : S64x16x2.Idx → α) (b : Fin 64) (k : Fin 16) (ch : Fin 2) (z : Fin 1) :
    broadcastInDim S64x16x2x1 ![0, 1, 2] h x (ix4 b k ch z) = x (ix3 b k ch) :=
  broadcastInDim_apply _ h x _ (ix3 b k ch) (fun a => match a with
    | ⟨0, _⟩ => rfl
    | ⟨1, _⟩ => rfl
    | ⟨2, _⟩ => rfl)

/-- The column `[64, 16, 1]` reshaped to `[64, 16]`. -/
theorem reshape_S64x16x1 (x : S64x16x1.Idx → α) (h : S64x16x1.ShapeCasts S64x16) (b : Fin 64) (k : Fin 16) :
    shapeCast S64x16 x h (ix2 b k) = x (ix3 b k 0) :=
  shapeCast_apply x h _ (ix3 b k 0) (by
    rw [Shape.rowMajor_val_three, Shape.rowMajor_val_two]
    show (b.val * 16 + k.val) * 1 + 0 = b.val * 16 + k.val
    omega)

/-- Coordinate 1 of every key point, sliced out of `[64, 16, 2]` as `[64, 16, 1]`. -/
theorem slice_S64x16x2_1 (x : S64x16x2.Idx → α) (h : S64x16x2.Slices ![0, 0, 1] S64x16x1) (b : Fin 64) (k : Fin 16) (z : Fin 1) :
    extractStridedSlice S64x16x1 ![0, 0, 1] x h (ix3 b k z) = x (ix3 b k (1 : Fin 2)) :=
  extractStridedSlice_apply _ x h _ _ (fun a => match a with
    | ⟨0, _⟩ => by show b.val = 0 + b.val; omega
    | ⟨1, _⟩ => by show k.val = 0 + k.val; omega
    | ⟨2, _⟩ => by have hz := z.isLt; show 1 = 1 + z.val; omega)

/-- Coordinate 0 of every key point, sliced out of `[64, 16, 2]` as `[64, 16, 1]`. -/
theorem slice_S64x16x2_0 (x : S64x16x2.Idx → α) (h : S64x16x2.Slices ![0, 0, 0] S64x16x1) (b : Fin 64) (k : Fin 16) (z : Fin 1) :
    extractStridedSlice S64x16x1 ![0, 0, 0] x h (ix3 b k z) = x (ix3 b k (0 : Fin 2)) :=
  extractStridedSlice_apply _ x h _ _ (fun a => match a with
    | ⟨0, _⟩ => by show b.val = 0 + b.val; omega
    | ⟨1, _⟩ => by show k.val = 0 + k.val; omega
    | ⟨2, _⟩ => by have hz := z.isLt; show 0 = 0 + z.val; omega)

/-- Four unit-width pieces joined along the last axis: position `c` of that axis reads piece `c`. -/
theorem concat4 (u0 u1 u2 u3 : S64x16x2x1.Idx → α)
    (h : Shape.Concatenates [S64x16x2x1, S64x16x2x1, S64x16x2x1, S64x16x2x1] S64x16x2x4 3)
    (b : Fin 64) (k : Fin 16) (ch : Fin 2) (c : Fin 4) :
    concatenate S64x16x2x4 3 [⟨S64x16x2x1, u0⟩, ⟨S64x16x2x1, u1⟩, ⟨S64x16x2x1, u2⟩, ⟨S64x16x2x1, u3⟩] h (ix4 b k ch c)
      = (![u0, u1, u2, u3] c) (ix4 b k ch 0) :=
  concatenate_apply_piece (t := S64x16x2x4) 3 [⟨S64x16x2x1, u0⟩, ⟨S64x16x2x1, u1⟩, ⟨S64x16x2x1, u2⟩, ⟨S64x16x2x1, u3⟩] h (ix4 b k ch c) c.val c.isLt S64x16x2x1 (![u0, u1, u2, u3] c)
    (match c with
      | ⟨0, _⟩ => rfl
      | ⟨1, _⟩ => rfl
      | ⟨2, _⟩ => rfl
      | ⟨3, _⟩ => rfl) rfl c.val
    (match c with
      | ⟨0, _⟩ => rfl
      | ⟨1, _⟩ => rfl
      | ⟨2, _⟩ => rfl
      | ⟨3, _⟩ => rfl) (ix4 b k ch 0)
    (fun a ha => match a, ha with
      | ⟨0, _⟩, _ => rfl
      | ⟨1, _⟩, _ => rfl
      | ⟨2, _⟩, _ => rfl
      | ⟨3, _⟩, ha => absurd rfl ha)
    (by show c.val + 0 = c.val; rfl)

end Layout

/-- The dimension numbers of the two gathers: every operand axis collapsed and named by the start-index map, the
    index vector on the last axis of the start indices. -/
local notation "gd" => gather_S64x2x256x256_S64x16x2x4_S64x16x2_n_0123_n_n_0123_3_1111

/-- The start-indices index at which result element `(b, k, ch)` reads word `c` of its start index. -/
theorem siIdx_eq (b : Fin 64) (k : Fin 16) (ch : Fin 2) (n : Nat) (hn : n < (gd).startIndexMap.length) (c : Fin 4)
    (h : n = c.val) : (gd).siIdx (ix3 b k ch) ⟨n, hn⟩ = ix4 b k ch c := by
  subst h
  funext a; refine Fin.ext ?_
  match a with
  | ⟨0, _⟩ => rfl
  | ⟨1, _⟩ => rfl
  | ⟨2, _⟩ => rfl
  | ⟨3, _⟩ => rfl

/-- Result element `(b, k, ch)` of the gather is the operand at the four words of start index `(b, k, ch)`, each read
    signed and clamped onto its axis. -/
theorem gather_idx {α : Type} (x : S64x2x256x256.Idx → α) (idx : IVec S64x16x2x4 32) (b : Fin 64) (k : Fin 16) (ch : Fin 2) :
    Host.gather gd x idx (ix3 b k ch)
      = x (ix4 (Cert.Hand.clampIx 64 (by decide) (idx (ix4 b k ch (0 : Fin 4))))
            (Cert.Hand.clampIx 2 (by decide) (idx (ix4 b k ch (1 : Fin 4))))
            (Cert.Hand.clampIx 256 (by decide) (idx (ix4 b k ch (2 : Fin 4))))
            (Cert.Hand.clampIx 256 (by decide) (idx (ix4 b k ch (3 : Fin 4))))) := by
  unfold Host.gather
  congr 1
  funext a
  refine Fin.ext ?_
  -- on every axis: no batching coordinate, no offset coordinate, the start is the clamped word
  have hk : ∀ a : Fin 4, a ∉ (gd).sKept := by decide
  have hm : ∀ a : Fin 4, a ∈ (gd).startIndexMap := by decide
  show GatherDims.start _ _ _ _ + GatherDims.batchCoord _ _ _ + GatherDims.offCoord _ _ _ = _
  rw [GatherDims.batchCoord_eq_zero _ _ _ List.not_mem_nil, GatherDims.offCoord_eq_zero _ _ _ (hk a)]
  unfold GatherDims.start
  rw [dif_pos (hm a)]
  match a with
  | ⟨0, h0⟩ => rw [siIdx_eq b k ch (List.idxOf (⟨0, h0⟩ : Fin 4) (gd).startIndexMap) _ (0 : Fin 4) rfl]; rfl
  | ⟨1, h1⟩ => rw [siIdx_eq b k ch (List.idxOf (⟨1, h1⟩ : Fin 4) (gd).startIndexMap) _ (1 : Fin 4) rfl]; rfl
  | ⟨2, h2⟩ => rw [siIdx_eq b k ch (List.idxOf (⟨2, h2⟩ : Fin 4) (gd).startIndexMap) _ (2 : Fin 4) rfl]; rfl
  | ⟨3, h3⟩ => rw [siIdx_eq b k ch (List.idxOf (⟨3, h3⟩ : Fin 4) (gd).startIndexMap) _ (3 : Fin 4) rfl]; rfl

/-- An integer comparison at an index compares the elements. -/
theorem cmpi_at {s : Shape} {w : Nat} (p : CmpIPredicate) (x y : IVec s w) (i : s.Idx) : cmpi p x y i = IntOp.cmpi p (x i) (y i) := rfl
/-- An integer sum at an index adds the elements. -/
theorem addi_at {s : Shape} {w : Nat} (x y : IVec s w) (i : s.Idx) : addi x y i = IntOp.addi (x i) (y i) := rfl

/-! ## The four words of a start index -/

/-- The select on "is below zero" is the `if` on the signed comparison. -/
theorem select_slt (w u : BitVec 32) :
    Scalar.select (IntOp.cmpi .slt w 0#32) (IntOp.addi w u) w = if BitVec.slt w 0#32 then w + u else w := by
  show (if BitVec.ofBool (BitVec.slt w 0#32) = 1 then w + u else w) = _
  cases BitVec.slt w 0#32 <;> rfl

/-- A natural number below `2³¹`, as a 32-bit word read signed, is itself. -/
theorem toInt_ofNat_small (n : Nat) (h : n < 2147483648) : (BitVec.ofNat 32 n).toInt = (n : Int) := by
  have h32 : n < 2 ^ 32 := by omega
  rw [BitVec.toInt_eq_toNat_cond, BitVec.toNat_ofNat, Nat.mod_eq_of_lt h32]
  rw [if_pos (by omega)]

/-- The word of an iota over `U ≤ 256` places, after "add `u` where it is negative", is clamped onto its own
    position: the word is not negative, and lies on the axis. -/
theorem clamp_iota (U : Nat) (hU : 0 < U) (hU' : U ≤ 256) (n : Fin U) (u : BitVec 32) :
    Cert.Hand.clampIx U hU (Scalar.select (IntOp.cmpi .slt (BitVec.ofNat 32 n.val) 0#32)
      (IntOp.addi (BitVec.ofNat 32 n.val) u) (BitVec.ofNat 32 n.val)) = n := by
  have hn := n.isLt
  have hi : (BitVec.ofNat 32 n.val).toInt = (n.val : Int) := toInt_ofNat_small n.val (by omega)
  have h0 : 0 ≤ (BitVec.ofNat 32 n.val).toInt := by rw [hi]; omega
  have hlt : (BitVec.ofNat 32 n.val).toInt < (U : Int) := by rw [hi]; omega
  rw [select_slt, Cert.Hand.wrap_of_nonneg (BitVec.ofNat 32 n.val) u h0]
  refine Fin.ext ?_
  rw [Cert.Hand.clampIx_val_of_mem U hU (BitVec.ofNat 32 n.val) h0 hlt, hi]
  omega

/-- Four unit-width pieces joined along the last axis, read at the literal positions. -/
theorem concat4_0 {α : Type} (u0 u1 u2 u3 : S64x16x2x1.Idx → α)
    (h : Shape.Concatenates [S64x16x2x1, S64x16x2x1, S64x16x2x1, S64x16x2x1] S64x16x2x4 3) (b : Fin 64) (k : Fin 16) (ch : Fin 2) :
    concatenate S64x16x2x4 3 [⟨S64x16x2x1, u0⟩, ⟨S64x16x2x1, u1⟩, ⟨S64x16x2x1, u2⟩, ⟨S64x16x2x1, u3⟩] h (ix4 b k ch (0 : Fin 4))
      = u0 (ix4 b k ch 0) := concat4 u0 u1 u2 u3 h b k ch 0
theorem concat4_1 {α : Type} (u0 u1 u2 u3 : S64x16x2x1.Idx → α)
    (h : Shape.Concatenates [S64x16x2x1, S64x16x2x1, S64x16x2x1, S64x16x2x1] S64x16x2x4 3) (b : Fin 64) (k : Fin 16) (ch : Fin 2) :
    concatenate S64x16x2x4 3 [⟨S64x16x2x1, u0⟩, ⟨S64x16x2x1, u1⟩, ⟨S64x16x2x1, u2⟩, ⟨S64x16x2x1, u3⟩] h (ix4 b k ch (1 : Fin 4))
      = u1 (ix4 b k ch 0) := concat4 u0 u1 u2 u3 h b k ch 1
theorem concat4_2 {α : Type} (u0 u1 u2 u3 : S64x16x2x1.Idx → α)
    (h : Shape.Concatenates [S64x16x2x1, S64x16x2x1, S64x16x2x1, S64x16x2x1] S64x16x2x4 3) (b : Fin 64) (k : Fin 16) (ch : Fin 2) :
    concatenate S64x16x2x4 3 [⟨S64x16x2x1, u0⟩, ⟨S64x16x2x1, u1⟩, ⟨S64x16x2x1, u2⟩, ⟨S64x16x2x1, u3⟩] h (ix4 b k ch (2 : Fin 4))
      = u2 (ix4 b k ch 0) := concat4 u0 u1 u2 u3 h b k ch 2
theorem concat4_3 {α : Type} (u0 u1 u2 u3 : S64x16x2x1.Idx → α)
    (h : Shape.Concatenates [S64x16x2x1, S64x16x2x1, S64x16x2x1, S64x16x2x1] S64x16x2x4 3) (b : Fin 64) (k : Fin 16) (ch : Fin 2) :
    concatenate S64x16x2x4 3 [⟨S64x16x2x1, u0⟩, ⟨S64x16x2x1, u1⟩, ⟨S64x16x2x1, u2⟩, ⟨S64x16x2x1, u3⟩] h (ix4 b k ch (3 : Fin 4))
      = u3 (ix4 b k ch 0) := concat4 u0 u1 u2 u3 h b k ch 3

/-- Word 0 of start index `(b, k, ch)`: the batch position as a word, 64 added where it is negative. -/
theorem gatherIx_w0 (cord : (⟨S64x16x2, .i32⟩ : BufTy).Contents (Elt F)) (b : Fin 64) (k : Fin 16) (ch : Fin 2) :
    gatherIx cord (ix4 b k ch (0 : Fin 4))
      = Scalar.select (IntOp.cmpi .slt (BitVec.ofNat 32 b.val) 0#32) (IntOp.addi (BitVec.ofNat 32 b.val) 64#32) (BitVec.ofNat 32 b.val) := by
  unfold gatherIx
  dsimp only
  rw [concat4_0, bcast_S64x16x2, bcast_S64x1x1]
  rw [select_apply, cmpi_at, addi_at, bcast_S64, bcast_scalar, bcast_scalar]
  rfl

/-- Word 1: the channel as a word, 2 added where it is negative. -/
theorem gatherIx_w1 (cord : (⟨S64x16x2, .i32⟩ : BufTy).Contents (Elt F)) (b : Fin 64) (k : Fin 16) (ch : Fin 2) :
    gatherIx cord (ix4 b k ch (1 : Fin 4))
      = Scalar.select (IntOp.cmpi .slt (BitVec.ofNat 32 ch.val) 0#32) (IntOp.addi (BitVec.ofNat 32 ch.val) 2#32) (BitVec.ofNat 32 ch.val) := by
  unfold gatherIx
  dsimp only
  rw [concat4_1, bcast_S64x16x2, bcast_S1x1x2]
  rw [select_apply, cmpi_at, addi_at, bcast_S2, bcast_scalar, bcast_scalar]
  rfl

/-- Word 2: coordinate word 1 of key point `(b, k)`, 256 added where it is negative. -/
theorem gatherIx_w2 (cord : (⟨S64x16x2, .i32⟩ : BufTy).Contents (Elt F)) (b : Fin 64) (k : Fin 16) (ch : Fin 2) :
    gatherIx cord (ix4 b k ch (2 : Fin 4))
      = Scalar.select (IntOp.cmpi .slt (cord (ix3 b k (1 : Fin 2))) 0#32) (IntOp.addi (cord (ix3 b k (1 : Fin 2))) 256#32) (cord (ix3 b k (1 : Fin 2))) := by
  unfold gatherIx
  dsimp only
  rw [concat4_2, bcast_S64x16x2, bcast_S64x16x1]
  rw [select_apply, cmpi_at, addi_at, bcast_S64x16, bcast_scalar, bcast_scalar, reshape_S64x16x1, slice_S64x16x2_1]
  rfl

/-- Word 3: coordinate word 0 of key point `(b, k)`, 256 added where it is negative. -/
theorem gatherIx_w3 (cord : (⟨S64x16x2, .i32⟩ : BufTy).Contents (Elt F)) (b : Fin 64) (k : Fin 16) (ch : Fin 2) :
    gatherIx cord (ix4 b k ch (3 : Fin 4))
      = Scalar.select (IntOp.cmpi .slt (cord (ix3 b k (0 : Fin 2))) 0#32) (IntOp.addi (cord (ix3 b k (0 : Fin 2))) 256#32) (cord (ix3 b k (0 : Fin 2))) := by
  unfold gatherIx
  dsimp only
  rw [concat4_3, bcast_S64x16x2, bcast_S64x16x1]
  rw [select_apply, cmpi_at, addi_at, bcast_S64x16, bcast_scalar, bcast_scalar, reshape_S64x16x1, slice_S64x16x2_0]
  rfl

/-- Result element `(b, k, ch)` of either gather is the operand at batch `b`, channel `ch` and the position the two
    coordinate words of key point `(b, k)` name: the batch and channel words clamp onto themselves, and a coordinate
    word with 256 added where it is negative, clamped, is `pix` of the word. -/
theorem gather_at (a : (⟨S64x2x256x256, .f32⟩ : BufTy).Contents (Elt F)) (cord : (⟨S64x16x2, .i32⟩ : BufTy).Contents (Elt F))
    (b : Fin 64) (k : Fin 16) (ch : Fin 2) :
    Host.gather gather_S64x2x256x256_S64x16x2x4_S64x16x2_n_0123_n_n_0123_3_1111 a (gatherIx cord) (ix3 b k ch)
      = a (ix4 b ch (Cert.Loss.pix (cord (ix3 b k (1 : Fin 2)))) (Cert.Loss.pix (cord (ix3 b k (0 : Fin 2))))) := by
  rw [gather_idx, gatherIx_w0, gatherIx_w1, gatherIx_w2, gatherIx_w3,
    clamp_iota 64 (by decide) (by decide) b, clamp_iota 2 (by decide) (by decide) ch, select_slt, select_slt]
  rfl

end Cert.KernelIdeal.KTail

end
-- ==== Proof.LibSumBlocks.lean ====
import Mathlib.Algebra.BigOperators.Fin
import Mathlib.Algebra.BigOperators.Group.Finset.Defs
import Mathlib.Algebra.BigOperators.Group.List.Basic
import Mathlib.Data.Fintype.BigOperators
import Idealize.ShloMosaic.Lib.ValueIdx

/-!
# Finite sums taken block by block

Pure bookkeeping about finite sums in an additive commutative monoid `M` (only commutativity and associativity of `+`
are used, so every statement holds in the extended reals as well).

* `sum_idx3`, `sum_idx4`: a sum over the index set of a rank-3 (rank-4) shape is the iterated sum over its coordinates,
  because the index set is in bijection with the product of the coordinate ranges (`idxEquiv3`, `idxEquiv4`).
* `sum_rows_blocks`: the 1024 numbers `0 ≤ row < 1024` are written uniquely as `512·c + 32·s + 8·k + r` with
  `c < 2`, `s < 16`, `k < 4`, `r < 8` (mixed-radix digits), so a sum over the rows is the fourfold sum over the digits.
* `sum_rows_pairs`: likewise `row = 16·b + ch` with `b = row / 16 < 64` and `ch = row % 16 < 16`.
* `foldl_add_eq_sum`: a left fold over `0, 1, …, n-1` that adds `g k` at step `k` ends at the start value plus `∑ k, g k`.
-/

open scoped BigOperators
open Idealize.ShloMosaic Idealize.ShloMosaic.ValueIdx

namespace Cert.Hand

/-! ## Sums over the index set of a shape -/

/-- A rank-3 index set is the product of its three coordinate ranges: an index goes to its coordinates,
    a triple of coordinates to the index `ix3` built from them. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates:
    `∑ i, f i = ∑ a, ∑ b, ∑ c, f (a, b, c)`. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges: an index goes to its coordinates,
    a quadruple of coordinates to the index `ix4` built from them. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates:
    `∑ i, f i = ∑ a, ∑ b, ∑ c, ∑ d, f (a, b, c, d)`. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## 1024 rows in blocks -/

/-- Mixed-radix digits: `(c, s, k, r)` with `c < 2`, `s < 16`, `k < 4`, `r < 8` corresponds to the row
    `512·c + 32·s + 8·k + r < 1024`; the digits of a row are `row / 512`, `row % 512 / 32`, `row % 32 / 8`, `row % 8`. -/
def rowsBlocksEquiv : Fin 2 × Fin 16 × Fin 4 × Fin 8 ≃ Fin 1024 where
  toFun p := ⟨512 * p.1.val + 32 * p.2.1.val + 8 * p.2.2.1.val + p.2.2.2.val, by
    have := p.1.isLt; have := p.2.1.isLt; have := p.2.2.1.isLt; have := p.2.2.2.isLt; omega⟩
  invFun row := (⟨row.val / 512, by have := row.isLt; omega⟩, ⟨row.val % 512 / 32, by omega⟩,
    ⟨row.val % 32 / 8, by omega⟩, ⟨row.val % 8, by omega⟩)
  left_inv p := by
    obtain ⟨⟨c, hc⟩, ⟨s, hs⟩, ⟨k, hk⟩, ⟨r, hr⟩⟩ := p
    refine Prod.ext (Fin.ext ?_) (Prod.ext (Fin.ext ?_) (Prod.ext (Fin.ext ?_) (Fin.ext ?_))) <;>
      simp only <;> omega
  right_inv row := by
    obtain ⟨v, hv⟩ := row
    refine Fin.ext ?_
    simp only
    omega

/-- 1024 rows, taken as 2 halves of 16 blocks of 4 chunks of 8 rows: row = 512·c + 32·s + 8·k + r. -/
theorem sum_rows_blocks {M : Type*} [AddCommMonoid M] (f : Fin 1024 → M) :
    ∑ c : Fin 2, ∑ s : Fin 16, ∑ k : Fin 4, ∑ r : Fin 8,
      f ⟨512 * c.val + 32 * s.val + 8 * k.val + r.val, by omega⟩ = ∑ row : Fin 1024, f row := by
  rw [← Equiv.sum_comp rowsBlocksEquiv f, Fintype.sum_prod_type]
  refine Finset.sum_congr rfl fun c _ => ?_
  rw [Fintype.sum_prod_type]
  refine Finset.sum_congr rfl fun s _ => ?_
  rw [Fintype.sum_prod_type]
  rfl

/-- Quotient and remainder by 16: `(b, ch)` with `b < 64`, `ch < 16` corresponds to the row `16·b + ch < 1024`;
    conversely `b = row / 16` and `ch = row % 16`. -/
def rowsPairsEquiv : Fin 64 × Fin 16 ≃ Fin 1024 where
  toFun p := ⟨16 * p.1.val + p.2.val, by have := p.1.isLt; have := p.2.isLt; omega⟩
  invFun row := (⟨row.val / 16, by have := row.isLt; omega⟩, ⟨row.val % 16, by omega⟩)
  left_inv p := by
    obtain ⟨⟨b, hb⟩, ⟨ch, hch⟩⟩ := p
    refine Prod.ext (Fin.ext ?_) (Fin.ext ?_) <;> simp only <;> omega
  right_inv row := by
    obtain ⟨v, hv⟩ := row
    refine Fin.ext ?_
    simp only
    omega

/-- 1024 rows as 64 × 16 pairs in row-major order: row = 16·b + ch. -/
theorem sum_rows_pairs {M : Type*} [AddCommMonoid M] (g : Fin 64 → Fin 16 → M) :
    ∑ row : Fin 1024, g ⟨row.val / 16, by omega⟩ ⟨row.val % 16, by omega⟩ = ∑ b : Fin 64, ∑ ch : Fin 16, g b ch := by
  exact (Equiv.sum_comp rowsPairsEquiv.symm (fun p : Fin 64 × Fin 16 => g p.1 p.2)).trans
    (Fintype.sum_prod_type _)

/-! ## A left fold that accumulates a sum -/

/-- Over any list: folding `acc ↦ acc + g k` from `a` gives `a` plus the sum of the `g k` along the list. -/
theorem foldl_add_eq_add_sum_map {M : Type*} [AddCommMonoid M] {α : Type*} (g : α → M) (l : List α) (a : M) :
    l.foldl (fun acc k => acc + g k) a = a + (l.map g).sum := by
  induction l generalizing a with
  | nil => simp
  | cons x xs ih => rw [List.foldl_cons, ih, List.map_cons, List.sum_cons, add_assoc]

/-- A left fold that adds `g k` at step `k` is the start plus the sum. -/
theorem foldl_add_eq_sum {M : Type*} [AddCommMonoid M] (n : Nat) (g : Fin n → M) (a : M) :
    (List.finRange n).foldl (fun acc k => acc + g k) a = a + ∑ k : Fin n, g k := by
  rw [foldl_add_eq_add_sum_map, Fin.sum_univ_def]

end Cert.Hand
-- ==== Proof.KernelIdeal.Value.lean ====
/-
  The kernel program's result over the extended reals. The result array's two entries add up to the sum, over all
  `64 · 16 · 256 · 256` entries of the two heat-map arguments, of the squared clipped-logistic error: the 1024 rows of the
  reshaped arrays are taken as 2 halves of 16 blocks of 4 chunks of 8 rows, and row `16 b + ch` is entry `(b, ch)`.
  The later host lines then turn that sum, the two gathered arrays and the two targets into the total.
-/
import proofs.«404243_j39548058861680_3_alg».proof.Proof.KernelIdeal.Sums
import proofs.«404243_j39548058861680_3_alg».proof.Proof.KTail
import proofs.«404243_j39548058861680_3_alg».proof.Proof.LibSumBlocks

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Hand
variable (m : (ℓ : Loc nD τ sig) → Buf (Elt Ideal) ℓ)

/-- The result array after the run, and the two heat-map arguments, as arrays of their literal types. -/
abbrev outArr (c : Dev nD) : Vec Ideal S2x8x128 .f32 := (dats m 0 c).arrAt 2 cfg0.N
abbrev hmArr (c : Dev nD) : Vec Ideal S64x16x256x256 .f32 := m ((c : Thread nD τ).loc main_arg0)
abbrev nbmArr (c : Dev nD) : Vec Ideal S64x16x256x256 .f32 := m ((c : Thread nD τ).loc main_arg3)

/-- The sum of the squared errors over every entry. -/
def heatSum (c : Dev nD) : EReal := ∑ i : S64x16x256x256.Idx, Cert.Loss.sqTerm (hmArr m c i) (nbmArr m c i)

/-- One `(b, ch)` pair's sum over its `256 × 256` map, and one row's (row `16 b + ch` is pair `(b, ch)`). -/
def pairSum (c : Dev nD) (b : Fin 64) (ch : Fin 16) : EReal :=
  ∑ h : Fin 256, ∑ w : Fin 256, Cert.Loss.sqTerm (hmArr m c (ix4 b ch h w)) (nbmArr m c (ix4 b ch h w))
def rowSum (c : Dev nD) (row : Fin 1024) : EReal :=
  pairSum m c ⟨row.val / 16, by have := row.isLt; omega⟩ ⟨row.val % 16, by omega⟩

/-- One point's block pair, in the arguments' entries. -/
theorem ptSum_rows (c : Dev nD) (q : Fin 2) (s : Fin 16) :
    ptSum m c (16 * q.val + s.val)
      = ∑ k : Fin 4, ∑ r : Fin 8, ∑ h : Fin 256, ∑ w : Fin 256,
          Cert.Loss.sqTerm
            (hmArr m c (ix4 (⟨(512 * q.val + 32 * s.val + 8 * k.val + r.val) / 16, by have := q.isLt; have := s.isLt; have := k.isLt; have := r.isLt; omega⟩ : Fin 64)
              (⟨(512 * q.val + 32 * s.val + 8 * k.val + r.val) % 16, by omega⟩ : Fin 16) h w))
            (nbmArr m c (ix4 (⟨(512 * q.val + 32 * s.val + 8 * k.val + r.val) / 16, by have := q.isLt; have := s.isLt; have := k.isLt; have := r.isLt; omega⟩ : Fin 64)
              (⟨(512 * q.val + 32 * s.val + 8 * k.val + r.val) % 16, by omega⟩ : Fin 16) h w)) := by
  have hN : cfg0.N = 32 := N_0
  have hq := q.isLt; have hs := s.isLt
  obtain ⟨t, ht⟩ : ∃ t : Fin cfg0.N, t.val = 16 * q.val + s.val := ⟨⟨16 * q.val + s.val, by omega⟩, rfl⟩
  rw [← ht, ptSum_of_lt]
  unfold blockSum
  refine Finset.sum_congr rfl fun k _ => Finset.sum_congr rfl fun r _ => ?_
  refine Finset.sum_congr rfl fun h _ => Finset.sum_congr rfl fun w _ => ?_
  have hk := k.isLt; have hr := r.isLt
  rw [blk0_apply, blk1_apply]
  have key : ∀ (A A' : Fin 64) (B B' : Fin 16), A.val = A'.val → B.val = B'.val →
      Cert.Loss.sqTerm (hmArr m c (ix4 A B h w)) (nbmArr m c (ix4 A B h w))
        = Cert.Loss.sqTerm (hmArr m c (ix4 A' B' h w)) (nbmArr m c (ix4 A' B' h w)) := by
    intro A A' B B' hA hB; rw [Fin.ext hA, Fin.ext hB]
  exact key _ _ _ _ (by show (32 * t.val + (8 * k.val + r.val)) / 16 = (512 * q.val + 32 * s.val + 8 * k.val + r.val) / 16; omega)
    (by show (32 * t.val + (8 * k.val + r.val)) % 16 = (512 * q.val + 32 * s.val + 8 * k.val + r.val) % 16; omega)

/-- The result array's two entries add up to the whole heat-map sum. -/
theorem heat_total (c : Dev nD) :
    outArr m c (ix3 (0 : Fin 2) (0 : Fin 8) (0 : Fin 128)) + outArr m c (ix3 (1 : Fin 2) (0 : Fin 8) (0 : Fin 128)) = heatSum m c := by
  have e0 : outArr m c (ix3 (0 : Fin 2) (0 : Fin 8) (0 : Fin 128)) = ∑ s ∈ Finset.range 16, ptSum m c (16 * (0 : Fin 2).val + s) := out_entry m c 0
  have e1 : outArr m c (ix3 (1 : Fin 2) (0 : Fin 8) (0 : Fin 128)) = ∑ s ∈ Finset.range 16, ptSum m c (16 * (1 : Fin 2).val + s) := out_entry m c 1
  rw [e0, e1, Finset.sum_range, Finset.sum_range]
  calc (∑ s : Fin 16, ptSum m c (16 * (0 : Fin 2).val + s.val)) + ∑ s : Fin 16, ptSum m c (16 * (1 : Fin 2).val + s.val)
      = ∑ q : Fin 2, ∑ s : Fin 16, ptSum m c (16 * q.val + s.val) := (Fin.sum_univ_two (fun q : Fin 2 => ∑ s : Fin 16, ptSum m c (16 * q.val + s.val))).symm
    _ = ∑ q : Fin 2, ∑ s : Fin 16, ∑ k : Fin 4, ∑ r : Fin 8, rowSum m c ⟨512 * q.val + 32 * s.val + 8 * k.val + r.val,
          by have := q.isLt; have := s.isLt; have := k.isLt; have := r.isLt; omega⟩ :=
        Finset.sum_congr rfl fun q _ => Finset.sum_congr rfl fun s _ => (ptSum_rows m c q s).trans
          (Finset.sum_congr rfl fun k _ => Finset.sum_congr rfl fun r _ => rfl)
    _ = ∑ row : Fin 1024, rowSum m c row := sum_rows_blocks (rowSum m c)
    _ = ∑ b : Fin 64, ∑ ch : Fin 16, pairSum m c b ch := sum_rows_pairs (pairSum m c)
    _ = heatSum m c := by
        unfold heatSum
        rw [sum_idx4 (fun i : S64x16x256x256.Idx => Cert.Loss.sqTerm (hmArr m c i) (nbmArr m c i))]
        rfl

/-- The program's result, on core `c`. -/
def result (c : Dev nD) : FVec Ideal S_ .f32 :=
  Cert.Loss.total bcast_S_S64x16x2 reducesTo_S64x16x2_S_d0_1_2 h_S_
    (fun _ => heatSum m c)
    (Host.gather gather_S64x2x256x256_S64x16x2x4_S64x16x2_n_0123_n_n_0123_3_1111 (m ((c : Thread nD τ).loc main_arg1))
      (Cert.KernelIdeal.KTail.gatherIx (m ((c : Thread nD τ).loc main_arg6))))
    (Host.gather gather_S64x2x256x256_S64x16x2x4_S64x16x2_n_0123_n_n_0123_3_1111 (m ((c : Thread nD τ).loc main_arg2))
      (Cert.KernelIdeal.KTail.gatherIx (m ((c : Thread nD τ).loc main_arg6))))
    (m ((c : Thread nD τ).loc main_arg4)) (m ((c : Thread nD τ).loc main_arg5))

/-- What the later lines leave in the result buffer. -/
theorem tail_value (c : Dev nD) :
    Pipeline.afterTail₀ cfgs (dats m) 0 (V0 m) tail c main_v117 = result m c := by
  unfold Pipeline.afterTail₀
  rw [show (tail (F := Ideal)) = Cert.KernelIdeal.KTail.tailOps from rfl, Cert.KernelIdeal.KTail.tail_result]
  have hv2 : Pipeline.withArrays spec0 c (V0 m c) (fun w => (dats m 0 c).arrAt w cfg0.N) (Proc.devRef .tc main_v2)
      = outArr m c := Pipeline.withArrays_arr spec0 launch0.win.arr_inj c (V0 m c) _ 2
  have harg : ∀ (b : Ref sig .tc) (hb : b.idx.val ≤ 6) (hne : ∀ w, Pipeline.arrRef spec0 w ≠ b),
      Pipeline.withArrays spec0 c (V0 m c) (fun w => (dats m 0 c).arrAt w cfg0.N) (Proc.devRef .tc b)
        = m ((c : Thread nD τ).loc b) := fun b hb hne =>
    (Pipeline.withArrays_of_ne spec0 c (V0 m c) _ b hne).trans (V_keep m c b hb)
  rw [hv2, harg main_arg1 (by decide) (by decide), harg main_arg2 (by decide) (by decide), harg main_arg4 (by decide) (by decide),
    harg main_arg5 (by decide) (by decide), harg main_arg6 (by decide) (by decide)]
  have hx : Cert.KernelIdeal.KTail.outSum (F := Ideal) (outArr m c) = fun _ => heatSum m c :=
    funext fun j => (Cert.KernelIdeal.KTail.outSum_apply (outArr m c) j).trans (heat_total m c)
  rw [hx]
  rfl

/-- Every weakly fair execution ends with the result buffer at `result` and the seven arguments as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v117) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v117 (Pipeline.mem_restRefs_of main_v117 (by decide) (by decide))).trans (tail_value m c),
    ((h c).2 main_arg0 (Pipeline.mem_restRefs_of main_arg0 (by decide) (by decide))).trans (W_keep m (dats m) c main_arg0 (by decide) (by decide)),
    ((h c).2 main_arg1 (Pipeline.mem_restRefs_of main_arg1 (by decide) (by decide))).trans (W_keep m (dats m) c main_arg1 (by decide) (by decide)),
    ((h c).2 main_arg2 (Pipeline.mem_restRefs_of main_arg2 (by decide) (by decide))).trans (W_keep m (dats m) c main_arg2 (by decide) (by decide)),
    ((h c).2 main_arg3 (Pipeline.mem_restRefs_of main_arg3 (by decide) (by decide))).trans (W_keep m (dats m) c main_arg3 (by decide) (by decide)),
    ((h c).2 main_arg4 (Pipeline.mem_restRefs_of main_arg4 (by decide) (by decide))).trans (W_keep m (dats m) c main_arg4 (by decide) (by decide)),
    ((h c).2 main_arg5 (Pipeline.mem_restRefs_of main_arg5 (by decide) (by decide))).trans (W_keep m (dats m) c main_arg5 (by decide) (by decide)),
    ((h c).2 main_arg6 (Pipeline.mem_restRefs_of main_arg6 (by decide) (by decide))).trans (W_keep m (dats m) c main_arg6 (by decide) (by decide))⟩)
    (run_main m ρ)

end Cert.KernelIdeal.Fr

end
-- ==== Proof.RTail.lean ====
import proofs.«404243_j39548058861680_3_alg».proof.Proof.Gen.ReferenceIdeal.Read
import proofs.«404243_j39548058861680_3_alg».proof.Proof.LossSpec
import Idealize.ShloMosaic.Lib.ValueIdx
import Idealize.ShloMosaic.Lib.Pipeline.Value
import Idealize.ShloMosaic.PureOps.Ideal.Laws

/-! # The reference program's value, in the terms the kernel's value is stated in

The reference evaluates three losses and adds them with fixed weights.

* The heat-map loss: operations %0 … %8 compute, entry by entry, the square of `clip(σ(hm)) − target`; over the
  extended reals the host's `1 / (1 + exp (−x))` is the logistic function, so an entry is `Cert.Loss.sqTerm`
  (`sqAll_apply`), and %9 adds all the entries to zero (`sumAll_eq`).
* The two regression losses gather, for each key point `(b, k)` and channel `ch`, one entry of a
  `[64, 2, 256, 256]` map. The program transposes the map to `[64, 256, 256, 2]`, builds the start indices
  `(b, y, x)` — the batch number as a word, and the two coordinate words of the key point, each with 256 added when it
  is negative — by joining three `[64, 16, 1]` arrays along the last axis, and gathers with the last operand axis as
  the one offset axis. A gather clamps each start index onto its axis. The batch word already lies on its axis of 64,
  so the clamp leaves it; "add 256 when negative, then clamp onto 256 places" is `Cert.Loss.pix`; and the transposed
  map at `(b, y, x, ch)` is the map at `(b, ch, y, x)` (`gather1_at`, `gather2_at`).
* Everything after the gathers and after the heat-map sum is, operation by operation, `Cert.Loss.total` (`res_eq`).
-/

noncomputable section

namespace Cert.ReferenceIdeal.RTail

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable {F : FTy → Type} [FloatOps F]

/-! ## The heat-map loss -/

/-- The float literal `0x3F800000` is the extended real 1. -/
theorem ofBits_one_f32 : Ideal.ofBits .f32 0x3F800000#32 = 1 := by
  simp [Ideal.ofBits, Ideal.ieee, -EReal.coe_mul]; norm_num

/-- Every entry's squared difference (operations %0 … %8). -/
abbrev sqAll (hm nbm : (⟨S64x16x256x256, .f32⟩ : BufTy).Contents (Elt F)) : (⟨S64x16x256x256, .f32⟩ : BufTy).Contents (Elt F) := val_main_v8 (F := F) hm nbm

/-- Over the extended reals the quotient `1 / (1 + exp (−x))` the program spells out is the logistic function. -/
theorem logistic_spelt (x : Ideal .f32) :
    FloatOps.hostDivf (FloatOps.ofBits .f32 0x3F800000#32 : Ideal .f32)
        (FloatOps.addf (FloatOps.ofBits .f32 0x3F800000#32) (FloatOps.hostUnary .exp (FloatOps.hostNegf x)))
      = FloatOps.logistic x := by
  show Ideal.div (Ideal.ofBits .f32 0x3F800000#32) (Ideal.ofBits .f32 0x3F800000#32 + Ideal.exp (-x)) = Ideal.logistic x
  rw [ofBits_one_f32]
  rfl

theorem sqAll_apply (hm nbm : (⟨S64x16x256x256, .f32⟩ : BufTy).Contents (Elt Ideal)) (i : S64x16x256x256.Idx) :
    sqAll (F := Ideal) hm nbm i = Cert.Loss.sqTerm (hm i) (nbm i) := by
  show val_main_v8 (F := Ideal) hm nbm i = _
  rw [val_main_v8_apply, val_main_v7_apply, val_main_v6_apply, val_main_call0_v4_apply, val_main_call0_v3_apply,
    val_main_cst_2_apply, val_main_call0_v2_apply, val_main_call0_v1_apply, val_main_call0_v0_apply,
    val_main_cst_1_apply, val_main_v5_apply, val_main_v4_apply, val_main_cst_0_apply, val_main_v3_apply,
    val_main_v2_apply, val_main_cst_apply, val_main_v1_apply, val_main_v0_apply, logistic_spelt]
  rfl

/-- The heat-map sum: zero plus the sum over every entry. -/
theorem sumAll_eq (hm nbm : (⟨S64x16x256x256, .f32⟩ : BufTy).Contents (Elt Ideal)) (j : S_.Idx) :
    val_main_v9 (F := Ideal) hm nbm j = 0 + ∑ i : S64x16x256x256.Idx, Cert.Loss.sqTerm (hm i) (nbm i) := by
  rw [val_main_v9_apply, val_main_cst_3_apply, Ideal.ofBits_def, Ideal.ofBits_zero_f32]
  congr 1
  exact Finset.sum_congr rfl (fun i _ => sqAll_apply hm nbm i)

/-! ## The gather read at an index -/

section Gather
variable {α : Type}

local notation "G4" => gather_S64x256x256x2_S64x16x3_S64x16x2_2_012_n_n_012_2_1112

/-- The gather of the two regressions read at `(b, k, ch)`: the first three operand axes are collapsed and are the
    three components of start index `(b, k)`, each read signed and clamped onto its axis; the fourth operand axis is
    the offset axis and is read at the result's own last coordinate. -/
theorem gather_at (x : S64x256x256x2.Idx → α) (idx : IVec S64x16x3 32) (b : Fin 64) (k : Fin 16) (ch : Fin 2) :
    Host.gather G4 x idx (ix3 b k ch)
      = x (ix4 (Cert.Hand.clampIx 64 (by decide) (idx (ix3 b k (0 : Fin 3))))
            (Cert.Hand.clampIx 256 (by decide) (idx (ix3 b k (1 : Fin 3))))
            (Cert.Hand.clampIx 256 (by decide) (idx (ix3 b k (2 : Fin 3)))) ch) := by
  unfold Host.gather
  congr 1
  funext a
  refine Fin.ext ?_
  match a with
  | ⟨0, h0⟩ =>
    -- the first axis is collapsed and is the start index's first component
    show GatherDims.start _ _ _ _ + GatherDims.batchCoord _ _ _ + GatherDims.offCoord _ _ _ = _
    have hm : (⟨0, h0⟩ : Fin 4) ∈ GatherDims.startIndexMap G4 := (by decide : (0 : Fin 4) ∈ ([0, 1, 2] : List (Fin 4)))
    rw [GatherDims.batchCoord_eq_zero _ _ _ List.not_mem_nil,
      GatherDims.offCoord_eq_zero _ _ _ (show (⟨0, h0⟩ : Fin 4) ∉ GatherDims.sKept G4 from
        (by decide : (0 : Fin 4) ∉ ([3] : List (Fin 4))))]
    unfold GatherDims.start
    rw [dif_pos hm]
    have hsi : GatherDims.siIdx G4 (ix3 b k ch)
        ⟨List.idxOf (⟨0, h0⟩ : Fin 4) (GatherDims.startIndexMap G4), List.idxOf_lt_length_iff.2 hm⟩ = ix3 b k (0 : Fin 3) := by
      funext c; refine Fin.ext ?_
      match c with
      | ⟨0, _⟩ => rfl
      | ⟨1, _⟩ => rfl
      | ⟨2, _⟩ => rfl
    rw [hsi]
    rfl
  | ⟨1, h1⟩ =>
    -- the second axis is collapsed and is the start index's second component
    show GatherDims.start _ _ _ _ + GatherDims.batchCoord _ _ _ + GatherDims.offCoord _ _ _ = _
    have hm : (⟨1, h1⟩ : Fin 4) ∈ GatherDims.startIndexMap G4 := (by decide : (1 : Fin 4) ∈ ([0, 1, 2] : List (Fin 4)))
    rw [GatherDims.batchCoord_eq_zero _ _ _ List.not_mem_nil,
      GatherDims.offCoord_eq_zero _ _ _ (show (⟨1, h1⟩ : Fin 4) ∉ GatherDims.sKept G4 from
        (by decide : (1 : Fin 4) ∉ ([3] : List (Fin 4))))]
    unfold GatherDims.start
    rw [dif_pos hm]
    have hsi : GatherDims.siIdx G4 (ix3 b k ch)
        ⟨List.idxOf (⟨1, h1⟩ : Fin 4) (GatherDims.startIndexMap G4), List.idxOf_lt_length_iff.2 hm⟩ = ix3 b k (1 : Fin 3) := by
      funext c; refine Fin.ext ?_
      match c with
      | ⟨0, _⟩ => rfl
      | ⟨1, _⟩ => rfl
      | ⟨2, _⟩ => rfl
    rw [hsi]
    rfl
  | ⟨2, h2⟩ =>
    -- the third axis is collapsed and is the start index's third component
    show GatherDims.start _ _ _ _ + GatherDims.batchCoord _ _ _ + GatherDims.offCoord _ _ _ = _
    have hm : (⟨2, h2⟩ : Fin 4) ∈ GatherDims.startIndexMap G4 := (by decide : (2 : Fin 4) ∈ ([0, 1, 2] : List (Fin 4)))
    rw [GatherDims.batchCoord_eq_zero _ _ _ List.not_mem_nil,
      GatherDims.offCoord_eq_zero _ _ _ (show (⟨2, h2⟩ : Fin 4) ∉ GatherDims.sKept G4 from
        (by decide : (2 : Fin 4) ∉ ([3] : List (Fin 4))))]
    unfold GatherDims.start
    rw [dif_pos hm]
    have hsi : GatherDims.siIdx G4 (ix3 b k ch)
        ⟨List.idxOf (⟨2, h2⟩ : Fin 4) (GatherDims.startIndexMap G4), List.idxOf_lt_length_iff.2 hm⟩ = ix3 b k (2 : Fin 3) := by
      funext c; refine Fin.ext ?_
      match c with
      | ⟨0, _⟩ => rfl
      | ⟨1, _⟩ => rfl
      | ⟨2, _⟩ => rfl
    rw [hsi]
    rfl
  | ⟨3, h3⟩ =>
    -- the fourth axis is the offset axis: no start, the result's own last coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨3, h3⟩ : Fin 4) ∉ GatherDims.startIndexMap G4 from
      (by decide : (3 : Fin 4) ∉ ([0, 1, 2] : List (Fin 4))))]
    unfold GatherDims.offCoord
    rw [dif_pos (show (⟨3, h3⟩ : Fin 4) ∈ GatherDims.sKept G4 from
      (by decide : (3 : Fin 4) ∈ ([3] : List (Fin 4))))]
    rw [Nat.add_zero, Nat.zero_add]
    rfl

/-- Three `[64, 16, 1]` arrays joined along the last axis, read at `(b, k, 0)`: the first. -/
theorem join3_zero (u v w : S64x16x1.Idx → α)
    (h : Shape.Concatenates [S64x16x1, S64x16x1, S64x16x1] S64x16x3 2) (b : Fin 64) (k : Fin 16) :
    concatenate S64x16x3 2 [⟨S64x16x1, u⟩, ⟨S64x16x1, v⟩, ⟨S64x16x1, w⟩] h (ix3 b k (0 : Fin 3))
      = u (ix3 b k (0 : Fin 1)) :=
  concatenate_apply_piece (t := S64x16x3) 2 [⟨S64x16x1, u⟩, ⟨S64x16x1, v⟩, ⟨S64x16x1, w⟩] h (ix3 b k (0 : Fin 3))
    0 (show 0 < 3 by decide) S64x16x1 u rfl rfl 0 rfl (ix3 b k (0 : Fin 1))
    (fun c hc => match c, hc with
      | ⟨0, _⟩, _ => rfl
      | ⟨1, _⟩, _ => rfl
      | ⟨2, _⟩, hc => absurd rfl hc)
    (by show 0 + 0 = 0; rfl)

/-- … read at `(b, k, 1)`: the second. -/
theorem join3_one (u v w : S64x16x1.Idx → α)
    (h : Shape.Concatenates [S64x16x1, S64x16x1, S64x16x1] S64x16x3 2) (b : Fin 64) (k : Fin 16) :
    concatenate S64x16x3 2 [⟨S64x16x1, u⟩, ⟨S64x16x1, v⟩, ⟨S64x16x1, w⟩] h (ix3 b k (1 : Fin 3))
      = v (ix3 b k (0 : Fin 1)) :=
  concatenate_apply_piece (t := S64x16x3) 2 [⟨S64x16x1, u⟩, ⟨S64x16x1, v⟩, ⟨S64x16x1, w⟩] h (ix3 b k (1 : Fin 3))
    1 (show 1 < 3 by decide) S64x16x1 v rfl rfl 1 rfl (ix3 b k (0 : Fin 1))
    (fun c hc => match c, hc with
      | ⟨0, _⟩, _ => rfl
      | ⟨1, _⟩, _ => rfl
      | ⟨2, _⟩, hc => absurd rfl hc)
    (by show 1 + 0 = 1; rfl)

/-- … read at `(b, k, 2)`: the third. -/
theorem join3_two (u v w : S64x16x1.Idx → α)
    (h : Shape.Concatenates [S64x16x1, S64x16x1, S64x16x1] S64x16x3 2) (b : Fin 64) (k : Fin 16) :
    concatenate S64x16x3 2 [⟨S64x16x1, u⟩, ⟨S64x16x1, v⟩, ⟨S64x16x1, w⟩] h (ix3 b k (2 : Fin 3))
      = w (ix3 b k (0 : Fin 1)) :=
  concatenate_apply_piece (t := S64x16x3) 2 [⟨S64x16x1, u⟩, ⟨S64x16x1, v⟩, ⟨S64x16x1, w⟩] h (ix3 b k (2 : Fin 3))
    2 (show 2 < 3 by decide) S64x16x1 w rfl rfl 2 rfl (ix3 b k (0 : Fin 1))
    (fun c hc => match c, hc with
      | ⟨0, _⟩, _ => rfl
      | ⟨1, _⟩, _ => rfl
      | ⟨2, _⟩, hc => absurd rfl hc)
    (by show 2 + 0 = 2; rfl)

/-- A select on "the word is negative" is the `if` on the signed comparison. -/
theorem select_slt (w u : BitVec 32) (A B : α) :
    Scalar.select (IntOp.cmpi .slt w u) A B = if BitVec.slt w u then A else B := by
  show (if BitVec.ofBool (BitVec.slt w u) = 1#1 then A else B) = _
  cases BitVec.slt w u <;> rfl

end Gather

/-- The word of a batch number lies on the batch axis: read signed it is the number itself. -/
theorem toInt_ofNat_batch (b : Fin 64) : (BitVec.ofNat 32 b.val).toInt = (b.val : Int) := by
  have hb := b.isLt
  rw [BitVec.toInt_eq_toNat_cond, BitVec.toNat_ofNat]
  have h1 : b.val % 2 ^ 32 = b.val := Nat.mod_eq_of_lt (by omega)
  rw [h1]
  split <;> omega

/-- Clamping the word of a batch number onto the batch axis gives the batch number back. -/
theorem clampIx_batch (b : Fin 64) (h : 0 < 64) : Cert.Hand.clampIx 64 h (BitVec.ofNat 32 b.val) = b := by
  refine Fin.ext ?_
  have hb := b.isLt
  rw [Cert.Hand.clampIx_val_of_mem 64 h _ (by rw [toInt_ofNat_batch]; omega) (by rw [toInt_ofNat_batch]; omega),
    toInt_ofNat_batch]
  rfl

/-- The flat position `b · 16 + k` of a `[64, 16]` array, read back as a `[64, 16, 1]` index, is `(b, k, 0)`. -/
theorem idx_v15_at (b : Fin 64) (k : Fin 16) : idx_main_v15 (ix2 b k) = ix3 b k (0 : Fin 1) := by
  funext a; refine Fin.ext ?_
  have hb := b.isLt
  have hk := k.isLt
  match a with
  | ⟨0, _⟩ => show (b.val * 16 + k.val) / 16 = b.val; omega
  | ⟨1, _⟩ => show (b.val * 16 + k.val) / 1 % 16 = k.val; omega
  | ⟨2, _⟩ => rfl

/-- The same for the other reshape of this form. -/
theorem idx_v17_at (b : Fin 64) (k : Fin 16) : idx_main_v17 (ix2 b k) = ix3 b k (0 : Fin 1) := idx_v15_at b k

/-- A `[64, 16]` array laid down as `[64, 16, 1]` reads `(b, k)` at `(b, k, z)`. -/
theorem idx_v35_at (b : Fin 64) (k : Fin 16) (z : Fin 1) : idx_main_v35 (ix3 b k z) = ix2 b k := by
  funext a; refine Fin.ext ?_
  match a with
  | ⟨0, _⟩ => rfl
  | ⟨1, _⟩ => rfl
theorem idx_v36_at (b : Fin 64) (k : Fin 16) (z : Fin 1) : idx_main_v36 (ix3 b k z) = ix2 b k := idx_v35_at b k z

/-! ### The start indices of the first gather (operations %12 … %37) -/

/-- The batch component at `(b, k)`: the word of `b` — the word is not negative, so the select keeps it. -/
theorem v34_at (b : Fin 64) (k : Fin 16) (z : Fin 1) :
    val_main_v34 (F := F) (ix3 b k z) = BitVec.ofNat 32 b.val := by
  have hb := b.isLt
  rw [val_main_v34_apply, val_main_v33_apply, val_main_v22_apply, val_main_v19_apply, val_main_v13_apply,
    val_main_v12_apply, val_main_v18_apply, val_main_c_apply, select_slt]
  show (if BitVec.slt (BitVec.ofNat 32 b.val) 0#32 then _ else BitVec.ofNat 32 b.val) = BitVec.ofNat 32 b.val
  rw [Cert.Hand.slt_zero_of_nonneg _ (by rw [toInt_ofNat_batch]; omega)]
  rfl

/-- The second coordinate word of key point `(b, k)`, sliced out and reshaped. -/
theorem v15_at (cord : (⟨S64x16x2, .i32⟩ : BufTy).Contents (Elt F)) (b : Fin 64) (k : Fin 16) :
    val_main_v15 (F := F) cord (ix2 b k) = cord (ix3 b k (1 : Fin 2)) := by
  rw [val_main_v15_apply, idx_v15_at, val_main_v14_apply]
  congr 1
  funext a; refine Fin.ext ?_
  match a with
  | ⟨0, _⟩ => rfl
  | ⟨1, _⟩ => rfl
  | ⟨2, _⟩ => rfl

/-- The first coordinate word of key point `(b, k)`, sliced out and reshaped. -/
theorem v17_at (cord : (⟨S64x16x2, .i32⟩ : BufTy).Contents (Elt F)) (b : Fin 64) (k : Fin 16) :
    val_main_v17 (F := F) cord (ix2 b k) = cord (ix3 b k (0 : Fin 2)) := by
  rw [val_main_v17_apply, idx_v17_at, val_main_v16_apply]
  congr 1
  funext a; refine Fin.ext ?_
  match a with
  | ⟨0, _⟩ => rfl
  | ⟨1, _⟩ => rfl
  | ⟨2, _⟩ => rfl

/-- The row component at `(b, k)`: the second coordinate word, 256 added when it is negative. -/
theorem v35_at (cord : (⟨S64x16x2, .i32⟩ : BufTy).Contents (Elt F)) (b : Fin 64) (k : Fin 16) (z : Fin 1) :
    val_main_v35 (F := F) cord (ix3 b k z)
      = (if BitVec.slt (cord (ix3 b k (1 : Fin 2))) 0#32 then cord (ix3 b k (1 : Fin 2)) + 256#32
          else cord (ix3 b k (1 : Fin 2))) := by
  rw [val_main_v35_apply, idx_v35_at, val_main_v27_apply, val_main_v24_apply, val_main_v26_apply, val_main_v23_apply,
    val_main_c_6_apply, val_main_v25_apply, val_main_c_7_apply, v15_at, select_slt]
  rfl

/-- The column component at `(b, k)`: the first coordinate word, 256 added when it is negative. -/
theorem v36_at (cord : (⟨S64x16x2, .i32⟩ : BufTy).Contents (Elt F)) (b : Fin 64) (k : Fin 16) (z : Fin 1) :
    val_main_v36 (F := F) cord (ix3 b k z)
      = (if BitVec.slt (cord (ix3 b k (0 : Fin 2))) 0#32 then cord (ix3 b k (0 : Fin 2)) + 256#32
          else cord (ix3 b k (0 : Fin 2))) := by
  rw [val_main_v36_apply, idx_v36_at, val_main_v32_apply, val_main_v29_apply, val_main_v31_apply, val_main_v28_apply,
    val_main_c_8_apply, val_main_v30_apply, val_main_c_9_apply, v17_at, select_slt]
  rfl

/-- The first gather reads, at (b, k, ch), the map's entry (b, ch, y, x) at the key point's clamped coordinates. -/
theorem gather1_at (a : (⟨S64x2x256x256, .f32⟩ : BufTy).Contents (Elt F)) (cord : (⟨S64x16x2, .i32⟩ : BufTy).Contents (Elt F))
    (b : Fin 64) (k : Fin 16) (ch : Fin 2) :
    val_main_v38 (F := F) a cord (ix3 b k ch)
      = a (ix4 b ch (Cert.Loss.pix (cord (ix3 b k (1 : Fin 2)))) (Cert.Loss.pix (cord (ix3 b k (0 : Fin 2))))) := by
  unfold val_main_v38
  rw [gather_at]
  unfold val_main_v37
  rw [join3_zero, join3_one, join3_two, v34_at, v35_at, v36_at, clampIx_batch, val_main_v11_apply]
  congr 1
  funext e; refine Fin.ext ?_
  match e with
  | ⟨0, _⟩ => rfl
  | ⟨1, _⟩ => rfl
  | ⟨2, _⟩ => rfl
  | ⟨3, _⟩ => rfl

/-! ### The second gather (operations %51 … %78) -/

/-- Operations %51 … %78 are operations %11 … %38 over again, on the second map: the same function of the map and
    of the key points' coordinate words. -/
theorem v78_eq_v38 (a : (⟨S64x2x256x256, .f32⟩ : BufTy).Contents (Elt F)) (cord : (⟨S64x16x2, .i32⟩ : BufTy).Contents (Elt F)) :
    val_main_v78 (F := F) a cord = val_main_v38 (F := F) a cord := rfl

/-- and the second likewise. -/
theorem gather2_at (a : (⟨S64x2x256x256, .f32⟩ : BufTy).Contents (Elt F)) (cord : (⟨S64x16x2, .i32⟩ : BufTy).Contents (Elt F))
    (b : Fin 64) (k : Fin 16) (ch : Fin 2) :
    val_main_v78 (F := F) a cord (ix3 b k ch)
      = a (ix4 b ch (Cert.Loss.pix (cord (ix3 b k (1 : Fin 2)))) (Cert.Loss.pix (cord (ix3 b k (0 : Fin 2))))) := by
  rw [v78_eq_v38]
  exact gather1_at a cord b k ch

/-- Operations %10, %39 … %50, %79 … %95 are the smooth-L1 means of the two gathers and the weighted sum. -/
theorem tail_eq (x0 : (⟨S64x16x256x256, .f32⟩ : BufTy).Contents (Elt F)) (x1 x2 : (⟨S64x2x256x256, .f32⟩ : BufTy).Contents (Elt F))
    (x3 : (⟨S64x16x256x256, .f32⟩ : BufTy).Contents (Elt F)) (x4 x5 : (⟨S64x16x2, .f32⟩ : BufTy).Contents (Elt F))
    (x6 : (⟨S64x16x2, .i32⟩ : BufTy).Contents (Elt F)) :
    val_main_v95 (F := F) x0 x1 x2 x3 x4 x5 x6
      = Cert.Loss.total bcast_S_S64x16x2 reducesTo_S64x16x2_S_d0_1_2 h_S_
          (val_main_v9 (F := F) x0 x3) (val_main_v38 (F := F) x1 x6) (val_main_v78 (F := F) x2 x6) x4 x5 := by
  unfold val_main_v95 val_main_v94 val_main_v93 val_main_v92 val_main_v91 val_main_v90 val_main_v89 val_main_v88
    val_main_v87 val_main_v86 val_main_v85 val_main_v84 val_main_v83 val_main_v82 val_main_v81 val_main_v80 val_main_v79
    val_main_v50 val_main_v49 val_main_v48 val_main_v47 val_main_v46 val_main_v45 val_main_v44 val_main_v43 val_main_v42
    val_main_v41 val_main_v40 val_main_v39 val_main_v10
    val_main_cst_28 val_main_cst_27 val_main_cst_26 val_main_cst_25 val_main_cst_24 val_main_cst_23 val_main_cst_22
    val_main_cst_21 val_main_cst_14 val_main_cst_13 val_main_cst_12 val_main_cst_11 val_main_cst_10 val_main_cst_4
    Cert.Loss.total Cert.Loss.smoothL1Mean
  rfl

/-! ## The whole result -/

/-- The reference's result is the shared total of its own three ingredients. -/
theorem res_eq (m : (ℓ : Loc nD τ sig) → Buf (Elt F) ℓ) (c : Dev nD) :
    Cert.ReferenceIdeal.Value.res_main_v95 (F := F) m c
      = Cert.Loss.total bcast_S_S64x16x2 reducesTo_S64x16x2_S_d0_1_2 h_S_
          (val_main_v9 (F := F) (m ((c.tc : Thread nD τ).loc main_arg0)) (m ((c.tc : Thread nD τ).loc main_arg3)))
          (val_main_v38 (F := F) (m ((c.tc : Thread nD τ).loc main_arg1)) (m ((c.tc : Thread nD τ).loc main_arg6)))
          (val_main_v78 (F := F) (m ((c.tc : Thread nD τ).loc main_arg2)) (m ((c.tc : Thread nD τ).loc main_arg6)))
          (m ((c.tc : Thread nD τ).loc main_arg4)) (m ((c.tc : Thread nD τ).loc main_arg5)) := by
  rw [val_main_v95_eq]
  exact tail_eq _ _ _ _ _ _ _

end Cert.ReferenceIdeal.RTail

end
-- ==== Proof.Bridge.lean ====
/-
  The two programs' results are one number. Over the extended reals the reference's heat-map sum is zero plus the sum of
  the squared clipped-logistic errors over all entries, which is what the kernel's two partial sums add up to; both
  programs' gathers read, at `(b, k, ch)`, the map's entry `(b, ch, y, x)` at the key point's coordinates taken onto the
  axis in the same way; and from there on the two programs apply the same operations.
-/
import proofs.«404243_j39548058861680_3_alg».proof.Proof.KernelIdeal.Value
import proofs.«404243_j39548058861680_3_alg».proof.Proof.RTail

noncomputable section

namespace Cert.Bridge

open Idealize.ShloMosaic Idealize.ShloMosaic.TcCoe Idealize.ShloMosaic.ValueIdx Idealize.SL.Sem

/-- The reference's three ingredients, fed the kernel's arguments, are the kernel's. -/
theorem ref_total_eq (m : (ℓ : Loc Cert.KernelIdeal.nD Cert.KernelIdeal.τ Cert.KernelIdeal.sig) → Buf (Elt Ideal) ℓ) (c : Dev Cert.KernelIdeal.nD) :
    Cert.Loss.total Cert.ReferenceIdeal.Gen.bcast_S_S64x16x2 Cert.ReferenceIdeal.Gen.reducesTo_S64x16x2_S_d0_1_2 Cert.ReferenceIdeal.Gen.h_S_
        (Cert.ReferenceIdeal.Read.val_main_v9 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg3)))
        (Cert.ReferenceIdeal.Read.val_main_v38 (F := Ideal) (m ((c.tc : Thread Cert.KernelIdeal.nD Cert.KernelIdeal.τ).loc Cert.KernelIdeal.main_arg1))
          (m ((c.tc : Thread Cert.KernelIdeal.nD Cert.KernelIdeal.τ).loc Cert.KernelIdeal.main_arg6)))
        (Cert.ReferenceIdeal.Read.val_main_v78 (F := Ideal) (m ((c.tc : Thread Cert.KernelIdeal.nD Cert.KernelIdeal.τ).loc Cert.KernelIdeal.main_arg2))
          (m ((c.tc : Thread Cert.KernelIdeal.nD Cert.KernelIdeal.τ).loc Cert.KernelIdeal.main_arg6)))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Fr.result m c := by
  have hX : Cert.ReferenceIdeal.Read.val_main_v9 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
      = fun _ => Cert.KernelIdeal.Fr.heatSum m c :=
    funext fun j => by
      rw [Cert.ReferenceIdeal.RTail.sumAll_eq, zero_add]
      rfl
  have hg1 : Cert.ReferenceIdeal.Read.val_main_v38 (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg6))
      = Host.gather Cert.KernelIdeal.gather_S64x2x256x256_S64x16x2x4_S64x16x2_n_0123_n_n_0123_3_1111
          (m ((c.tc : Thread Cert.KernelIdeal.nD Cert.KernelIdeal.τ).loc Cert.KernelIdeal.main_arg1))
          (Cert.KernelIdeal.KTail.gatherIx (m ((c.tc : Thread Cert.KernelIdeal.nD Cert.KernelIdeal.τ).loc Cert.KernelIdeal.main_arg6))) :=
    funext fun j => by
      obtain ⟨b, k, ch, rfl⟩ : ∃ (b : Fin 64) (k : Fin 16) (ch : Fin 2), j = ix3 b k ch := ⟨j 0, j 1, j 2, eq_ix3 j⟩
      rw [Cert.ReferenceIdeal.RTail.gather1_at, Cert.KernelIdeal.KTail.gather_at]
  have hg2 : Cert.ReferenceIdeal.Read.val_main_v78 (F := Ideal) (m ((c.tc : Thread Cert.KernelIdeal.nD Cert.KernelIdeal.τ).loc Cert.KernelIdeal.main_arg2))
        (m ((c.tc : Thread Cert.KernelIdeal.nD Cert.KernelIdeal.τ).loc Cert.KernelIdeal.main_arg6))
      = Host.gather Cert.KernelIdeal.gather_S64x2x256x256_S64x16x2x4_S64x16x2_n_0123_n_n_0123_3_1111
          (m ((c.tc : Thread Cert.KernelIdeal.nD Cert.KernelIdeal.τ).loc Cert.KernelIdeal.main_arg2))
          (Cert.KernelIdeal.KTail.gatherIx (m ((c.tc : Thread Cert.KernelIdeal.nD Cert.KernelIdeal.τ).loc Cert.KernelIdeal.main_arg6))) :=
    funext fun j => by
      obtain ⟨b, k, ch, rfl⟩ : ∃ (b : Fin 64) (k : Fin 16) (ch : Fin 2), j = ix3 b k ch := ⟨j 0, j 1, j 2, eq_ix3 j⟩
      rw [Cert.ReferenceIdeal.RTail.gather2_at, Cert.KernelIdeal.KTail.gather_at]
  rw [hX, hg1, hg2]
  rfl

end Cert.Bridge

end
-- ==== Proof.lean ====
/-
  The certificate. Both printed kernel programs run their one grid region between host lines and leave their seven
  argument arrays as launched; the reference, a host program, does so by its own run. The idealization rewrote nothing.
  Over the extended reals the kernel program and the reference end with the same total: the kernel's two partial
  heat-map sums add up to the reference's one sum (only the order and grouping of a sum in a commutative monoid
  differ), both gathers read the same entries, and the remaining operations are the same on both sides.
-/
import proofs.«404243_j39548058861680_3_alg».proof.Defs
import proofs.«404243_j39548058861680_3_alg».proof.Proof.Gen.Pre_finite_inputs
import proofs.«404243_j39548058861680_3_alg».proof.Proof.Kernel.Frame
import proofs.«404243_j39548058861680_3_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Fr.frame m ρ
theorem frame_pi : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments both programs end at the kernel program's total. -/
theorem algebraic : Cert.algebraic_KernelIdeal_ReferenceIdeal := by
  intro m ρ m' ρ' _ hagree
  refine ⟨fun c => Cert.KernelIdeal.Fr.result m c, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RTail.res_eq, (hagree c).1, (hagree c).2.1, (hagree c).2.2.1, (hagree c).2.2.2.1,
    (hagree c).2.2.2.2.1, (hagree c).2.2.2.2.2.1, (hagree c).2.2.2.2.2.2]
  exact Cert.Bridge.ref_total_eq m c

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
